-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S128x16 : Shape := ⟨2, ![128, 16]⟩
abbrev S16 : Shape := ⟨1, ![16]⟩
abbrev S1600000 : Shape := ⟨1, ![1600000]⟩
abbrev S100000 : Shape := ⟨1, ![100000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S1600000 : S_.BroadcastsInDim S1600000 (![] : Fin 0 → Fin S1600000.rank)
  reducesTo_S1600000_S_d0 : S1600000.ReducesTo [0] S_

variable [Facts]

def fn_part3 {F : FTy → Type} [FloatOps F] (main_arg9 : IVec S1600000 32) (main_v46 : IVec S_ 1) (main_v49 : IVec S_ 1) : IVec S_ 1 :=
  let main_v50 : IVec S_ 1 := andi main_v46 main_v49
  let main_c_20 : IVec S_ 32 := constantI S_ 32 100000#32
  let main_v51 : IVec S1600000 32 := broadcastInDim S1600000 ![] bcast_S_S1600000 main_c_20
  let main_v52 : IVec S1600000 1 := cmpi .slt main_arg9 main_v51
  let main_c_21 : IVec S_ 1 := constantI S_ 1 1#1
  let main_v53 : IVec S_ 1 := (fun x v => Host.reduce IntOp.andi x v reducesTo_S1600000_S_d0 h_S_) main_v52 main_c_21
  let main_v54 : IVec S_ 1 := andi main_v50 main_v53
  main_v54

def fn_part2 {F : FTy → Type} [FloatOps F] (main_arg7 : FVec F S16 .f32) (main_arg8 : IVec S1600000 32) (main_arg9 : IVec S1600000 32) (main_v33 : IVec S_ 1) : IVec S_ 1 :=
  let main_v34 : FVec F S16 .f32 := Host.absf main_arg7
  let main_cst_12 : FVec F S_ .f32 := constant S_ .f32 0x7F800000#32
  let main_v35 : FVec F S16 .f32 := broadcastInDim S16 ![] bcast_S_S16 main_cst_12
  let main_v36 : IVec S16 1 := cmpf .olt main_v34 main_v35
  let main_c_13 : IVec S_ 1 := constantI S_ 1 1#1
  let main_v37 : IVec S_ 1 := (fun x v => Host.reduce IntOp.andi x v reducesTo_S16_S_d0 h_S_) main_v36 main_c_13
  let main_v38 : IVec S_ 1 := andi main_v33 main_v37
  let main_c_14 : IVec S_ 32 := constantI S_ 32 0#32
  let main_v39 : IVec S1600000 32 := broadcastInDim S1600000 ![] bcast_S_S1600000 main_c_14
  let main_v40 : IVec S1600000 1 := cmpi .sge main_arg8 main_v39
  let main_c_15 : IVec S_ 1 := constantI S_ 1 1#1
  let main_v41 : IVec S_ 1 := (fun x v => Host.reduce IntOp.andi x v reducesTo_S1600000_S_d0 h_S_) main_v40 main_c_15
  let main_v42 : IVec S_ 1 := andi main_v38 main_v41
  let main_c_16 : IVec S_ 32 := constantI S_ 32 100000#32
  let main_v43 : IVec S1600000 32 := broadcastInDim S1600000 ![] bcast_S_S1600000 main_c_16
  let main_v44 : IVec S1600000 1 := cmpi .slt main_arg8 main_v43
  let main_c_17 : IVec S_ 1 := constantI S_ 1 1#1
  let main_v45 : IVec S_ 1 := (fun x v => Host.reduce IntOp.andi x v reducesTo_S1600000_S_d0 h_S_) main_v44 main_c_17
  let main_v46 : IVec S_ 1 := andi main_v42 main_v45
  let main_c_18 : IVec S_ 32 := constantI S_ 32 0#32
  let main_v47 : IVec S1600000 32 := broadcastInDim S1600000 ![] bcast_S_S1600000 main_c_18
  let main_v48 : IVec S1600000 1 := cmpi .sge main_arg9 main_v47
  let main_c_19 : IVec S_ 1 := constantI S_ 1 1#1
  let main_v49 : IVec S_ 1 := (fun x v => Host.reduce IntOp.andi x v reducesTo_S1600000_S_d0 h_S_) main_v48 main_c_19
  fn_part3 (F := F) main_arg9 main_v46 main_v49

def fn_part1 {F : FTy → Type} [FloatOps F] (main_arg4 : FVec F S128x128 .f32) (main_arg5 : FVec F S128 .f32) (main_arg6 : FVec F S128x16 .f32) (main_arg7 : FVec F S16 .f32) (main_arg8 : IVec S1600000 32) (main_arg9 : IVec S1600000 32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x16 .f32 := Host.absf main_arg6
  let main_cst_10 : FVec F S_ .f32 := constant S_ .f32 0x7F800000#32
  let main_v30 : FVec F S128x16 .f32 := broadcastInDim S128x16 ![] bcast_S_S128x16 main_cst_10
  let main_v31 : IVec S128x16 1 := cmpf .olt main_v29 main_v30
  let main_c_11 : IVec S_ 1 := constantI S_ 1 1#1
  let main_v32 : IVec S_ 1 := (fun x v => Host.reduce IntOp.andi x v reducesTo_S128x16_S_d0_1 h_S_) main_v31 main_c_11
  let main_v33 : IVec S_ 1 := andi main_v28 main_v32
  fn_part2 (F := F) main_arg7 main_arg8 main_arg9 main_v33

def fn {F : FTy → Type} [FloatOps F] (main_arg0 : FVec F S100000x128 .f32) (main_arg1 : FVec F S128x128 .f32) (main_arg2 : FVec F S128 .f32) (main_arg3 : FVec F S128 .f32) (main_arg4 : FVec F S128x128 .f32) (main_arg5 : FVec F S128 .f32) (main_arg6 : FVec F S128x16 .f32) (main_arg7 : FVec F S16 .f32) (main_arg8 : IVec S1600000 32) (main_arg9 : IVec S1600000 32) (main_arg10 : IVec S100000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_v13 main_v16
-- ==== Kernel.lean ====
abbrev S100000x128 : Shape := ⟨2, ![100000, 128]⟩
abbrev S128x128 : Shape := ⟨2, ![128, 128]⟩
abbrev S128 : Shape := ⟨1, ![128]⟩
abbrev S128x16 : Shape := ⟨2, ![128, 16]⟩
abbrev S16 : Shape := ⟨1, ![16]⟩
abbrev S1600000 : Shape := ⟨1, ![1600000]⟩
abbrev S100000 : Shape := ⟨1, ![100000]⟩
abbrev S_ : Shape := ⟨0, ![]⟩
abbrev S3200000 : Shape := ⟨1, ![3200000]⟩
abbrev S200000 : Shape := ⟨1, ![200000]⟩
abbrev S3200000x1 : Shape := ⟨2, ![3200000, 1]⟩
abbrev S100000x1 : Shape := ⟨2, ![100000, 1]⟩
abbrev S5000x128 : Shape := ⟨2, ![5000, 128]⟩
abbrev S5000x1 : Shape := ⟨2, ![5000, 1]⟩
abbrev S1600000x1 : Shape := ⟨2, ![1600000, 1]⟩
abbrev S1 : Shape := ⟨1, ![1]⟩
abbrev S1x1 : Shape := ⟨2, ![1, 1]⟩
abbrev S1600000x128 : Shape := ⟨2, ![1600000, 128]⟩
abbrev S1x128 : Shape := ⟨2, ![1, 128]⟩
abbrev S100x128 : Shape := ⟨2, ![100, 128]⟩
abbrev S100 : Shape := ⟨1, ![100]⟩
abbrev S100x1 : Shape := ⟨2, ![100, 1]⟩
abbrev S100x16 : Shape := ⟨2, ![100, 16]⟩
abbrev S1x16 : Shape := ⟨2, ![1, 16]⟩

abbrev nBuf : Space → Nat
  | .hbm => 137
  | .vmem => 25
  | .smem => 0
  | _ => 0

abbrev hbmTy0_0 (i : Nat) : BufTy := match i % 128 with
  | 0 => ⟨S100000x128, .f32⟩
  | 1 => ⟨S128x128, .f32⟩
  | 2 => ⟨S128, .f32⟩
  | 3 => ⟨S128, .f32⟩
  | 4 => ⟨S128x128, .f32⟩
  | 5 => ⟨S128, .f32⟩
  | 6 => ⟨S128x16, .f32⟩
  | 7 => ⟨S16, .f32⟩
  | 8 => ⟨S1600000, .i32⟩
  | 9 => ⟨S1600000, .i32⟩
  | 10 => ⟨S100000, .i32⟩
  | 11 => ⟨S_, .i32⟩
  | 12 => ⟨S1600000, .i32⟩
  | 13 => ⟨S1600000, .i32⟩
  | 14 => ⟨S3200000, .i32⟩
  | 15 => ⟨S_, .f32⟩
  | 16 => ⟨S3200000, .f32⟩
  | 17 => ⟨S_, .f32⟩
  | 18 => ⟨S200000, .f32⟩
  | 19 => ⟨S3200000x1, .i32⟩
  | 20 => ⟨S200000, .f32⟩
  | 21 => ⟨S100000, .f32⟩
  | 22 => ⟨S100000, .f32⟩
  | 23 => ⟨S_, .f32⟩
  | 24 => ⟨S100000, .f32⟩
  | 25 => ⟨S100000, .i1⟩
  | 26 => ⟨S_, .f32⟩
  | 27 => ⟨S100000, .f32⟩
  | 28 => ⟨S100000, .f32⟩
  | 29 => ⟨S100000, .f32⟩
  | 30 => ⟨S_, .f32⟩
  | 31 => ⟨S_, .f32⟩
  | 32 => ⟨S100000, .f32⟩
  | 33 => ⟨S100000, .f32⟩
  | 34 => ⟨S_, .f32⟩
  | 35 => ⟨S100000, .f32⟩
  | 36 => ⟨S100000, .i1⟩
  | 37 => ⟨S_, .f32⟩
  | 38 => ⟨S100000, .f32⟩
  | 39 => ⟨S100000, .f32⟩
  | 40 => ⟨S100000, .f32⟩
  | 41 => ⟨S_, .f32⟩
  | 42 => ⟨S_, .f32⟩
  | 43 => ⟨S100000, .f32⟩
  | 44 => ⟨S100000, .f32⟩
  | 45 => ⟨S_, .f32⟩
  | 46 => ⟨S_, .f32⟩
  | 47 => ⟨S_, .f32⟩
  | 48 => ⟨S128, .f32⟩
  | 49 => ⟨S128, .f32⟩
  | 50 => ⟨S_, .f32⟩
  | 51 => ⟨S128, .f32⟩
  | 52 => ⟨S128, .f32⟩
  | 53 => ⟨S100000x1, .f32⟩
  | 54 => ⟨S100000x128, .f32⟩
  | 55 => ⟨S_, .i32⟩
  | 56 => ⟨S1600000, .i32⟩
  | 57 => ⟨S1600000, .i1⟩
  | 58 => ⟨S_, .i32⟩
  | 59 => ⟨S1600000, .i32⟩
  | 60 => ⟨S1600000, .i32⟩
  | 61 => ⟨S1600000, .i32⟩
  | 62 => ⟨S1600000x1, .i32⟩
  | 63 => ⟨S1, .i32⟩
  | 64 => ⟨S_, .i32⟩
  | 65 => ⟨S1600000x1, .i32⟩
  | 66 => ⟨S1600000x1, .i1⟩
  | 67 => ⟨S1x1, .i32⟩
  | 68 => ⟨S1600000x1, .i32⟩
  | 69 => ⟨S1600000x1, .i1⟩
  | 70 => ⟨S1600000x1, .i1⟩
  | 71 => ⟨S_, .i1⟩
  | 72 => ⟨S1600000, .i1⟩
  | 73 => ⟨S1600000x128, .f32⟩
  | 74 => ⟨S1600000x128, .i1⟩
  | 75 => ⟨S_, .f32⟩
  | 76 => ⟨S1600000x128, .f32⟩
  | 77 => ⟨S1600000x128, .f32⟩
  | 78 => ⟨S_, .f32⟩
  | 79 => ⟨S100000x128, .f32⟩
  | 80 => ⟨S1600000x1, .i32⟩
  | 81 => ⟨S100000x128, .f32⟩
  | 82 => ⟨S100000x1, .f32⟩
  | 83 => ⟨S100000x1, .f32⟩
  | 84 => ⟨S1x128, .f32⟩
  | 85 => ⟨S1x128, .f32⟩
  | 86 => ⟨S100000x128, .f32⟩
  | 87 => ⟨S_, .i32⟩
  | 88 => ⟨S1600000, .i32⟩
  | 89 => ⟨S1600000, .i1⟩
  | 90 => ⟨S_, .i32⟩
  | 91 => ⟨S1600000, .i32⟩
  | 92 => ⟨S1600000, .i32⟩
  | 93 => ⟨S1600000, .i32⟩
  | 94 => ⟨S1600000x1, .i32⟩
  | 95 => ⟨S1, .i32⟩
  | 96 => ⟨S_, .i32⟩
  | 97 => ⟨S1600000x1, .i32⟩
  | 98 => ⟨S1600000x1, .i1⟩
  | 99 => ⟨S1x1, .i32⟩
  | 100 => ⟨S1600000x1, .i32⟩
  | 101 => ⟨S1600000x1, .i1⟩
  | 102 => ⟨S1600000x1, .i1⟩
  | 103 => ⟨S_, .i1⟩
  | 104 => ⟨S1600000, .i1⟩
  | 105 => ⟨S1600000x128, .f32⟩
  | 106 => ⟨S1600000x128, .i1⟩
  | 107 => ⟨S_, .f32⟩
  | 108 => ⟨S1600000x128, .f32⟩
  | 109 => ⟨S1600000x128, .f32⟩
  | 110 => ⟨S_, .f32⟩
  | 111 => ⟨S100000x128, .f32⟩
  | 112 => ⟨S1600000x1, .i32⟩
  | 113 => ⟨S100000x128, .f32⟩
  | 114 => ⟨S100000x1, .f32⟩
  | 115 => ⟨S1x128, .f32⟩
  | 116 => ⟨S100000x128, .f32⟩
  | 117 => ⟨S_, .f32⟩
  | 118 => ⟨S100x128, .f32⟩
  | 119 => ⟨S100000x1, .i32⟩
  | 120 => ⟨S100x128, .f32⟩
  | 121 => ⟨S_, .f32⟩
  | 122 => ⟨S100000, .f32⟩
  | 123 => ⟨S_, .f32⟩
  | 124 => ⟨S100, .f32⟩
  | 125 => ⟨S100000x1, .i32⟩
  | 126 => ⟨S100, .f32⟩
  | 127 => ⟨S_, .f32⟩
  | _ => ⟨S100000x128, .f32⟩

abbrev hbmTy0_1 (i : Nat) : BufTy := match i % 128 with
  | 0 => ⟨S100, .f32⟩
  | 1 => ⟨S100, .f32⟩
  | 2 => ⟨S100x1, .f32⟩
  | 3 => ⟨S100x128, .f32⟩
  | 4 => ⟨S100x128, .f32⟩
  | 5 => ⟨S100x16, .f32⟩
  | 6 => ⟨S1x16, .f32⟩
  | 7 => ⟨S100x16, .f32⟩
  | 8 => ⟨S100x16, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128x128, .f32⟩
  | .local _ .vmem, ⟨9, _⟩ => ⟨S1x128, .f32⟩
  | .local _ .vmem, ⟨10, _⟩ => ⟨S5000x1, .f32⟩
  | .local _ .vmem, ⟨11, _⟩ => ⟨S5000x1, .f32⟩
  | .local _ .vmem, ⟨12, _⟩ => ⟨S1x128, .f32⟩
  | .local _ .vmem, ⟨13, _⟩ => ⟨S5000x1, .f32⟩
  | .local _ .vmem, ⟨14, _⟩ => ⟨S5000x1, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S128x128, .f32⟩
  | .local _ .vmem, ⟨20, _⟩ => ⟨S1x128, .f32⟩
  | .local _ .vmem, ⟨21, _⟩ => ⟨S5000x1, .f32⟩
  | .local _ .vmem, ⟨22, _⟩ => ⟨S5000x1, .f32⟩
  | .local _ .vmem, ⟨23, _⟩ => ⟨S5000x128, .f32⟩
  | .local _ .vmem, ⟨24, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst : Ref sig .tc := ⟨.hbm, 15, rfl⟩
abbrev main_v3 : Ref sig .tc := ⟨.hbm, 16, rfl⟩
abbrev main_cst_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_1 : Ref sig .tc := ⟨.hbm, 23, rfl⟩
abbrev main_v9 : Ref sig .tc := ⟨.hbm, 24, rfl⟩
abbrev main_v10 : Ref sig .tc := ⟨.hbm, 25, rfl⟩
abbrev main_cst_2 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v14 : Ref sig .tc := ⟨.hbm, 33, rfl⟩
abbrev main_cst_4 : Ref sig .tc := ⟨.hbm, 34, rfl⟩
abbrev main_v15 : Ref sig .tc := ⟨.hbm, 35, rfl⟩
abbrev main_v16 : Ref sig .tc := ⟨.hbm, 36, rfl⟩
abbrev main_cst_5 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_cst_6 : Ref sig .tc := ⟨.hbm, 41, rfl⟩
abbrev main_call1_v0 : Ref sig .tc := ⟨.hbm, 42, rfl⟩
abbrev main_call1_v1 : Ref sig .tc := ⟨.hbm, 43, rfl⟩
abbrev main_v20 : Ref sig .tc := ⟨.hbm, 44, rfl⟩
abbrev main_cst_7 : Ref sig .tc := ⟨.hbm, 45, rfl⟩
abbrev main_cst_8 : Ref sig .tc := ⟨.hbm, 46, rfl⟩
abbrev main_call2_v0 : Ref sig .tc := ⟨.hbm, 47, rfl⟩
abbrev main_call2_v1 : Ref sig .tc := ⟨.hbm, 48, rfl⟩
abbrev main_call2_v2 : Ref sig .tc := ⟨.hbm, 49, rfl⟩
abbrev main_call2_v3 : Ref sig .tc := ⟨.hbm, 50, rfl⟩
abbrev main_call2_v4 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_call3_c : Ref sig .tc := ⟨.hbm, 55, rfl⟩
abbrev main_call3_v0 : Ref sig .tc := ⟨.hbm, 56, rfl⟩
abbrev main_call3_v1 : Ref sig .tc := ⟨.hbm, 57, rfl⟩
abbrev main_call3_c_0 : Ref sig .tc := ⟨.hbm, 58, rfl⟩
abbrev main_call3_v2 : Ref sig .tc := ⟨.hbm, 59, rfl⟩
abbrev main_call3_v3 : Ref sig .tc := ⟨.hbm, 60, rfl⟩
abbrev main_call3_v4 : Ref sig .tc := ⟨.hbm, 61, rfl⟩
abbrev main_call3_v5 : Ref sig .tc := ⟨.hbm, 62, rfl⟩
abbrev main_call3_c_1 : Ref sig .tc := ⟨.hbm, 63, rfl⟩
abbrev main_call3_c_2 : Ref sig .tc := ⟨.hbm, 64, rfl⟩
abbrev main_call3_v6 : Ref sig .tc := ⟨.hbm, 65, rfl⟩
abbrev main_call3_v7 : Ref sig .tc := ⟨.hbm, 66, rfl⟩
abbrev main_call3_v8 : Ref sig .tc := ⟨.hbm, 67, rfl⟩
abbrev main_call3_v9 : Ref sig .tc := ⟨.hbm, 68, rfl⟩
abbrev main_call3_v10 : Ref sig .tc := ⟨.hbm, 69, rfl⟩
abbrev main_call3_v11 : Ref sig .tc := ⟨.hbm, 70, rfl⟩
abbrev main_call3_c_3 : Ref sig .tc := ⟨.hbm, 71, rfl⟩
abbrev main_call3_v12 : Ref sig .tc := ⟨.hbm, 72, rfl⟩
abbrev main_call3_v13 : Ref sig .tc := ⟨.hbm, 73, rfl⟩
abbrev main_call3_v14 : Ref sig .tc := ⟨.hbm, 74, rfl⟩
abbrev main_call3_cst : Ref sig .tc := ⟨.hbm, 75, rfl⟩
abbrev main_call3_v15 : Ref sig .tc := ⟨.hbm, 76, rfl⟩
abbrev main_v24 : Ref sig .tc := ⟨.hbm, 77, rfl⟩
abbrev main_cst_9 : Ref sig .tc := ⟨.hbm, 78, rfl⟩
abbrev main_v25 : Ref sig .tc := ⟨.hbm, 79, rfl⟩
abbrev main_v26 : Ref sig .tc := ⟨.hbm, 80, rfl⟩
abbrev main_v27 : Ref sig .tc := ⟨.hbm, 81, rfl⟩
abbrev main_v28 : Ref sig .tc := ⟨.hbm, 82, rfl⟩
abbrev main_v29 : Ref sig .tc := ⟨.hbm, 83, rfl⟩
abbrev main_v30 : Ref sig .tc := ⟨.hbm, 84, rfl⟩
abbrev main_v31 : Ref sig .tc := ⟨.hbm, 85, rfl⟩
abbrev main_v32 : Ref sig .tc := ⟨.hbm, 86, rfl⟩
abbrev main_call4_c : Ref sig .tc := ⟨.hbm, 87, rfl⟩
abbrev main_call4_v0 : Ref sig .tc := ⟨.hbm, 88, rfl⟩
abbrev main_call4_v1 : Ref sig .tc := ⟨.hbm, 89, rfl⟩
abbrev main_call4_c_0 : Ref sig .tc := ⟨.hbm, 90, rfl⟩
abbrev main_call4_v2 : Ref sig .tc := ⟨.hbm, 91, rfl⟩
abbrev main_call4_v3 : Ref sig .tc := ⟨.hbm, 92, rfl⟩
abbrev main_call4_v4 : Ref sig .tc := ⟨.hbm, 93, rfl⟩
abbrev main_call4_v5 : Ref sig .tc := ⟨.hbm, 94, rfl⟩
abbrev main_call4_c_1 : Ref sig .tc := ⟨.hbm, 95, rfl⟩
abbrev main_call4_c_2 : Ref sig .tc := ⟨.hbm, 96, rfl⟩
abbrev main_call4_v6 : Ref sig .tc := ⟨.hbm, 97, rfl⟩
abbrev main_call4_v7 : Ref sig .tc := ⟨.hbm, 98, rfl⟩
abbrev main_call4_v8 : Ref sig .tc := ⟨.hbm, 99, rfl⟩
abbrev main_call4_v9 : Ref sig .tc := ⟨.hbm, 100, rfl⟩
abbrev main_call4_v10 : Ref sig .tc := ⟨.hbm, 101, rfl⟩
abbrev main_call4_v11 : Ref sig .tc := ⟨.hbm, 102, rfl⟩
abbrev main_call4_c_3 : Ref sig .tc := ⟨.hbm, 103, rfl⟩
abbrev main_call4_v12 : Ref sig .tc := ⟨.hbm, 104, rfl⟩
abbrev main_call4_v13 : Ref sig .tc := ⟨.hbm, 105, rfl⟩
abbrev main_call4_v14 : Ref sig .tc := ⟨.hbm, 106, rfl⟩
abbrev main_call4_cst : Ref sig .tc := ⟨.hbm, 107, rfl⟩
abbrev main_call4_v15 : Ref sig .tc := ⟨.hbm, 108, rfl⟩
abbrev main_v33 : Ref sig .tc := ⟨.hbm, 109, rfl⟩
abbrev main_cst_10 : Ref sig .tc := ⟨.hbm, 110, rfl⟩
abbrev main_v34 : Ref sig .tc := ⟨.hbm, 111, rfl⟩
abbrev main_v35 : Ref sig .tc := ⟨.hbm, 112, rfl⟩
abbrev main_v36 : Ref sig .tc := ⟨.hbm, 113, rfl⟩
abbrev main_v37 : Ref sig .tc := ⟨.hbm, 114, rfl⟩
abbrev main_v38 : Ref sig .tc := ⟨.hbm, 115, rfl⟩
abbrev main_v39 : Ref sig .tc := ⟨.hbm, 116, rfl⟩
abbrev main_cst_11 : Ref sig .tc := ⟨.hbm, 117, rfl⟩
abbrev main_v40 : Ref sig .tc := ⟨.hbm, 118, rfl⟩
abbrev main_v41 : Ref sig .tc := ⟨.hbm, 119, rfl⟩
abbrev main_v42 : Ref sig .tc := ⟨.hbm, 120, rfl⟩
abbrev main_cst_12 : Ref sig .tc := ⟨.hbm, 121, rfl⟩
abbrev main_v43 : Ref sig .tc := ⟨.hbm, 122, rfl⟩
abbrev main_cst_13 : Ref sig .tc := ⟨.hbm, 123, rfl⟩
abbrev main_v44 : Ref sig .tc := ⟨.hbm, 124, rfl⟩
abbrev main_v45 : Ref sig .tc := ⟨.hbm, 125, rfl⟩
abbrev main_v46 : Ref sig .tc := ⟨.hbm, 126, rfl⟩
abbrev main_cst_14 : Ref sig .tc := ⟨.hbm, 127, rfl⟩
abbrev main_v47 : Ref sig .tc := ⟨.hbm, 128, rfl⟩
abbrev main_v48 : Ref sig .tc := ⟨.hbm, 129, rfl⟩
abbrev main_v49 : Ref sig .tc := ⟨.hbm, 130, rfl⟩
abbrev main_v50 : Ref sig .tc := ⟨.hbm, 131, rfl⟩
abbrev main_v51 : Ref sig .tc := ⟨.hbm, 132, rfl⟩
abbrev main_v52 : Ref sig .tc := ⟨.hbm, 133, rfl⟩
abbrev main_v53 : Ref sig .tc := ⟨.hbm, 134, rfl⟩
abbrev main_v54 : Ref sig .tc := ⟨.hbm, 135, rfl⟩
abbrev main_v55 : Ref sig .tc := ⟨.hbm, 136, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc1_stg6_0 : Ref sig .tc := ⟨.vmem, 15, rfl⟩
abbrev cc1_stg6_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg3_1 : Ref sig .tc := ⟨.vmem, 22, rfl⟩
abbrev cc2_stg4_0 : Ref sig .tc := ⟨.vmem, 23, rfl⟩
abbrev cc2_stg4_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc1_sem4_0 : DmaSem sig := 12
abbrev cc1_sem5_0 : DmaSem sig := 13
abbrev cc1_sem5_1 : DmaSem sig := 14
abbrev cc1_sem6_0 : DmaSem sig := 15
abbrev cc1_sem6_1 : DmaSem sig := 16
abbrev cc2_sem0_0 : DmaSem sig := 17
abbrev cc2_sem0_1 : DmaSem sig := 18
abbrev cc2_sem1_0 : DmaSem sig := 19
abbrev cc2_sem2_0 : DmaSem sig := 20
abbrev cc2_sem3_0 : DmaSem sig := 21
abbrev cc2_sem3_1 : DmaSem sig := 22
abbrev cc2_sem4_0 : DmaSem sig := 23
abbrev cc2_sem4_1 : DmaSem sig := 24

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  bcast_S_S1600000 : S_.BroadcastsInDim S1600000 (![] : Fin 0 → Fin S1600000.rank)
  concatenates_S1600000_S1600000_S3200000_d0 : Shape.Concatenates [S1600000, S1600000] S3200000 0
  bcast_S_S3200000 : S_.BroadcastsInDim S3200000 (![] : Fin 0 → Fin S3200000.rank)
  bcast_S_S200000 : S_.BroadcastsInDim S200000 (![] : Fin 0 → Fin S200000.rank)
  bcast_S3200000_S3200000x1_0 : S3200000.BroadcastsInDim S3200000x1 (![0] : Fin 1 → Fin S3200000x1.rank)
  slices_S200000_S100000_0 : S200000.Slices ![0] S100000
  slices_S200000_S100000_100000 : S200000.Slices ![100000] S100000
  bcast_S_S100000 : S_.BroadcastsInDim S100000 (![] : Fin 0 → Fin S100000.rank)
  bcast_S_S128 : S_.BroadcastsInDim S128 (![] : Fin 0 → Fin S128.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x128_0 : S1600000.BroadcastsInDim S1600000x128 (![0] : Fin 1 → Fin S1600000x128.rank)
  bcast_S_S1600000x128 : S_.BroadcastsInDim S1600000x128 (![] : Fin 0 → Fin S1600000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S100x128 : S_.BroadcastsInDim S100x128 (![] : Fin 0 → Fin S100x128.rank)
  bcast_S100000_S100000x1_0 : S100000.BroadcastsInDim S100000x1 (![0] : Fin 1 → Fin S100000x1.rank)
  bcast_S_S100 : S_.BroadcastsInDim S100 (![] : Fin 0 → Fin S100.rank)
  bcast_S100_S100x1_0 : S100.BroadcastsInDim S100x1 (![0] : Fin 1 → Fin S100x1.rank)
  bcast_S100x1_S100x128_0_1 : S100x1.BroadcastsInDim S100x128 (![0, 1] : Fin 2 → Fin S100x128.rank)
  bcast_S16_S1x16_1 : S16.BroadcastsInDim S1x16 (![1] : Fin 1 → Fin S1x16.rank)
  bcast_S1x16_S100x16_0_1 : S1x16.BroadcastsInDim S100x16 (![0, 1] : Fin 2 → Fin S100x16.rank)
  scatter_S200000_S3200000x1_S3200000_n_0_0_1_wf : ScatterDims.WF S200000 S3200000x1 S3200000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  scatter_S100x128_S100000x1_S100000x128_1_0_0_1_wf : ScatterDims.WF S100x128 S100000x1 S100000x128 [1] [0] [0] 1
  scatter_S100_S100000x1_S100000_n_0_0_1_wf : ScatterDims.WF S100 S100000x1 S100000 [] [0] [0] 1
  dot_S100x128_S128x16_S100x16_1_0_0_1_n_n_wf : DotDims.WF S100x128 S128x16 S100x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x1.size a ≤ S100000x1.size a
  hwx1_3 : ∀ i : grid1.Coords, EltTy.bits .f32 = 32 ∨ (Rect.block (s := S100000x1) S5000x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x1.size a ≤ S100000x1.size a
  hwx1_5 : ∀ i : grid1.Coords, EltTy.bits .f32 = 32 ∨ (Rect.block (s := S100000x1) S5000x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S100000x128.size a
  hwx1_6 : ∀ i : grid1.Coords, EltTy.bits .f32 = 32 ∨ (Rect.block (s := S100000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x1.size a ≤ S100000x1.size a
  hwx2_3 : ∀ i : grid2.Coords, EltTy.bits .f32 = 32 ∨ (Rect.block (s := S100000x1) S5000x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S100000x128.size a
  hwx2_4 : ∀ i : grid2.Coords, EltTy.bits .f32 = 32 ∨ (Rect.block (s := S100000x128) S5000x128.size (cc2_transform_4 i) (hinb2_4 i)).WholeWords (EltTy.packing .f32)

variable [Facts₀]

def scatter_S200000_S3200000x1_S3200000_n_0_0_1 : ScatterDims S200000 S3200000x1 S3200000 where
  updateWindowDims := []
  insertedWindowDims := [0]
  scatterDimsToOperandDims := [0]
  indexVectorDim := 1
  wf := scatter_S200000_S3200000x1_S3200000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S100x128_S100000x1_S100000x128_1_0_0_1 : ScatterDims S100x128 S100000x1 S100000x128 where
  updateWindowDims := [1]
  insertedWindowDims := [0]
  scatterDimsToOperandDims := [0]
  indexVectorDim := 1
  wf := scatter_S100x128_S100000x1_S100000x128_1_0_0_1_wf
def scatter_S100_S100000x1_S100000_n_0_0_1 : ScatterDims S100 S100000x1 S100000 where
  updateWindowDims := []
  insertedWindowDims := [0]
  scatterDimsToOperandDims := [0]
  indexVectorDim := 1
  wf := scatter_S100_S100000x1_S100000_n_0_0_1_wf
def dot_S100x128_S128x16_S100x16_1_0_0_1_n_n : DotDims S100x128 S128x16 S100x16 where
  lhsContracting := [1]
  rhsContracting := [0]
  lhsNonContracting := [0]
  rhsNonContracting := [1]
  lhsBatch := []
  rhsBatch := []
  wf := dot_S100x128_S128x16_S100x16_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v27) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v30) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v28) S5000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v31) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v29) S5000x1.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v32) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v36) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v38) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v37) S5000x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v39) S5000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S128x16 : Shape := ⟨2, ![128, 16]⟩
abbrev S16 : Shape := ⟨1, ![16]⟩
abbrev S1600000 : Shape := ⟨1, ![1600000]⟩
abbrev S100000 : Shape := ⟨1, ![100000]⟩
abbrev S_ : Shape := ⟨0, ![]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S100x128 : Shape := ⟨2, ![100, 128]⟩
abbrev S100 : Shape := ⟨1, ![100]⟩
abbrev S100x1 : Shape := ⟨2, ![100, 1]⟩
abbrev S100x16 : Shape := ⟨2, ![100, 16]⟩
abbrev S1x16 : Shape := ⟨2, ![1, 16]⟩

abbrev nBuf : Space → Nat
  | .hbm => 123
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x16, .f32⟩
  | .hbm, ⟨7, _⟩ => ⟨S16, .f32⟩
  | .hbm, ⟨8, _⟩ => ⟨S1600000, .i32⟩
  | .hbm, ⟨9, _⟩ => ⟨S1600000, .i32⟩
  | .hbm, ⟨10, _⟩ => ⟨S100000, .i32⟩
  | .hbm, ⟨11, _⟩ => ⟨S_, .f32⟩
  | .hbm, ⟨12, _⟩ => ⟨S1600000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S1600000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .f32⟩
  | .hbm, ⟨33, _⟩ => ⟨S100000, .f32⟩
  | .hbm, ⟨34, _⟩ => ⟨S100000, .i1⟩
  | .hbm, ⟨35, _⟩ => ⟨S_, .f32⟩
  | .hbm, ⟨36, _⟩ => ⟨S100000, .f32⟩
  | .hbm, ⟨37, _⟩ => ⟨S100000, .f32⟩
  | .hbm, ⟨38, _⟩ => ⟨S100000, .f32⟩
  | .hbm, ⟨39, _⟩ => ⟨S_, .f32⟩
  | .hbm, ⟨40, _⟩ => ⟨S_, .f32⟩
  | .hbm, ⟨41, _⟩ => ⟨S100000, .f32⟩
  | .hbm, ⟨42, _⟩ => ⟨S100000, .f32⟩
  | .hbm, ⟨43, _⟩ => ⟨S100000x128, .f32⟩
  | .hbm, ⟨44, _⟩ => ⟨S100000x1, .f32⟩
  | .hbm, ⟨45, _⟩ => ⟨S100000x128, .f32⟩
  | .hbm, ⟨46, _⟩ => ⟨S100000x128, .f32⟩
  | .hbm, ⟨47, _⟩ => ⟨S_, .i32⟩
  | .hbm, ⟨48, _⟩ => ⟨S1600000, .i32⟩
  | .hbm, ⟨49, _⟩ => ⟨S1600000, .i1⟩
  | .hbm, ⟨50, _⟩ => ⟨S_, .i32⟩
  | .hbm, ⟨51, _⟩ => ⟨S1600000, .i32⟩
  | .hbm, ⟨52, _⟩ => ⟨S1600000, .i32⟩
  | .hbm, ⟨53, _⟩ => ⟨S1600000, .i32⟩
  | .hbm, ⟨54, _⟩ => ⟨S1600000x1, .i32⟩
  | .hbm, ⟨55, _⟩ => ⟨S1600000x128, .f32⟩
  | .hbm, ⟨56, _⟩ => ⟨S_, .f32⟩
  | .hbm, ⟨57, _⟩ => ⟨S100000x128, .f32⟩
  | .hbm, ⟨58, _⟩ => ⟨S1600000x1, .i32⟩
  | .hbm, ⟨59, _⟩ => ⟨S100000x128, .f32⟩
  | .hbm, ⟨60, _⟩ => ⟨S100000x1, .f32⟩
  | .hbm, ⟨61, _⟩ => ⟨S100000x128, .f32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S100000x128, .f32⟩
  | .hbm, ⟨68, _⟩ => ⟨S100000x128, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S128, .f32⟩
  | .hbm, ⟨73, _⟩ => ⟨S128, .f32⟩
  | .hbm, ⟨74, _⟩ => ⟨S_, .f32⟩
  | .hbm, ⟨75, _⟩ => ⟨S128, .f32⟩
  | .hbm, ⟨76, _⟩ => ⟨S128, .f32⟩
  | .hbm, ⟨77, _⟩ => ⟨S1x128, .f32⟩
  | .hbm, ⟨78, _⟩ => ⟨S100000x128, .f32⟩
  | .hbm, ⟨79, _⟩ => ⟨S100000x128, .f32⟩
  | .hbm, ⟨80, _⟩ => ⟨S100000x128, .f32⟩
  | .hbm, ⟨81, _⟩ => ⟨S100000x1, .f32⟩
  | .hbm, ⟨82, _⟩ => ⟨S100000x128, .f32⟩
  | .hbm, ⟨83, _⟩ => ⟨S100000x128, .f32⟩
  | .hbm, ⟨84, _⟩ => ⟨S_, .i32⟩
  | .hbm, ⟨85, _⟩ => ⟨S1600000, .i32⟩
  | .hbm, ⟨86, _⟩ => ⟨S1600000, .i1⟩
  | .hbm, ⟨87, _⟩ => ⟨S_, .i32⟩
  | .hbm, ⟨88, _⟩ => ⟨S1600000, .i32⟩
  | .hbm, ⟨89, _⟩ => ⟨S1600000, .i32⟩
  | .hbm, ⟨90, _⟩ => ⟨S1600000, .i32⟩
  | .hbm, ⟨91, _⟩ => ⟨S1600000x1, .i32⟩
  | .hbm, ⟨92, _⟩ => ⟨S1600000x128, .f32⟩
  | .hbm, ⟨93, _⟩ => ⟨S_, .f32⟩
  | .hbm, ⟨94, _⟩ => ⟨S100000x128, .f32⟩
  | .hbm, ⟨95, _⟩ => ⟨S1600000x1, .i32⟩
  | .hbm, ⟨96, _⟩ => ⟨S100000x128, .f32⟩
  | .hbm, ⟨97, _⟩ => ⟨S100000x1, .f32⟩
  | .hbm, ⟨98, _⟩ => ⟨S100000x128, .f32⟩
  | .hbm, ⟨99, _⟩ => ⟨S100000x128, .f32⟩
  | .hbm, ⟨100, _⟩ => ⟨S1x128, .f32⟩
  | .hbm, ⟨101, _⟩ => ⟨S100000x128, .f32⟩
  | .hbm, ⟨102, _⟩ => ⟨S100000x128, .f32⟩
  | .hbm, ⟨103, _⟩ => ⟨S_, .f32⟩
  | .hbm, ⟨104, _⟩ => ⟨S100x128, .f32⟩
  | .hbm, ⟨105, _⟩ => ⟨S100000x1, .i32⟩
  | .hbm, ⟨106, _⟩ => ⟨S100x128, .f32⟩
  | .hbm, ⟨107, _⟩ => ⟨S_, .f32⟩
  | .hbm, ⟨108, _⟩ => ⟨S100000, .f32⟩
  | .hbm, ⟨109, _⟩ => ⟨S_, .f32⟩
  | .hbm, ⟨110, _⟩ => ⟨S100, .f32⟩
  | .hbm, ⟨111, _⟩ => ⟨S100000x1, .i32⟩
  | .hbm, ⟨112, _⟩ => ⟨S100, .f32⟩
  | .hbm, ⟨113, _⟩ => ⟨S_, .f32⟩
  | .hbm, ⟨114, _⟩ => ⟨S100, .f32⟩
  | .hbm, ⟨115, _⟩ => ⟨S100, .f32⟩
  | .hbm, ⟨116, _⟩ => ⟨S100x1, .f32⟩
  | .hbm, ⟨117, _⟩ => ⟨S100x128, .f32⟩
  | .hbm, ⟨118, _⟩ => ⟨S100x128, .f32⟩
  | .hbm, ⟨119, _⟩ => ⟨S100x16, .f32⟩
  | .hbm, ⟨120, _⟩ => ⟨S1x16, .f32⟩
  | .hbm, ⟨121, _⟩ => ⟨S100x16, .f32⟩
  | .hbm, ⟨122, _⟩ => ⟨S100x16, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_1 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_2 : Ref sig .tc := ⟨.hbm, 21, rfl⟩
abbrev main_v7 : Ref sig .tc := ⟨.hbm, 22, rfl⟩
abbrev main_v8 : Ref sig .tc := ⟨.hbm, 23, rfl⟩
abbrev main_cst_3 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_4 : Ref sig .tc := ⟨.hbm, 28, rfl⟩
abbrev main_call0_v0 : Ref sig .tc := ⟨.hbm, 29, rfl⟩
abbrev main_call0_v1 : Ref sig .tc := ⟨.hbm, 30, rfl⟩
abbrev main_v12 : Ref sig .tc := ⟨.hbm, 31, rfl⟩
abbrev main_cst_5 : Ref sig .tc := ⟨.hbm, 32, rfl⟩
abbrev main_v13 : Ref sig .tc := ⟨.hbm, 33, rfl⟩
abbrev main_v14 : Ref sig .tc := ⟨.hbm, 34, rfl⟩
abbrev main_cst_6 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst_7 : Ref sig .tc := ⟨.hbm, 39, rfl⟩
abbrev main_call1_v0 : Ref sig .tc := ⟨.hbm, 40, rfl⟩
abbrev main_call1_v1 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_c : Ref sig .tc := ⟨.hbm, 47, rfl⟩
abbrev main_v23 : Ref sig .tc := ⟨.hbm, 48, rfl⟩
abbrev main_v24 : Ref sig .tc := ⟨.hbm, 49, rfl⟩
abbrev main_c_8 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_cst_9 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_call2_cst : Ref sig .tc := ⟨.hbm, 66, rfl⟩
abbrev main_call2_v0 : Ref sig .tc := ⟨.hbm, 67, rfl⟩
abbrev main_v39 : Ref sig .tc := ⟨.hbm, 68, rfl⟩
abbrev main_cst_10 : Ref sig .tc := ⟨.hbm, 69, rfl⟩
abbrev main_cst_11 : Ref sig .tc := ⟨.hbm, 70, rfl⟩
abbrev main_call3_v0 : Ref sig .tc := ⟨.hbm, 71, rfl⟩
abbrev main_call3_v1 : Ref sig .tc := ⟨.hbm, 72, rfl⟩
abbrev main_call3_v2 : Ref sig .tc := ⟨.hbm, 73, rfl⟩
abbrev main_call3_v3 : Ref sig .tc := ⟨.hbm, 74, rfl⟩
abbrev main_call3_v4 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_c_12 : Ref sig .tc := ⟨.hbm, 84, rfl⟩
abbrev main_v48 : Ref sig .tc := ⟨.hbm, 85, rfl⟩
abbrev main_v49 : Ref sig .tc := ⟨.hbm, 86, rfl⟩
abbrev main_c_13 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_cst_14 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_cst_15 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_cst_16 : Ref sig .tc := ⟨.hbm, 107, rfl⟩
abbrev main_v67 : Ref sig .tc := ⟨.hbm, 108, rfl⟩
abbrev main_cst_17 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_cst_18 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S128 : S_.BroadcastsInDim S128 (![] : Fin 0 → Fin S128.rank)
  bcast_S_S100x128 : S_.BroadcastsInDim S100x128 (![] : Fin 0 → Fin S100x128.rank)
  bcast_S_S100 : S_.BroadcastsInDim S100 (![] : Fin 0 → Fin S100.rank)
  bcast_S100_S100x1_0 : S100.BroadcastsInDim S100x1 (![0] : Fin 1 → Fin S100x1.rank)
  bcast_S100x1_S100x128_0_1 : S100x1.BroadcastsInDim S100x128 (![0, 1] : Fin 2 → Fin S100x128.rank)
  bcast_S16_S1x16_1 : S16.BroadcastsInDim S1x16 (![1] : Fin 1 → Fin S1x16.rank)
  bcast_S1x16_S100x16_0_1 : S1x16.BroadcastsInDim S100x16 (![0, 1] : Fin 2 → Fin S100x16.rank)
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100x128_S100000x1_S100000x128_1_0_0_1_wf : ScatterDims.WF S100x128 S100000x1 S100000x128 [1] [0] [0] 1
  scatter_S100_S100000x1_S100000_n_0_0_1_wf : ScatterDims.WF S100 S100000x1 S100000 [] [0] [0] 1
  dot_S100x128_S128x16_S100x16_1_0_0_1_n_n_wf : DotDims.WF S100x128 S128x16 S100x16 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100x128_S100000x1_S100000x128_1_0_0_1 : ScatterDims S100x128 S100000x1 S100000x128 where
  updateWindowDims := [1]
  insertedWindowDims := [0]
  scatterDimsToOperandDims := [0]
  indexVectorDim := 1
  wf := scatter_S100x128_S100000x1_S100000x128_1_0_0_1_wf
def scatter_S100_S100000x1_S100000_n_0_0_1 : ScatterDims S100 S100000x1 S100000 where
  updateWindowDims := []
  insertedWindowDims := [0]
  scatterDimsToOperandDims := [0]
  indexVectorDim := 1
  wf := scatter_S100_S100000x1_S100000_n_0_0_1_wf
def dot_S100x128_S128x16_S100x16_1_0_0_1_n_n : DotDims S100x128 S128x16 S100x16 where
  lhsContracting := [1]
  rhsContracting := [0]
  lhsNonContracting := [0]
  rhsNonContracting := [1]
  lhsBatch := []
  rhsBatch := []
  wf := dot_S100x128_S128x16_S100x16_1_0_0_1_n_n_wf

class Facts : Prop extends Facts₀ where

variable [Facts]
-- ==== Proof.Region0.lean ====
/-
  The first kernel launch as one function of whole arrays. Each of its twenty grid points takes a block of 5000
  rows of the node features and the matching 5000 entries of the column of scales, multiplies every row by its
  scale, and writes the block back; the blocks tile the 100000 rows, so the output array is the input array with
  row r multiplied by entry r of the column.
-/
import proofs.«412129_j59090160058839_3_alg».proof.Proof.Gen.KernelIdeal.Frame
import Idealize.ShloMosaic.Lib.ValueIdx
import Idealize.ShloMosaic.Lib.Pipeline.Value
import Idealize.ShloMosaic.PureOps.Ideal.Laws

set_option maxRecDepth 16384

noncomputable section

namespace Cert.KernelIdeal.Region0

open Cert.KernelIdeal Cert.KernelIdeal.Gen Idealize.ShloMosaic Idealize.ShloMosaic.ValueIdx Idealize.ShloMosaic.TcCoe Idealize.SL.Sem
open scoped BigOperators

/-- Row r of `x` times entry r of the column `s`. -/
def G (x : S100000x128.Idx → EReal) (s : S100000x1.Idx → EReal) : S100000x128.Idx → EReal :=
  fun i => x i * s (ix2 (i 0 : Fin 100000) (0 : Fin 1))

theorem G_apply (x : S100000x128.Idx → EReal) (s : S100000x1.Idx → EReal) (r : Fin 100000) (j : Fin 128) :
    G x s (ix2 r j) = x (ix2 r j) * s (ix2 r (0 : Fin 1)) := rfl

variable (V : (c : Dev nD) → (b : Ref sig .tc) → Buf (Elt Ideal) ((c : Thread nD τ).loc b))

/-- The offset vector of a rectangle that starts at the origin, as a constant function. -/
private theorem zero_offsets : (![0, 0] : Fin 2 → Nat) = fun _ => 0 := funext fun a => by fin_cases a <;> rfl

/-- One entry of the body's arithmetic on a block: the feature at row p, lane q, times the scale of row p
    (the column of scales is repeated along the 128 lanes before the product). -/
private theorem scaled_row_apply (x0 : Vec Ideal S5000x128 .f32) (x1 : Vec Ideal S5000x1 .f32) (p : Fin 5000) (q : Fin 128) :
    k0_pay1 x0 x1 (ix2 p q) = x0 (ix2 p q) * x1 (ix2 p (0 : Fin 1)) := by
  unfold k0_pay1
  rw [mulf_apply, shapeCast_self]
  rw [broadcastTo_apply x1 broadcasts_S5000x1_S5000x128 (ix2 p q) (ix2 p (0 : Fin 1)) (fun a => by
    match a with
    | ⟨0, _⟩ => rfl
    | ⟨1, _⟩ => rfl)]

/-- At grid point t each of the three windows sits at block row t and block column 0. -/
private theorem block_index : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- A feature read and a scale read at matching positions of the whole arrays multiply to `G` there. -/
private theorem mul_reads_eq (A0 : S100000x128.Idx → EReal) (A1 : S100000x1.Idx → EReal) (i0 i2 : S100000x128.Idx) (i1 : S100000x1.Idx)
    (h0 : i0 = i2) (h1 : i1 = ix2 (i2 0 : Fin 100000) (0 : Fin 1)) : A0 i0 * A1 i1 = G A0 A1 i2 := by
  subst h0 h1; rfl

/-- What grid point t writes back is its block of `G` of the two input arrays: entry (p, q) of the block is
    array position (5000 t + p, q) for the features and the output, and (5000 t + p, 0) for the scales. -/
private theorem block_written (c : Dev nD) (t : Fin cfg0.N) :
    (dat0 (F := Ideal) V c).flushed 2 t = ((cfg0.win 2).blk t).view.read (Elt Ideal) (G (V c (Pipeline.arrRef spec0 0)) (V c (Pipeline.arrRef spec0 1))) := by
  show (cfg0.win 2).cut (grid0.coords t) ((dat0 V c).after 2 t) = _
  rw [after0_2]
  unfold out0_2
  rw [View.canon_unit_zero zero_offsets]
  simp only [View.ld_unit_zero (S := S5000x128) zero_offsets, View.ld_unit_zero (S := S5000x1) zero_offsets]
  funext y
  obtain ⟨p, q, rfl⟩ : ∃ (p : Fin 5000) (q : Fin 128), y = ix2 p q := ⟨y 0, y 1, eq_ix2 y⟩
  obtain ⟨e00, e01, e10, e11, e20, e21⟩ := block_index t
  show k0_pay1 (iblk0 V c 0 t) (iblk0 V c 1 t) (ix2 p q) = G (V c (Pipeline.arrRef spec0 0)) (V c (Pipeline.arrRef spec0 1)) (((cfg0.win 2).blk t).view.emb (ix2 p q))
  rw [scaled_row_apply]
  have h0 : (((cfg0.win 0).blk t).view.emb (ix2 p q) : S100000x128.Idx) = ((cfg0.win 2).blk t).view.emb (ix2 p q) := by
    funext a; apply Fin.ext
    match a with
    | ⟨0, _⟩ => show win0_0.index t (0 : Fin 2) * 5000 + 1 * p.val = win0_2.index t (0 : Fin 2) * 5000 + 1 * p.val; omega
    | ⟨1, _⟩ => show win0_0.index t (1 : Fin 2) * 128 + 1 * q.val = win0_2.index t (1 : Fin 2) * 128 + 1 * q.val; omega
  have h1 : (((cfg0.win 1).blk t).view.emb (ix2 p (0 : Fin 1)) : S100000x1.Idx) = ix2 ((((cfg0.win 2).blk t).view.emb (ix2 p q) : S100000x128.Idx) 0 : Fin 100000) (0 : Fin 1) := by
    funext a; apply Fin.ext
    match a with
    | ⟨0, _⟩ => show win0_1.index t (0 : Fin 2) * 5000 + 1 * p.val = win0_2.index t (0 : Fin 2) * 5000 + 1 * p.val; omega
    | ⟨1, _⟩ => show win0_1.index t (1 : Fin 2) * 1 + 1 * 0 = 0; omega
  exact mul_reads_eq (V c (Pipeline.arrRef spec0 0)) (V c (Pipeline.arrRef spec0 1)) _ _ _ h0 h1

/-- A position of the output array lies in the block of grid point t iff each coordinate lies in the block's range. -/
private theorem mem_block (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v23).slice (win0_2.rect t)).set ↔ _
  rw [View.set_slice_whole, Rect.mem_set_unit]
  exact Iff.rfl

/-- The twenty blocks of 5000 rows tile the 100000 rows: row r lies in the block of grid point r / 5000. -/
private theorem blocks_cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ : ∃ t : Fin cfg0.N, t.val = (i 0).val / 5000 :=
    ⟨⟨(i 0).val / 5000, by rw [show cfg0.N = 20 from N_0]; omega⟩, rfl⟩
  obtain ⟨-, -, -, -, e20, e21⟩ := block_index t
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- After the launch the output array is `G` of the two input arrays as the launch found them. -/
theorem final (c : Dev nD) :
    (dat0 (F := Ideal) V c).arrAt 2 cfg0.N = G (V c (Pipeline.arrRef spec0 0)) (V c (Pipeline.arrRef spec0 1)) :=
  (dat0 (F := Ideal) V c).arrAt_eq_of_cover 2 (G (V c (Pipeline.arrRef spec0 0)) (V c (Pipeline.arrRef spec0 1)))
    (fun t _ => block_written V c t) blocks_cover

end Cert.KernelIdeal.Region0

end
-- ==== Proof.LibContract.lean ====
/-
  Two reads at an index over the extended reals, for matrices laid out as [rows, columns]: a matrix-unit product
  into a zero accumulator, and the host's contraction.
-/
import Idealize.ShloMosaic.PureOps.Ideal.Laws
import Idealize.ShloMosaic.Lib.ValueIdx

noncomputable section

namespace Cert.LibContract

open Idealize.ShloMosaic Idealize.ShloMosaic.ValueIdx
open scoped BigOperators

/-- The dimension numbers `[1] × [0]`, kept axes `[0]` and `[1]`, no batch axes, over any proof that they are
    well formed. -/
private abbrev lit {M K N : ℕ} (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ :=
  ⟨[1], [0], [0], [1], [], [], wf⟩

section Axes
variable {M K N : ℕ} (wf : DotDims.WF ⟨2, ![M, K]⟩ ⟨2, ![K, N]⟩ ⟨2, ![M, N]⟩ [1] [0] [0] [1] [] [])

/-- The left operand's kept axis reads the result's row. -/
private theorem lhs_0 (i : (⟨2, ![M, N]⟩ : Shape).Idx) (q : (lit wf).contr.Idx) :
    ((lit wf).lhsIdx i q 0).val = (i 0).val := by
  unfold DotDims.lhsIdx
  rw [dif_neg (show ¬(0 : Fin (⟨2, ![M, K]⟩ : Shape).rank) ∈ (lit wf).lhsBatch from List.not_mem_nil),
    dif_pos (show (0 : Fin (⟨2, ![M, K]⟩ : Shape).rank) ∈ (lit wf).lhsNonContracting from List.mem_singleton.mpr rfl)]
  rfl

/-- The left operand's contracted axis reads the contraction position. -/
private theorem lhs_1 (i : (⟨2, ![M, N]⟩ : Shape).Idx) (q : (lit wf).contr.Idx) :
    ((lit wf).lhsIdx i q 1).val = (q ⟨0, Nat.one_pos⟩).val :=
  (lit wf).lhsIdx_val_of_single rfl i q

/-- The right operand's contracted axis reads the contraction position. -/
private theorem rhs_0 (i : (⟨2, ![M, N]⟩ : Shape).Idx) (q : (lit wf).contr.Idx) :
    ((lit wf).rhsIdx i q 0).val = (q ⟨0, Nat.one_pos⟩).val :=
  (lit wf).rhsIdx_val_of_single rfl i q

/-- The right operand's kept axis reads the result's column. -/
private theorem rhs_1 (i : (⟨2, ![M, N]⟩ : Shape).Idx) (q : (lit wf).contr.Idx) :
    ((lit wf).rhsIdx i q 1).val = (i 1).val := by
  unfold DotDims.rhsIdx
  rw [dif_neg (show ¬(1 : Fin (⟨2, ![K, N]⟩ : Shape).rank) ∈ (lit wf).rhsBatch from List.not_mem_nil),
    dif_pos (show (1 : Fin (⟨2, ![K, N]⟩ : Shape).rank) ∈ (lit wf).rhsNonContracting from List.mem_singleton.mpr rfl)]
  rfl

/-- The contraction's sum over its one-axis index set is the sum over `Fin K`, the operands read at (r, k) and
    (k, j): re-index through the bijection of the one-axis index set with `Fin K`, then compare the operand
    indices axis by axis. -/
private theorem contr_lit {φ₁ φ₂ : FTy} (lhs : FVec Ideal ⟨2, ![M, K]⟩ φ₁) (rhs : FVec Ideal ⟨2, ![K, N]⟩ φ₂)
    (r : Fin M) (j : Fin N) :
    ∑ k : (lit wf).contr.Idx, lhs ((lit wf).lhsIdx (ix2 r j) k) * rhs ((lit wf).rhsIdx (ix2 r j) k)
      = ∑ k : Fin K, lhs (ix2 r k) * rhs (ix2 k j) := by
  rw [← Equiv.sum_comp (ValueIdx.contrEquiv1 (lit wf) K rfl rfl).symm]
  refine Finset.sum_congr rfl fun k _ => ?_
  have hk := ValueIdx.contrEquiv1_symm_val (lit wf) K rfl rfl k
  have el : (lit wf).lhsIdx (ix2 r j) ((ValueIdx.contrEquiv1 (lit wf) K rfl rfl).symm k) = ix2 r k :=
    funext fun a => Fin.ext (by
      match a with
      | ⟨0, _⟩ => exact lhs_0 wf _ _
      | ⟨1, _⟩ => exact (lhs_1 wf _ _).trans hk)
  have er : (lit wf).rhsIdx (ix2 r j) ((ValueIdx.contrEquiv1 (lit wf) K rfl rfl).symm k) = ix2 k j :=
    funext fun a => Fin.ext (by
      match a with
      | ⟨0, _⟩ => exact (rhs_0 wf _ _).trans hk
      | ⟨1, _⟩ => exact rhs_1 wf _ _)
  rw [el, er]

end Axes

/-- The same for any dimension numbers whose six lists are those: the record is then that literal one. -/
private theorem contr_plain {M K N : ℕ} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (lhs : FVec Ideal ⟨2, ![M, K]⟩ φ₁) (rhs : FVec Ideal ⟨2, ![K, N]⟩ φ₂) (r : Fin M) (j : Fin N) :
    ∑ k : d.contr.Idx, lhs (d.lhsIdx (ix2 r j) k) * rhs (d.rhsIdx (ix2 r j) k)
      = ∑ k : Fin K, lhs (ix2 r k) * rhs (ix2 k j) := by
  obtain ⟨lc, rc, ln, rn, lb, rb, wf⟩ := d
  simp only at hlc hrc hln hrn hlb hrb
  subst hlc hrc hln hrn hlb hrb
  exact contr_lit wf lhs rhs r j

/-- The product of an [M, K] by a [K, N] matrix (contraction of the left operand's axis 1 with the right
    operand's axis 0, no batch axes), accumulated into zeros and read at (r, j): `∑ k, lhs (r, k) · rhs (k, j)`. -/
theorem matmul_plain {M K N : ℕ} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![M, K]⟩ φ₁) (rhs : FVec Ideal ⟨2, ![K, N]⟩ φ₂)
    (r : Fin M) (j : Fin N) :
    matmul d prec lhs rhs (constant ⟨2, ![M, N]⟩ .f32 0x00000000#32) (ix2 r j)
      = ∑ k : Fin K, lhs (ix2 r k) * rhs (ix2 k j) := by
  simp only [matmul]
  rw [Ideal.matmul_constant_zero_apply]
  exact contr_plain d hlc hrc hln hrn hlb hrb lhs rhs r j

/-- The host's contraction of the same layout, read at (r, j): the same sum. -/
theorem dotGeneral_plain {M K N : ℕ} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![M, K]⟩ φ₁) (rhs : FVec Ideal ⟨2, ![K, N]⟩ φ₂)
    (r : Fin M) (j : Fin N) :
    Host.dotGeneral d prec lhs rhs (ix2 r j) = ∑ k : Fin K, lhs (ix2 r k) * rhs (ix2 k j) := by
  simp only [Host.dotGeneral]
  rw [Ideal.dotGeneral_apply]
  exact contr_plain d hlc hrc hln hrn hlb hrb lhs rhs r j

end Cert.LibContract

end
-- ==== Proof.Region1.lean ====
/-
  The second kernel launch as one function of whole arrays. A grid point takes 5000 rows of the aggregated
  features, the whole 128 x 128 weight matrix, the bias row, 5000 entries of the column of end-node scales, the row
  of retain probabilities and 5000 entries of the column of start-node scales. Over the extended reals the change
  of float format before the matrix product is the identity, so entry (r, j) of the output is
  max ((sum over k of a (r, k) * w (k, j)) * nd r + b j, 0) * p j * ns r. The blocks tile the 100000 rows.
-/
import proofs.«412129_j59090160058839_3_alg».proof.Proof.Gen.KernelIdeal.Frame
import proofs.«412129_j59090160058839_3_alg».proof.Proof.LibContract
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Region1

open Cert.KernelIdeal Cert.KernelIdeal.Gen Idealize.ShloMosaic Idealize.ShloMosaic.ValueIdx Idealize.ShloMosaic.TcCoe Idealize.SL.Sem
open scoped BigOperators

/-- max ((a · w) (r, j) * nd r + b j, 0) * p j * ns r. -/
def G (a : S100000x128.Idx → EReal) (w : S128x128.Idx → EReal) (b : S1x128.Idx → EReal) (nd : S100000x1.Idx → EReal)
    (p : S1x128.Idx → EReal) (ns : S100000x1.Idx → EReal) : S100000x128.Idx → EReal :=
  fun i => max ((∑ k : Fin 128, a (ix2 (i 0 : Fin 100000) k) * w (ix2 k (i 1 : Fin 128))) * nd (ix2 (i 0 : Fin 100000) (0 : Fin 1))
      + b (ix2 (0 : Fin 1) (i 1 : Fin 128))) 0 * p (ix2 (0 : Fin 1) (i 1 : Fin 128)) * ns (ix2 (i 0 : Fin 100000) (0 : Fin 1))

theorem G_apply (a : S100000x128.Idx → EReal) (w : S128x128.Idx → EReal) (b : S1x128.Idx → EReal) (nd : S100000x1.Idx → EReal)
    (p : S1x128.Idx → EReal) (ns : S100000x1.Idx → EReal) (r : Fin 100000) (j : Fin 128) :
    G a w b nd p ns (ix2 r j) = max ((∑ k : Fin 128, a (ix2 r k) * w (ix2 k j)) * nd (ix2 r (0 : Fin 1)) + b (ix2 (0 : Fin 1) j)) 0
      * p (ix2 (0 : Fin 1) j) * ns (ix2 r (0 : Fin 1)) := rfl

/-! ## The body's arithmetic at an entry of the block -/

/-- A column broadcast along the rows: entry (p, q) of the result is entry (p, 0) of the column. -/
private theorem col_bcast (v : S5000x1.Idx → EReal) (h : S5000x1.Broadcasts S5000x128) (p : Fin 5000) (q : Fin 128) :
    broadcastTo S5000x128 v h (ix2 p q) = v (ix2 p (0 : Fin 1)) := by
  refine broadcastTo_apply v h (ix2 p q) (ix2 p (0 : Fin 1)) fun ax => ?_
  match ax with
  | ⟨0, _⟩ => rfl
  | ⟨1, _⟩ => rfl

/-- Entry (p, q) of what the body stores, from the six loaded blocks: the product row p of the features by column q
    of the weights, scaled by the end-node scale of row p, plus the bias of column q, clamped below at 0, times the
    retain probability of column q, times the start-node scale of row p. -/
private theorem pay_apply (v0 : Vec Ideal S5000x128 .f32) (v3 : Vec Ideal S128x128 .f32) (v6 : Vec Ideal S5000x1 .f32)
    (v10 : Vec Ideal S1x128 .f32) (v16 : Vec Ideal S1x128 .f32) (v20 : Vec Ideal S5000x1 .f32) (p : Fin 5000) (q : Fin 128) :
    k1_pay1 (F := Ideal) v0 v3 v6 v10 v16 v20 (ix2 p q)
      = max ((∑ k : Fin 128, v0 (ix2 p k) * v3 (ix2 k q)) * v6 (ix2 p (0 : Fin 1)) + v10 (ix2 (0 : Fin 1) q)) 0
        * v16 (ix2 (0 : Fin 1) q) * v20 (ix2 p (0 : Fin 1)) := by
  unfold k1_pay1
  simp only [shapeCast_self, mulf_apply, addf_apply, maximumf_apply, broadcast_apply, col_bcast, broadcastTo_1b_ab_apply]
  rw [Cert.LibContract.matmul_plain dot_S5000x128_S128x128_S5000x128_1_0_0_1_n_n rfl rfl rfl rfl rfl rfl none _ _ p q]
  simp only [truncf_apply]
  rw [show (FloatOps.ofBits (F := Ideal) FTy.f32 0x00000000#32) = 0 from Ideal.ofBits_zero_f32]

private theorem zero_offsets : (![0, 0] : Fin 2 → Nat) = fun _ => 0 := funext fun a => by fin_cases a <;> rfl

/-- Entry (p, q) of what the body leaves in the output block, from the six input blocks in window order (features,
    weights, bias row, end-node scales, retain probabilities, start-node scales): the body's one store fills the
    block, and each load reads a whole block. -/
private theorem out_apply (x0 : Vec Ideal S5000x128 .f32) (x1 : Vec Ideal S128x128 .f32) (x2 : Vec Ideal S1x128 .f32)
    (x3 : Vec Ideal S5000x1 .f32) (x4 : Vec Ideal S1x128 .f32) (x5 : Vec Ideal S5000x1 .f32) (p : Fin 5000) (q : Fin 128) :
    out1_6 (F := Ideal) x0 x1 x2 x3 x4 x5 (ix2 p q)
      = max ((∑ k : Fin 128, x0 (ix2 p k) * x1 (ix2 k q)) * x3 (ix2 p (0 : Fin 1)) + x2 (ix2 (0 : Fin 1) q)) 0
        * x4 (ix2 (0 : Fin 1) q) * x5 (ix2 p (0 : Fin 1)) := by
  unfold out1_6
  rw [View.canon_unit_zero zero_offsets]
  simp only [View.ld_unit_zero (S := S5000x128) zero_offsets, View.ld_unit_zero (S := S128x128) zero_offsets,
    View.ld_unit_zero (S := S5000x1) zero_offsets, View.ld_unit_zero (S := S1x128) zero_offsets]
  exact pay_apply x0 x1 x3 x2 x4 x5 p q

/-- Entry (p, q) of the output block is `G` at (r, j) when row p of the feature block is row r of the features,
    column q of the weight block is column j of the weights, the two row blocks read their rows at j, and the two
    column blocks read their columns at r. -/
private theorem out_eq_G (a : S100000x128.Idx → EReal) (w : S128x128.Idx → EReal) (b : S1x128.Idx → EReal) (nd : S100000x1.Idx → EReal)
    (pr : S1x128.Idx → EReal) (ns : S100000x1.Idx → EReal)
    (x0 : Vec Ideal S5000x128 .f32) (x1 : Vec Ideal S128x128 .f32) (x2 : Vec Ideal S1x128 .f32)
    (x3 : Vec Ideal S5000x1 .f32) (x4 : Vec Ideal S1x128 .f32) (x5 : Vec Ideal S5000x1 .f32)
    (p : Fin 5000) (q : Fin 128) (r : Fin 100000) (j : Fin 128)
    (h0 : ∀ k : Fin 128, x0 (ix2 p k) = a (ix2 r k)) (h1 : ∀ k : Fin 128, x1 (ix2 k q) = w (ix2 k j))
    (h2 : x2 (ix2 (0 : Fin 1) q) = b (ix2 (0 : Fin 1) j)) (h3 : x3 (ix2 p (0 : Fin 1)) = nd (ix2 r (0 : Fin 1)))
    (h4 : x4 (ix2 (0 : Fin 1) q) = pr (ix2 (0 : Fin 1) j)) (h5 : x5 (ix2 p (0 : Fin 1)) = ns (ix2 r (0 : Fin 1))) :
    out1_6 (F := Ideal) x0 x1 x2 x3 x4 x5 (ix2 p q) = G a w b nd pr ns (ix2 r j) := by
  rw [out_apply, G_apply, h2, h3, h4, h5]
  simp only [h0, h1]

/-! ## From the blocks to the arrays -/

variable (V : (c : Dev nD) → (b : Ref sig .tc) → Buf (Elt Ideal) ((c : Thread nD τ).loc b))

/-- Where each window's block sits at grid point t: the three row-blocked windows and the output at block row t,
    the weights and the two rows at the origin. -/
private theorem block_origin : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0 :=
  (by decide +kernel : ∀ t : Fin grid1.N, _)

/-- Entry (p, k) of the feature block at point t is entry (5000 t + p, k) of the feature array. -/
private theorem feat_blk (c : Dev nD) (t : Fin cfg1.N) (p : Fin 5000) (k : Fin 128) (r : Fin 100000) (hr : r.val = t.val * 5000 + p.val) :
    (iblk1 V c 0 t : Vec Ideal S5000x128 .f32) (ix2 p k) = (V c (Pipeline.arrRef spec1 0) : S100000x128.Idx → EReal) (ix2 r k) := by
  obtain ⟨e00, e01, -⟩ := block_origin t
  unfold iblk1
  show (V c (Pipeline.arrRef spec1 0) : S100000x128.Idx → EReal) (((cfg1.win 0).blk t).view.emb (ix2 p k)) = _
  refine congrArg (V c (Pipeline.arrRef spec1 0) : S100000x128.Idx → EReal) (funext fun a => Fin.ext ?_)
  match a with
  | ⟨0, _⟩ => show win1_0.index t (0 : Fin 2) * 5000 + 1 * p.val = r.val; omega
  | ⟨1, _⟩ => show win1_0.index t (1 : Fin 2) * 128 + 1 * k.val = k.val; omega

/-- The weight block at every point is the whole weight array. -/
private theorem wt_blk (c : Dev nD) (t : Fin cfg1.N) (k : Fin 128) (q : Fin 128) :
    (iblk1 V c 1 t : Vec Ideal S128x128 .f32) (ix2 k q) = (V c (Pipeline.arrRef spec1 1) : S128x128.Idx → EReal) (ix2 k q) := by
  obtain ⟨-, -, e10, e11, -⟩ := block_origin t
  unfold iblk1
  show (V c (Pipeline.arrRef spec1 1) : S128x128.Idx → EReal) (((cfg1.win 1).blk t).view.emb (ix2 k q)) = _
  refine congrArg (V c (Pipeline.arrRef spec1 1) : S128x128.Idx → EReal) (funext fun a => Fin.ext ?_)
  match a with
  | ⟨0, _⟩ => show win1_1.index t (0 : Fin 2) * 128 + 1 * k.val = k.val; omega
  | ⟨1, _⟩ => show win1_1.index t (1 : Fin 2) * 128 + 1 * q.val = q.val; omega

/-- The bias block at every point is the whole bias row. -/
private theorem bias_blk (c : Dev nD) (t : Fin cfg1.N) (q : Fin 128) :
    (iblk1 V c 2 t : Vec Ideal S1x128 .f32) (ix2 (0 : Fin 1) q) = (V c (Pipeline.arrRef spec1 2) : S1x128.Idx → EReal) (ix2 (0 : Fin 1) q) := by
  obtain ⟨-, -, -, -, e20, e21, -⟩ := block_origin t
  unfold iblk1
  show (V c (Pipeline.arrRef spec1 2) : S1x128.Idx → EReal) (((cfg1.win 2).blk t).view.emb (ix2 (0 : Fin 1) q)) = _
  refine congrArg (V c (Pipeline.arrRef spec1 2) : S1x128.Idx → EReal) (funext fun a => Fin.ext ?_)
  match a with
  | ⟨0, _⟩ => show win1_2.index t (0 : Fin 2) * 1 + 1 * 0 = 0; omega
  | ⟨1, _⟩ => show win1_2.index t (1 : Fin 2) * 128 + 1 * q.val = q.val; omega

/-- Entry p of the end-node scale block at point t is entry 5000 t + p of the end-node scale column. -/
private theorem nd_blk (c : Dev nD) (t : Fin cfg1.N) (p : Fin 5000) (r : Fin 100000) (hr : r.val = t.val * 5000 + p.val) :
    (iblk1 V c 3 t : Vec Ideal S5000x1 .f32) (ix2 p (0 : Fin 1)) = (V c (Pipeline.arrRef spec1 3) : S100000x1.Idx → EReal) (ix2 r (0 : Fin 1)) := by
  obtain ⟨-, -, -, -, -, -, e30, e31, -⟩ := block_origin t
  unfold iblk1
  show (V c (Pipeline.arrRef spec1 3) : S100000x1.Idx → EReal) (((cfg1.win 3).blk t).view.emb (ix2 p (0 : Fin 1))) = _
  refine congrArg (V c (Pipeline.arrRef spec1 3) : S100000x1.Idx → EReal) (funext fun a => Fin.ext ?_)
  match a with
  | ⟨0, _⟩ => show win1_3.index t (0 : Fin 2) * 5000 + 1 * p.val = r.val; omega
  | ⟨1, _⟩ => show win1_3.index t (1 : Fin 2) * 1 + 1 * 0 = 0; omega

/-- The retain-probability block at every point is the whole retain-probability row. -/
private theorem keep_blk (c : Dev nD) (t : Fin cfg1.N) (q : Fin 128) :
    (iblk1 V c 4 t : Vec Ideal S1x128 .f32) (ix2 (0 : Fin 1) q) = (V c (Pipeline.arrRef spec1 4) : S1x128.Idx → EReal) (ix2 (0 : Fin 1) q) := by
  obtain ⟨-, -, -, -, -, -, -, -, e40, e41, -⟩ := block_origin t
  unfold iblk1
  show (V c (Pipeline.arrRef spec1 4) : S1x128.Idx → EReal) (((cfg1.win 4).blk t).view.emb (ix2 (0 : Fin 1) q)) = _
  refine congrArg (V c (Pipeline.arrRef spec1 4) : S1x128.Idx → EReal) (funext fun a => Fin.ext ?_)
  match a with
  | ⟨0, _⟩ => show win1_4.index t (0 : Fin 2) * 1 + 1 * 0 = 0; omega
  | ⟨1, _⟩ => show win1_4.index t (1 : Fin 2) * 128 + 1 * q.val = q.val; omega

/-- Entry p of the start-node scale block at point t is entry 5000 t + p of the start-node scale column. -/
private theorem ns_blk (c : Dev nD) (t : Fin cfg1.N) (p : Fin 5000) (r : Fin 100000) (hr : r.val = t.val * 5000 + p.val) :
    (iblk1 V c 5 t : Vec Ideal S5000x1 .f32) (ix2 p (0 : Fin 1)) = (V c (Pipeline.arrRef spec1 5) : S100000x1.Idx → EReal) (ix2 r (0 : Fin 1)) := by
  obtain ⟨-, -, -, -, -, -, -, -, -, -, e50, e51, -⟩ := block_origin t
  unfold iblk1
  show (V c (Pipeline.arrRef spec1 5) : S100000x1.Idx → EReal) (((cfg1.win 5).blk t).view.emb (ix2 p (0 : Fin 1))) = _
  refine congrArg (V c (Pipeline.arrRef spec1 5) : S100000x1.Idx → EReal) (funext fun a => Fin.ext ?_)
  match a with
  | ⟨0, _⟩ => show win1_5.index t (0 : Fin 2) * 5000 + 1 * p.val = r.val; omega
  | ⟨1, _⟩ => show win1_5.index t (1 : Fin 2) * 1 + 1 * 0 = 0; omega

/-- What grid point t writes back is block t of `G` of the six input arrays as the launch found them: rows
    5000 t to 5000 t + 4999 of the features and of the two scale columns, the whole weight matrix, the whole bias
    row and the whole row of retain probabilities. -/
private theorem flushed_eq (c : Dev nD) (t : Fin cfg1.N) :
    (dat1 (F := Ideal) V c).flushed 6 t = ((cfg1.win 6).blk t).view.read (Elt Ideal)
      (G (V c (Pipeline.arrRef spec1 0)) (V c (Pipeline.arrRef spec1 1)) (V c (Pipeline.arrRef spec1 2))
        (V c (Pipeline.arrRef spec1 3)) (V c (Pipeline.arrRef spec1 4)) (V c (Pipeline.arrRef spec1 5))) := by
  show (cfg1.win 6).cut (grid1.coords t) ((dat1 V c).after 6 t) = _
  rw [after1_6]
  funext y
  obtain ⟨p, q, rfl⟩ : ∃ (p : Fin 5000) (q : Fin 128), y = ix2 p q := ⟨y 0, y 1, eq_ix2 y⟩
  have hN : cfg1.N = 20 := N_1
  obtain ⟨r, hr⟩ : ∃ r : Fin 100000, r.val = t.val * 5000 + p.val :=
    ⟨⟨t.val * 5000 + p.val, by have := t.isLt; have := p.isLt; omega⟩, rfl⟩
  obtain ⟨-, -, -, -, -, -, -, -, -, -, -, -, e60, e61⟩ := block_origin t
  have hemb : ((cfg1.win 6).blk t).view.emb (ix2 p q) = (ix2 r q : S100000x128.Idx) := by
    funext a; apply Fin.ext
    match a with
    | ⟨0, _⟩ => show win1_6.index t (0 : Fin 2) * 5000 + 1 * p.val = r.val; omega
    | ⟨1, _⟩ => show win1_6.index t (1 : Fin 2) * 128 + 1 * q.val = q.val; omega
  show out1_6 (F := Ideal) (iblk1 V c 0 t) (iblk1 V c 1 t) (iblk1 V c 2 t) (iblk1 V c 3 t) (iblk1 V c 4 t) (iblk1 V c 5 t) (ix2 p q)
      = G (V c (Pipeline.arrRef spec1 0)) (V c (Pipeline.arrRef spec1 1)) (V c (Pipeline.arrRef spec1 2))
        (V c (Pipeline.arrRef spec1 3)) (V c (Pipeline.arrRef spec1 4)) (V c (Pipeline.arrRef spec1 5)) (((cfg1.win 6).blk t).view.emb (ix2 p q))
  rw [hemb]
  exact out_eq_G (V c (Pipeline.arrRef spec1 0)) (V c (Pipeline.arrRef spec1 1)) (V c (Pipeline.arrRef spec1 2))
    (V c (Pipeline.arrRef spec1 3)) (V c (Pipeline.arrRef spec1 4)) (V c (Pipeline.arrRef spec1 5))
    (iblk1 V c 0 t) (iblk1 V c 1 t) (iblk1 V c 2 t) (iblk1 V c 3 t) (iblk1 V c 4 t) (iblk1 V c 5 t) p q r q
    (fun k => feat_blk V c t p k r hr) (fun k => wt_blk V c t k q) (bias_blk V c t q) (nd_blk V c t p r hr)
    (keep_blk V c t q) (ns_blk V c t p r hr)

/-- A row-column pair of the output array lies in point t's block iff on each axis the coordinate is within the block's range. -/
private theorem mem_blk (t : Fin cfg1.N) (i : S100000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v32).slice (win1_6.rect t)).set ↔ _
  rw [View.set_slice_whole, Rect.mem_set_unit]
  exact Iff.rfl

/-- Row r of the output is in the block of point r / 5000: the twenty blocks tile the array. -/
private theorem cover (i : S100000x128.Idx) :
    ∃ t : Fin cfg1.N, (cfg1.win 6).flush t = true ∧ i ∈ ((cfg1.win 6).blk t).view.set := by
  have hi0 : (i 0).val < 100000 := (i 0).isLt
  have hi1 : (i 1).val < 128 := (i 1).isLt
  have hN : cfg1.N = 20 := N_1
  obtain ⟨t, ht⟩ : ∃ t : Fin cfg1.N, t.val = (i 0).val / 5000 := ⟨⟨(i 0).val / 5000, by omega⟩, rfl⟩
  obtain ⟨-, -, -, -, -, -, -, -, -, -, -, -, e60, e61⟩ := block_origin t
  refine ⟨t, flush1_6 t, ?_⟩
  rw [mem_blk]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 128 ≤ (i 1).val ∧ (i 1).val < win1_6.index t (1 : Fin 2) * 128 + 128; omega

/-- After the launch the output array is `G` of the six input arrays as the launch found them (windows 0 to 5:
    aggregated features, weights, bias row, end-node scales, retain probabilities, start-node scales). -/
theorem final (c : Dev nD) :
    (dat1 (F := Ideal) V c).arrAt 6 cfg1.N = G (V c (Pipeline.arrRef spec1 0)) (V c (Pipeline.arrRef spec1 1)) (V c (Pipeline.arrRef spec1 2))
      (V c (Pipeline.arrRef spec1 3)) (V c (Pipeline.arrRef spec1 4)) (V c (Pipeline.arrRef spec1 5)) :=
  (dat1 (F := Ideal) V c).arrAt_eq_of_cover 6
    (G (V c (Pipeline.arrRef spec1 0)) (V c (Pipeline.arrRef spec1 1)) (V c (Pipeline.arrRef spec1 2))
      (V c (Pipeline.arrRef spec1 3)) (V c (Pipeline.arrRef spec1 4)) (V c (Pipeline.arrRef spec1 5)))
    (fun t _ => flushed_eq V c t) cover

end Cert.KernelIdeal.Region1

end
-- ==== Proof.Region2.lean ====
/-
  The third kernel launch as one function of whole arrays. A grid point takes 5000 rows of the aggregated
  features, the whole 128 x 128 weight matrix, the bias row and 5000 entries of the column of end-node scales; over
  the extended reals entry (r, j) of the output is (sum over k of a (r, k) * w (k, j)) * nd r + b j. The blocks tile
  the 100000 rows.
-/
import proofs.«412129_j59090160058839_3_alg».proof.Proof.Gen.KernelIdeal.Frame
import Idealize.ShloMosaic.Lib.ValueIdx
import Idealize.ShloMosaic.Lib.Pipeline.Value
import Idealize.ShloMosaic.PureOps.Ideal.Laws
import proofs.«412129_j59090160058839_3_alg».proof.Proof.LibContract

set_option maxRecDepth 16384

noncomputable section

namespace Cert.KernelIdeal.Region2

open Cert.KernelIdeal Cert.KernelIdeal.Gen Idealize.ShloMosaic Idealize.ShloMosaic.ValueIdx Idealize.ShloMosaic.TcCoe Idealize.SL.Sem
open scoped BigOperators

/-- (a · w) (r, j) * nd r + b j. -/
def G (a : S100000x128.Idx → EReal) (w : S128x128.Idx → EReal) (b : S1x128.Idx → EReal) (nd : S100000x1.Idx → EReal) :
    S100000x128.Idx → EReal :=
  fun i => (∑ k : Fin 128, a (ix2 (i 0 : Fin 100000) k) * w (ix2 k (i 1 : Fin 128))) * nd (ix2 (i 0 : Fin 100000) (0 : Fin 1))
      + b (ix2 (0 : Fin 1) (i 1 : Fin 128))

theorem G_apply (a : S100000x128.Idx → EReal) (w : S128x128.Idx → EReal) (b : S1x128.Idx → EReal) (nd : S100000x1.Idx → EReal)
    (r : Fin 100000) (j : Fin 128) :
    G a w b nd (ix2 r j) = (∑ k : Fin 128, a (ix2 r k) * w (ix2 k j)) * nd (ix2 r (0 : Fin 1)) + b (ix2 (0 : Fin 1) j) := rfl

/-- Zero offsets on both axes, as a constant function. -/
private theorem zero_offsets : (![0, 0] : Fin 2 → Nat) = fun _ => 0 := funext fun a => by fin_cases a <;> rfl

/-- A column spread along the rows' 128 entries reads, at (p, q), the column's entry p. -/
private theorem spread_column (x : FVec Ideal S5000x1 .f32) (p : Fin 5000) (q : Fin 128) :
    broadcastTo S5000x128 x broadcasts_S5000x1_S5000x128 (ix2 p q) = x (ix2 p (0 : Fin 1)) := by
  refine broadcastTo_apply x _ (ix2 p q) (ix2 p (0 : Fin 1)) fun a => ?_
  match a with
  | ⟨0, _⟩ => rfl
  | ⟨1, _⟩ => rfl

/-- A row spread down the 5000 rows reads, at (p, q), the row's entry q. -/
private theorem spread_row (x : FVec Ideal S1x128 .f32) (p : Fin 5000) (q : Fin 128) :
    broadcastTo S5000x128 x broadcasts_S1x128_S5000x128 (ix2 p q) = x (ix2 (0 : Fin 1) q) := by
  refine broadcastTo_apply x _ (ix2 p q) (ix2 (0 : Fin 1) q) fun a => ?_
  match a with
  | ⟨0, _⟩ => rfl
  | ⟨1, _⟩ => rfl

/-- The body's arithmetic at entry (p, q) of a block: over the extended reals the change of format is the
    identity, the product into zeros is the plain sum over the 128 contracted positions, and the column of scales
    and the bias row are read at p and at q. -/
private theorem body_apply (v0 : Vec Ideal S5000x128 .f32) (v3 : Vec Ideal S128x128 .f32) (v6 : Vec Ideal S5000x1 .f32)
    (v10 : Vec Ideal S1x128 .f32) (p : Fin 5000) (q : Fin 128) :
    k2_pay1 v0 v3 v6 v10 (ix2 p q)
      = (∑ k : Fin 128, v0 (ix2 p k) * v3 (ix2 k q)) * v6 (ix2 p (0 : Fin 1)) + v10 (ix2 (0 : Fin 1) q) := by
  unfold k2_pay1
  simp only [shapeCast_self]
  rw [addf_apply, mulf_apply, spread_column, spread_row]
  rw [Cert.LibContract.matmul_plain dot_S5000x128_S128x128_S5000x128_1_0_0_1_n_n rfl rfl rfl rfl rfl rfl]
  rfl

/-- What the body leaves in the output block, entry by entry, from the four input blocks: its one store covers the
    whole block and its loads read the whole blocks. -/
private theorem out_apply (x0 : Vec Ideal S5000x128 .f32) (x1 : Vec Ideal S128x128 .f32) (x2 : Vec Ideal S1x128 .f32)
    (x3 : Vec Ideal S5000x1 .f32) (p : Fin 5000) (q : Fin 128) :
    out2_4 x0 x1 x2 x3 (ix2 p q)
      = (∑ k : Fin 128, x0 (ix2 p k) * x1 (ix2 k q)) * x3 (ix2 p (0 : Fin 1)) + x2 (ix2 (0 : Fin 1) q) := by
  unfold out2_4
  rw [View.canon_unit_zero zero_offsets]
  simp only [View.ld_unit_zero (S := S5000x128) zero_offsets, View.ld_unit_zero (S := S128x128) zero_offsets,
    View.ld_unit_zero (S := S5000x1) zero_offsets, View.ld_unit_zero (S := S1x128) zero_offsets]
  exact body_apply x0 x1 x3 x2 p q

/-- The block index maps over the grid: the feature, scale and output windows are at block row `t`, the weight and
    bias windows at block (0, 0). -/
private theorem blk_index : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

/-- Entry (p, q) of the output block is `G` at (r, j) when row p of the feature block is row r of the features,
    column q of the weight block is column j of the weights, and the bias and scale blocks read the bias at j and
    the scales at r. -/
private theorem out_eq_G (a : S100000x128.Idx → EReal) (w : S128x128.Idx → EReal) (b : S1x128.Idx → EReal) (nd : S100000x1.Idx → EReal)
    (x0 : Vec Ideal S5000x128 .f32) (x1 : Vec Ideal S128x128 .f32) (x2 : Vec Ideal S1x128 .f32) (x3 : Vec Ideal S5000x1 .f32)
    (p : Fin 5000) (q : Fin 128) (r : Fin 100000) (j : Fin 128)
    (h0 : ∀ k : Fin 128, x0 (ix2 p k) = a (ix2 r k)) (h1 : ∀ k : Fin 128, x1 (ix2 k q) = w (ix2 k j))
    (h2 : x2 (ix2 (0 : Fin 1) q) = b (ix2 (0 : Fin 1) j)) (h3 : x3 (ix2 p (0 : Fin 1)) = nd (ix2 r (0 : Fin 1))) :
    out2_4 x0 x1 x2 x3 (ix2 p q) = G a w b nd (ix2 r j) := by
  rw [out_apply, G_apply, h2, h3]
  simp only [h0, h1]

/-- The same over whole indices, the hypotheses on their coordinates. -/
private theorem out_eq_G_idx (a : S100000x128.Idx → EReal) (w : S128x128.Idx → EReal) (b : S1x128.Idx → EReal) (nd : S100000x1.Idx → EReal)
    (x0 : Vec Ideal S5000x128 .f32) (x1 : Vec Ideal S128x128 .f32) (x2 : Vec Ideal S1x128 .f32) (x3 : Vec Ideal S5000x1 .f32)
    (y : S5000x128.Idx) (i : S100000x128.Idx)
    (h0 : ∀ k : Fin 128, x0 (ix2 (y 0 : Fin 5000) k) = a (ix2 (i 0 : Fin 100000) k))
    (h1 : ∀ k : Fin 128, x1 (ix2 k (y 1 : Fin 128)) = w (ix2 k (i 1 : Fin 128)))
    (h2 : x2 (ix2 (0 : Fin 1) (y 1 : Fin 128)) = b (ix2 (0 : Fin 1) (i 1 : Fin 128)))
    (h3 : x3 (ix2 (y 0 : Fin 5000) (0 : Fin 1)) = nd (ix2 (i 0 : Fin 100000) (0 : Fin 1))) :
    out2_4 x0 x1 x2 x3 y = G a w b nd i := by
  obtain ⟨p, q, rfl⟩ : ∃ (p : Fin 5000) (q : Fin 128), y = ix2 p q := ⟨y 0, y 1, eq_ix2 y⟩
  obtain ⟨r, j, rfl⟩ : ∃ (r : Fin 100000) (j : Fin 128), i = ix2 r j := ⟨i 0, i 1, eq_ix2 i⟩
  exact out_eq_G a w b nd x0 x1 x2 x3 p q r j h0 h1 h2 h3

variable (V : (c : Dev nD) → (b : Ref sig .tc) → Buf (Elt Ideal) ((c : Thread nD τ).loc b))

/-- Row `p` of the feature block at point `t` is the array's row at which the output block's row `p` sits. -/
private theorem read_feat (c : Dev nD) (t : Fin cfg2.N) (y : ((cfg2.win 4).xblock (grid2.coords t)).Idx) (k : Fin 128) :
    iblk2 V c 0 t (ix2 (y 0) k) = V c (Pipeline.arrRef spec2 0) (ix2 (((cfg2.win 4).blk t).view.emb y 0) k) := by
  obtain ⟨e00, e01, -, -, -, -, -, -, e40, e41⟩ := blk_index t
  have hy0 : (y 0).val < 5000 := (y 0).isLt
  show V c (Pipeline.arrRef spec2 0) (((cfg2.win 0).blk t).view.emb (ix2 (y 0) k))
    = V c (Pipeline.arrRef spec2 0) (ix2 (((cfg2.win 4).blk t).view.emb y 0) k)
  have e : ((cfg2.win 0).blk t).view.emb (ix2 (y 0) k) = ix2 (((cfg2.win 4).blk t).view.emb y 0) k := by
    funext a; apply Fin.ext
    match a with
    | ⟨0, _⟩ => show win2_0.index t (0 : Fin 2) * 5000 + 1 * (y 0).val = win2_4.index t (0 : Fin 2) * 5000 + 1 * (y 0).val; omega
    | ⟨1, _⟩ => show win2_0.index t (1 : Fin 2) * 128 + 1 * k.val = k.val; omega
  exact congrArg (V c (Pipeline.arrRef spec2 0)) e

/-- The weight block is the whole weight matrix. -/
private theorem read_weight (c : Dev nD) (t : Fin cfg2.N) (y : ((cfg2.win 4).xblock (grid2.coords t)).Idx) (k : Fin 128) :
    iblk2 V c 1 t (ix2 k (y 1)) = V c (Pipeline.arrRef spec2 1) (ix2 k (((cfg2.win 4).blk t).view.emb y 1)) := by
  obtain ⟨-, -, e10, e11, -, -, -, -, e40, e41⟩ := blk_index t
  have hy1 : (y 1).val < 128 := (y 1).isLt
  show V c (Pipeline.arrRef spec2 1) (((cfg2.win 1).blk t).view.emb (ix2 k (y 1)))
    = V c (Pipeline.arrRef spec2 1) (ix2 k (((cfg2.win 4).blk t).view.emb y 1))
  have e : ((cfg2.win 1).blk t).view.emb (ix2 k (y 1)) = ix2 k (((cfg2.win 4).blk t).view.emb y 1) := by
    funext a; apply Fin.ext
    match a with
    | ⟨0, _⟩ => show win2_1.index t (0 : Fin 2) * 128 + 1 * k.val = k.val; omega
    | ⟨1, _⟩ => show win2_1.index t (1 : Fin 2) * 128 + 1 * (y 1).val = win2_4.index t (1 : Fin 2) * 128 + 1 * (y 1).val; omega
  exact congrArg (V c (Pipeline.arrRef spec2 1)) e

/-- The bias block is the whole bias row. -/
private theorem read_bias (c : Dev nD) (t : Fin cfg2.N) (y : ((cfg2.win 4).xblock (grid2.coords t)).Idx) :
    iblk2 V c 2 t (ix2 (0 : Fin 1) (y 1)) = V c (Pipeline.arrRef spec2 2) (ix2 (0 : Fin 1) (((cfg2.win 4).blk t).view.emb y 1)) := by
  obtain ⟨-, -, -, -, e20, e21, -, -, e40, e41⟩ := blk_index t
  have hy1 : (y 1).val < 128 := (y 1).isLt
  show V c (Pipeline.arrRef spec2 2) (((cfg2.win 2).blk t).view.emb (ix2 (0 : Fin 1) (y 1)))
    = V c (Pipeline.arrRef spec2 2) (ix2 (0 : Fin 1) (((cfg2.win 4).blk t).view.emb y 1))
  have e : ((cfg2.win 2).blk t).view.emb (ix2 (0 : Fin 1) (y 1)) = ix2 (0 : Fin 1) (((cfg2.win 4).blk t).view.emb y 1) := by
    funext a; apply Fin.ext
    match a with
    | ⟨0, _⟩ => show win2_2.index t (0 : Fin 2) * 1 + 1 * (0 : Fin 1).val = (0 : Fin 1).val; omega
    | ⟨1, _⟩ => show win2_2.index t (1 : Fin 2) * 128 + 1 * (y 1).val = win2_4.index t (1 : Fin 2) * 128 + 1 * (y 1).val; omega
  exact congrArg (V c (Pipeline.arrRef spec2 2)) e

/-- Entry `p` of the scale block at point `t` is the column's entry at which the output block's row `p` sits. -/
private theorem read_scale (c : Dev nD) (t : Fin cfg2.N) (y : ((cfg2.win 4).xblock (grid2.coords t)).Idx) :
    iblk2 V c 3 t (ix2 (y 0) (0 : Fin 1)) = V c (Pipeline.arrRef spec2 3) (ix2 (((cfg2.win 4).blk t).view.emb y 0) (0 : Fin 1)) := by
  obtain ⟨-, -, -, -, -, -, e30, e31, e40, e41⟩ := blk_index t
  have hy0 : (y 0).val < 5000 := (y 0).isLt
  show V c (Pipeline.arrRef spec2 3) (((cfg2.win 3).blk t).view.emb (ix2 (y 0) (0 : Fin 1)))
    = V c (Pipeline.arrRef spec2 3) (ix2 (((cfg2.win 4).blk t).view.emb y 0) (0 : Fin 1))
  have e : ((cfg2.win 3).blk t).view.emb (ix2 (y 0) (0 : Fin 1)) = ix2 (((cfg2.win 4).blk t).view.emb y 0) (0 : Fin 1) := by
    funext a; apply Fin.ext
    match a with
    | ⟨0, _⟩ => show win2_3.index t (0 : Fin 2) * 5000 + 1 * (y 0).val = win2_4.index t (0 : Fin 2) * 5000 + 1 * (y 0).val; omega
    | ⟨1, _⟩ => show win2_3.index t (1 : Fin 2) * 1 + 1 * (0 : Fin 1).val = (0 : Fin 1).val; omega
  exact congrArg (V c (Pipeline.arrRef spec2 3)) e

/-- WHAT POINT `t` WRITES BACK is block `t` of `G` of the four arrays as the launch found them: rows
    5000 t … 5000 t + 4999 of the features and of the scales, the whole weight matrix and the whole bias row. -/
private theorem flushed_eq (c : Dev nD) (t : Fin cfg2.N) :
    (dat2 (F := Ideal) V c).flushed 4 t = ((cfg2.win 4).blk t).view.read (Elt Ideal)
      (G (V c (Pipeline.arrRef spec2 0)) (V c (Pipeline.arrRef spec2 1)) (V c (Pipeline.arrRef spec2 2)) (V c (Pipeline.arrRef spec2 3))) := by
  show (cfg2.win 4).cut (grid2.coords t) ((dat2 V c).after 4 t) = _
  rw [after2_4]
  funext y
  show out2_4 (iblk2 V c 0 t) (iblk2 V c 1 t) (iblk2 V c 2 t) (iblk2 V c 3 t) y
    = G (V c (Pipeline.arrRef spec2 0)) (V c (Pipeline.arrRef spec2 1)) (V c (Pipeline.arrRef spec2 2)) (V c (Pipeline.arrRef spec2 3))
        (((cfg2.win 4).blk t).view.emb y)
  exact out_eq_G_idx (V c (Pipeline.arrRef spec2 0)) (V c (Pipeline.arrRef spec2 1)) (V c (Pipeline.arrRef spec2 2)) (V c (Pipeline.arrRef spec2 3))
    (iblk2 V c 0 t) (iblk2 V c 1 t) (iblk2 V c 2 t) (iblk2 V c 3 t) y (((cfg2.win 4).blk t).view.emb y)
    (read_feat V c t y) (read_weight V c t y) (read_bias V c t y) (read_scale V c t y)
/-- An index of the output array is in point `t`'s block iff each coordinate is in the block's range on its axis. -/
private theorem mem_blk (t : Fin cfg2.N) (i : S100000x128.Idx) :
    i ∈ ((cfg2.win 4).blk t).view.set ↔ ∀ a : Fin 2, win2_4.index t a * S5000x128.size a ≤ (i a).val
      ∧ (i a).val < win2_4.index t a * S5000x128.size a + S5000x128.size a := by
  show i ∈ ((View.whole main_v39).slice (win2_4.rect t)).set ↔ _
  rw [View.set_slice_whole, Rect.mem_set_unit]
  exact Iff.rfl

/-- The twenty blocks of 5000 rows fill the 100000 rows: row `r` is in the block of point `r / 5000`. -/
private theorem cover (i : S100000x128.Idx) :
    ∃ t : Fin cfg2.N, (cfg2.win 4).flush t = true ∧ i ∈ ((cfg2.win 4).blk t).view.set := by
  have hi0 : (i 0).val < 100000 := (i 0).isLt
  have hi1 : (i 1).val < 128 := (i 1).isLt
  have hN : grid2.N = 20 := N_2
  obtain ⟨t, ht⟩ : ∃ t : Fin cfg2.N, t.val = (i 0).val / 5000 :=
    ⟨⟨(i 0).val / 5000, by show (i 0).val / 5000 < grid2.N; rw [hN]; omega⟩, rfl⟩
  obtain ⟨-, -, -, -, -, -, -, -, e40, e41⟩ := blk_index t
  refine ⟨t, flush2_4 t, ?_⟩
  rw [mem_blk]
  intro a
  match a with
  | ⟨0, _⟩ =>
    show win2_4.index t (0 : Fin 2) * 5000 ≤ (i 0).val ∧ (i 0).val < win2_4.index t (0 : Fin 2) * 5000 + 5000
    omega
  | ⟨1, _⟩ =>
    show win2_4.index t (1 : Fin 2) * 128 ≤ (i 1).val ∧ (i 1).val < win2_4.index t (1 : Fin 2) * 128 + 128
    omega

/-- After the launch the output array is `G` of the four input arrays as the launch found them (windows 0 to 3:
    aggregated features, weights, bias row, end-node scales). -/
theorem final (c : Dev nD) :
    (dat2 (F := Ideal) V c).arrAt 4 cfg2.N = G (V c (Pipeline.arrRef spec2 0)) (V c (Pipeline.arrRef spec2 1)) (V c (Pipeline.arrRef spec2 2))
      (V c (Pipeline.arrRef spec2 3)) :=
  (dat2 (F := Ideal) V c).arrAt_eq_of_cover 4
    (G (V c (Pipeline.arrRef spec2 0)) (V c (Pipeline.arrRef spec2 1)) (V c (Pipeline.arrRef spec2 2)) (V c (Pipeline.arrRef spec2 3)))
    (fun t _ => flushed_eq V c t) cover

end Cert.KernelIdeal.Region2

end
-- ==== Proof.KStages.lean ====
/-
  What the kernel program computes, as a composition of whole-array functions of its arguments: the host
  operations around its three launches, spelt as the program spells them, and the launches as the closed forms of
  the three region modules.

  The out-degree and in-degree of every node are counted by ONE scatter-add of ones over the start nodes followed
  by the end nodes shifted by the node count, into an array of twice the node count, whose two halves are then
  sliced apart. Each degree vector goes to a scale: where the degree is positive the reciprocal square root of
  max (degree, 1), else 0. A layer gathers the rows of a table at the edges' start nodes (an index out of range
  would read a filler), sums them at the edges' end nodes, and hands the sums to a launch. The program's last
  stretch pools the node rows by graph, divides by the graph sizes and applies the classifier.
-/
import proofs.«412129_j59090160058839_3_alg».proof.Proof.Region0
import proofs.«412129_j59090160058839_3_alg».proof.Proof.Region1
import proofs.«412129_j59090160058839_3_alg».proof.Proof.Region2

set_option maxRecDepth 16384

noncomputable section

namespace Cert.KernelIdeal.Stages

open Cert.KernelIdeal Cert.KernelIdeal.Facts₀ Cert.KernelIdeal.Facts Idealize.ShloMosaic Idealize.ShloMosaic.ValueIdx

/-- The start nodes followed by the end nodes shifted by the node count. -/
def idxCat (x8 x9 : IVec S1600000 32) : IVec S3200000 32 :=
  concatenate S3200000 0 [⟨S1600000, x8⟩, ⟨S1600000, addi x9 (broadcastInDim S1600000 ![] bcast_S_S1600000 (constantI S_ 32 100000#32))⟩]
    concatenates_S1600000_S1600000_S3200000_d0

/-- Both degree vectors, one after the other: a one added at every entry of `idxCat`. -/
def degCat (x8 x9 : IVec S1600000 32) : FVec Ideal S200000 .f32 :=
  Host.scatterAdd (F := Ideal) scatter_S200000_S3200000x1_S3200000_n_0_0_1
    (broadcastInDim S200000 ![] bcast_S_S200000 (constant (F := Ideal) S_ .f32 0x00000000#32))
    (broadcastInDim S3200000x1 ![0] bcast_S3200000_S3200000x1_0 (idxCat x8 x9))
    (broadcastInDim S3200000 ![] bcast_S_S3200000 (constant (F := Ideal) S_ .f32 0x3F800000#32))

/-- The first half: how many edges start at each node. -/
def degOut (x8 x9 : IVec S1600000 32) : FVec Ideal S100000 .f32 :=
  extractStridedSlice S100000 ![0] (degCat x8 x9) slices_S200000_S100000_0

/-- The second half: how many edges end at each node. -/
def degIn (x8 x9 : IVec S1600000 32) : FVec Ideal S100000 .f32 :=
  extractStridedSlice S100000 ![100000] (degCat x8 x9) slices_S200000_S100000_100000

/-- Where the degree is positive, the reciprocal square root of max (degree, 1); elsewhere 0. -/
def scale (deg : FVec Ideal S100000 .f32) : FVec Ideal S100000 .f32 :=
  select (cmpf (F := Ideal) .ogt deg (broadcastInDim S100000 ![] bcast_S_S100000 (constant (F := Ideal) S_ .f32 0x00000000#32)))
    (Host.rsqrt (maximumf deg (broadcastInDim S100000 ![] bcast_S_S100000 (constant (F := Ideal) S_ .f32 0x3F800000#32))))
    (broadcastInDim S100000 ![] bcast_S_S100000 (id (constant (F := Ideal) S_ .f32 0x00000000#32)))

def ns (x8 x9 : IVec S1600000 32) : FVec Ideal S100000 .f32 := scale (degOut x8 x9)
def nd (x8 x9 : IVec S1600000 32) : FVec Ideal S100000 .f32 := scale (degIn x8 x9)

/-- The retain probabilities clipped to [0, 1]. -/
def clip01 (x3 : FVec Ideal S128 .f32) : FVec Ideal S128 .f32 :=
  minimumf (broadcastInDim S128 ![] bcast_S_S128 (id (constant (F := Ideal) S_ .f32 0x3F800000#32)))
    (maximumf (broadcastInDim S128 ![] bcast_S_S128 (id (constant (F := Ideal) S_ .f32 0x00000000#32))) x3)

/-- A vector of node values as a column. -/
def col (v : FVec Ideal S100000 .f32) : FVec Ideal S100000x1 .f32 := shapeCast S100000x1 v shapeCasts_S100000_S100000x1
/-- A vector of feature values as a row. -/
def row (v : FVec Ideal S128 .f32) : FVec Ideal S1x128 .f32 := shapeCast S1x128 v shapeCasts_S128_S1x128

/-- The gather's start indices: a negative start node wraps by the node count; as a column. -/
def takeIdx (x8 : IVec S1600000 32) : IVec S1600000x1 32 :=
  broadcastInDim S1600000x1 ![0] bcast_S1600000_S1600000x1_0
    (select (cmpi .slt x8 (broadcastInDim S1600000 ![] bcast_S_S1600000 (constantI S_ 32 0#32)))
      (addi x8 (broadcastInDim S1600000 ![] bcast_S_S1600000 (constantI S_ 32 100000#32))) x8)

/-- Per edge: is the wrapped start node inside [0, 99999]? -/
def takeOk (x8 : IVec S1600000 32) : IVec S1600000 1 :=
  Host.reduce IntOp.andi
    (andi (cmpi .sge (takeIdx x8) (broadcastInDim S1600000x1 ![] bcast_S_S1600000x1 (constantI S_ 32 0#32)))
      (cmpi .sle (takeIdx x8) (broadcastInDim S1600000x1 ![0, 1] bcast_S1x1_S1600000x1_0_1
        (broadcastInDim S1x1 ![1] bcast_S1_S1x1_1 (constantI S1 32 99999#32)))))
    (constantI S_ 1 1#1) reducesTo_S1600000x1_S1600000_d1 h_S_

/-- The rows of a table at the edges' start nodes; a start node out of range reads the filler. -/
def take (tbl : FVec Ideal S100000x128 .f32) (x8 : IVec S1600000 32) : FVec Ideal S1600000x128 .f32 :=
  select (broadcastInDim S1600000x128 ![0] bcast_S1600000_S1600000x128_0 (takeOk x8))
    (Host.gather gather_S100000x128_S1600000x1_S1600000x128_1_0_n_n_0_1_1128 tbl (takeIdx x8))
    (broadcastInDim S1600000x128 ![] bcast_S_S1600000x128 (constant (F := Ideal) S_ .f32 0x7FC00000#32))

/-- A layer's aggregation: the gathered rows summed at the edges' end nodes. -/
def aggK (tbl : FVec Ideal S100000x128 .f32) (x8 x9 : IVec S1600000 32) : FVec Ideal S100000x128 .f32 :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 x9) (take tbl x8)

/-- The first launch's output: the node features scaled by the start-node scales. -/
def hs (x0 : FVec Ideal S100000x128 .f32) (x8 x9 : IVec S1600000 32) : FVec Ideal S100000x128 .f32 :=
  Region0.G x0 (col (ns x8 x9))

/-- The second launch's output. -/
def ys (x0 : FVec Ideal S100000x128 .f32) (x1 : FVec Ideal S128x128 .f32) (x2 x3 : FVec Ideal S128 .f32) (x8 x9 : IVec S1600000 32) :
    FVec Ideal S100000x128 .f32 :=
  Region1.G (aggK (hs x0 x8 x9) x8 x9) x1 (row x2) (col (nd x8 x9)) (row (clip01 x3)) (col (ns x8 x9))

/-- The third launch's output. -/
def xk (x0 : FVec Ideal S100000x128 .f32) (x1 : FVec Ideal S128x128 .f32) (x2 x3 : FVec Ideal S128 .f32) (x4 : FVec Ideal S128x128 .f32)
    (x5 : FVec Ideal S128 .f32) (x8 x9 : IVec S1600000 32) : FVec Ideal S100000x128 .f32 :=
  Region2.G (aggK (ys x0 x1 x2 x3 x8 x9) x8 x9) x4 (row x5) (col (nd x8 x9))

/-- The last stretch: pool the node rows by graph, divide by max (graph size, 1), apply the classifier. -/
def tail (x : FVec Ideal S100000x128 .f32) (x6 : FVec Ideal S128x16 .f32) (x7 : FVec Ideal S16 .f32) (x10 : IVec S100000 32) :
    FVec Ideal S100x16 .f32 :=
  addf (Host.dotGeneral dot_S100x128_S128x16_S100x16_1_0_0_1_n_n none
      (Host.divf
        (Host.scatterAdd (F := Ideal) scatter_S100x128_S100000x1_S100000x128_1_0_0_1
          (broadcastInDim S100x128 ![] bcast_S_S100x128 (constant (F := Ideal) S_ .f32 0x00000000#32))
          (broadcastInDim S100000x1 ![0] bcast_S100000_S100000x1_0 x10) x)
        (broadcastInDim S100x128 ![0, 1] bcast_S100x1_S100x128_0_1 (broadcastInDim S100x1 ![0] bcast_S100_S100x1_0
          (maximumf
            (Host.scatterAdd (F := Ideal) scatter_S100_S100000x1_S100000_n_0_0_1
              (broadcastInDim S100 ![] bcast_S_S100 (constant (F := Ideal) S_ .f32 0x00000000#32))
              (broadcastInDim S100000x1 ![0] bcast_S100000_S100000x1_0 x10)
              (broadcastInDim S100000 ![] bcast_S_S100000 (constant (F := Ideal) S_ .f32 0x3F800000#32)))
            (broadcastInDim S100 ![] bcast_S_S100 (constant (F := Ideal) S_ .f32 0x3F800000#32))))))
      x6)
    (broadcastInDim S100x16 ![0, 1] bcast_S1x16_S100x16_0_1 (broadcastInDim S1x16 ![1] bcast_S16_S1x16_1 x7))

/-- The program's result as a function of its arguments. -/
def kout (x0 : FVec Ideal S100000x128 .f32) (x1 : FVec Ideal S128x128 .f32) (x2 x3 : FVec Ideal S128 .f32) (x4 : FVec Ideal S128x128 .f32)
    (x5 : FVec Ideal S128 .f32) (x6 : FVec Ideal S128x16 .f32) (x7 : FVec Ideal S16 .f32) (x8 x9 : IVec S1600000 32) (x10 : IVec S100000 32) :
    FVec Ideal S100x16 .f32 :=
  tail (xk x0 x1 x2 x3 x4 x5 x8 x9) x6 x7 x10

end Cert.KernelIdeal.Stages

end
-- ==== Proof.KChain.lean ====
/-
  The kernel program's result buffer at the last segment boundary, read back through the fold of host stretches
  and launches to the arguments: it is the composition `Stages.kout` of the launch memory's argument arrays.

  Walking backwards: the last stretch is `Stages.tail` of the third launch's output array; a launch's output
  array is its region's closed form of the arrays the launch found; those are a reshape, a scatter-add of a gather,
  or an argument, each written by an earlier stretch or launch and untouched since.
-/
import proofs.«412129_j59090160058839_3_alg».proof.Proof.KStages

set_option maxRecDepth 16384
set_option allowUnsafeReducibility true

noncomputable section

namespace Cert.KernelIdeal.Chain

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-! ## The launch memory's argument arrays at core `c`, at their literal types -/

abbrev a0 (c : Dev nD) : FVec Ideal S100000x128 .f32 := m ((c.tc : Thread nD τ).loc main_arg0)
abbrev a1 (c : Dev nD) : FVec Ideal S128x128 .f32 := m ((c.tc : Thread nD τ).loc main_arg1)
abbrev a2 (c : Dev nD) : FVec Ideal S128 .f32 := m ((c.tc : Thread nD τ).loc main_arg2)
abbrev a3 (c : Dev nD) : FVec Ideal S128 .f32 := m ((c.tc : Thread nD τ).loc main_arg3)
abbrev a4 (c : Dev nD) : FVec Ideal S128x128 .f32 := m ((c.tc : Thread nD τ).loc main_arg4)
abbrev a5 (c : Dev nD) : FVec Ideal S128 .f32 := m ((c.tc : Thread nD τ).loc main_arg5)
abbrev a6 (c : Dev nD) : FVec Ideal S128x16 .f32 := m ((c.tc : Thread nD τ).loc main_arg6)
abbrev a7 (c : Dev nD) : FVec Ideal S16 .f32 := m ((c.tc : Thread nD τ).loc main_arg7)
abbrev a8 (c : Dev nD) : IVec S1600000 32 := m ((c.tc : Thread nD τ).loc main_arg8)
abbrev a9 (c : Dev nD) : IVec S1600000 32 := m ((c.tc : Thread nD τ).loc main_arg9)
abbrev a10 (c : Dev nD) : IVec S100000 32 := m ((c.tc : Thread nD τ).loc main_arg10)

/-- A buffer that no operation of a stretch writes holds after the stretch what it held before. -/
local macro "untouched" ops:ident : tactic =>
  `(tactic| exact StableHlo.after_of_forall_not_mem _ _ (List.forall_iff_forall_mem.mp (by
      simp only [$ops:ident, List.Forall, StableHlo.nullary_writes, StableHlo.unary_writes, StableHlo.binary_writes,
        StableHlo.ternary_writes, StableHlo.reshape_writes, Finset.mem_singleton]
      repeat' apply And.intro
      all_goals exact StableHlo.devRef_ne_of_ne (by decide))))

/-! ## The stretches built from a called function's operations, over any number system and any contents

A called function's operations carry their operands through transports between a value's type and its buffer's
type, which are identities. Each such stretch is read here over an arbitrary number system and arbitrary contents,
and specialised to the run's contents afterwards. -/

section AnyNumbers

/-- A value moved to its buffer's type and back is the value. -/
theorem ofBuf_toBuf {T : BufTy} {Val : EltTy → Type} (x : StableHlo.TRef sig T) (v : T.Contents Val) :
    x.ofBuf (x.toBuf v) = v := by
  obtain ⟨r, h, hd, hs⟩ := x
  subst h
  rfl

variable {F : FTy → Type} [FloatOps F] (V : Valuation τ sig (Elt F))

/-- The first `where`: the select of the scale's two branches. -/
theorem where0_v14 : StableHlo.after (hostOps0_1 (F := F)) V (Proc.devRef .tc main_v14)
    = select (V (Proc.devRef .tc main_v10)) (V (Proc.devRef .tc main_v13)) (broadcastInDim S100000 ![] bcast_S_S100000 (id (V (Proc.devRef .tc main_cst_3)))) := by
  dsimp only [hostOps0_1]
  after_results
  rfl
/-- The second `where`. -/
theorem where1_v20 : StableHlo.after (hostOps0_3 (F := F)) V (Proc.devRef .tc main_v20)
    = select (V (Proc.devRef .tc main_v16)) (V (Proc.devRef .tc main_v19)) (broadcastInDim S100000 ![] bcast_S_S100000 (id (V (Proc.devRef .tc main_cst_6)))) := by
  dsimp only [hostOps0_3]
  after_results
  rfl
set_option maxHeartbeats 1600000 in
/-- The first gather of rows: of the first launch's output at the start nodes. -/
theorem take3_v24 : StableHlo.after (hostOps1 (F := F)) V (Proc.devRef .tc main_v24)
    = select (broadcastInDim S1600000x128 ![0] bcast_S1600000_S1600000x128_0 (Stages.takeOk (V (Proc.devRef .tc main_arg8))))
        (Host.gather gather_S100000x128_S1600000x1_S1600000x128_1_0_n_n_0_1_1128 (V (Proc.devRef .tc main_v23)) (Stages.takeIdx (V (Proc.devRef .tc main_arg8))))
        (broadcastInDim S1600000x128 ![] bcast_S_S1600000x128 (constant (F := F) S_ .f32 0x7FC00000#32)) := by
  dsimp only [hostOps1]
  after_results
  simp only [ofBuf_toBuf]
  generalize h8 : (StableHlo.TRef.of main_arg8 _ _ _ : StableHlo.TRef sig ⟨S1600000, .i32⟩).ofBuf (V (Proc.devRef .tc main_arg8)) = x8
  generalize ht : (StableHlo.TRef.of main_v23 _ _ _ : StableHlo.TRef sig ⟨S100000x128, .f32⟩).ofBuf (V (Proc.devRef .tc main_v23)) = xt
  have e8 : (V (Proc.devRef .tc main_arg8) : IVec S1600000 32) = x8 := h8
  have et : (V (Proc.devRef .tc main_v23) : FVec F S100000x128 .f32) = xt := ht
  rw [e8, et]
  refine eq_of_heq ((cast_heq _ _).trans (heq_of_eq ?_))
  rfl
set_option maxHeartbeats 1600000 in
/-- The second gather of rows: of the second launch's output. -/
theorem take4_v33 : StableHlo.after (hostOps2 (F := F)) V (Proc.devRef .tc main_v33)
    = select (broadcastInDim S1600000x128 ![0] bcast_S1600000_S1600000x128_0 (Stages.takeOk (V (Proc.devRef .tc main_arg8))))
        (Host.gather gather_S100000x128_S1600000x1_S1600000x128_1_0_n_n_0_1_1128 (V (Proc.devRef .tc main_v32)) (Stages.takeIdx (V (Proc.devRef .tc main_arg8))))
        (broadcastInDim S1600000x128 ![] bcast_S_S1600000x128 (constant (F := F) S_ .f32 0x7FC00000#32)) := by
  dsimp only [hostOps2]
  after_results
  simp only [ofBuf_toBuf]
  generalize h8 : (StableHlo.TRef.of main_arg8 _ _ _ : StableHlo.TRef sig ⟨S1600000, .i32⟩).ofBuf (V (Proc.devRef .tc main_arg8)) = x8
  generalize ht : (StableHlo.TRef.of main_v32 _ _ _ : StableHlo.TRef sig ⟨S100000x128, .f32⟩).ofBuf (V (Proc.devRef .tc main_v32)) = xt
  have e8 : (V (Proc.devRef .tc main_arg8) : IVec S1600000 32) = x8 := h8
  have et : (V (Proc.devRef .tc main_v32) : FVec F S100000x128 .f32) = xt := ht
  rw [e8, et]
  refine eq_of_heq ((cast_heq _ _).trans (heq_of_eq ?_))
  rfl

end AnyNumbers

/-! ## The arguments: no stretch and no launch writes one, so at every boundary an argument's buffer holds the launch memory's array.
    Those read early are walked forward from the launch, those read late backward from the last boundary. -/

theorem W0_arg0 (c : Dev nD) : W0 (F := Ideal) m ρ c (Proc.devRef .tc main_arg0) = a0 m c := rfl
theorem W1_arg0 (c : Dev nD) : W1 (F := Ideal) m ρ c (Proc.devRef .tc main_arg0) = a0 m c :=
  (by untouched hostOps0 : W1 (F := Ideal) m ρ c (Proc.devRef .tc main_arg0) = W0 m ρ c (Proc.devRef .tc main_arg0)).trans (W0_arg0 m ρ c)
theorem W2_arg0 (c : Dev nD) : W2 (F := Ideal) m ρ c (Proc.devRef .tc main_arg0) = a0 m c :=
  (by untouched hostOps0_1 : W2 (F := Ideal) m ρ c (Proc.devRef .tc main_arg0) = W1 m ρ c (Proc.devRef .tc main_arg0)).trans (W1_arg0 m ρ c)
theorem W3_arg0 (c : Dev nD) : W3 (F := Ideal) m ρ c (Proc.devRef .tc main_arg0) = a0 m c :=
  (by untouched hostOps0_2 : W3 (F := Ideal) m ρ c (Proc.devRef .tc main_arg0) = W2 m ρ c (Proc.devRef .tc main_arg0)).trans (W2_arg0 m ρ c)
theorem W4_arg0 (c : Dev nD) : W4 (F := Ideal) m ρ c (Proc.devRef .tc main_arg0) = a0 m c :=
  (by untouched hostOps0_3 : W4 (F := Ideal) m ρ c (Proc.devRef .tc main_arg0) = W3 m ρ c (Proc.devRef .tc main_arg0)).trans (W3_arg0 m ρ c)
theorem W5_arg0 (c : Dev nD) : W5 (F := Ideal) m ρ c (Proc.devRef .tc main_arg0) = a0 m c :=
  (by untouched hostOps0_4 : W5 (F := Ideal) m ρ c (Proc.devRef .tc main_arg0) = W4 m ρ c (Proc.devRef .tc main_arg0)).trans (W4_arg0 m ρ c)
theorem W6_arg0 (c : Dev nD) : W6 (F := Ideal) m ρ c (Proc.devRef .tc main_arg0) = a0 m c :=
  (by untouched hostOps0_5 : W6 (F := Ideal) m ρ c (Proc.devRef .tc main_arg0) = W5 m ρ c (Proc.devRef .tc main_arg0)).trans (W5_arg0 m ρ c)
theorem W7_arg0 (c : Dev nD) : W7 (F := Ideal) m ρ c (Proc.devRef .tc main_arg0) = a0 m c :=
  (by untouched hostOps0_6 : W7 (F := Ideal) m ρ c (Proc.devRef .tc main_arg0) = W6 m ρ c (Proc.devRef .tc main_arg0)).trans (W6_arg0 m ρ c)
theorem W0_arg1 (c : Dev nD) : W0 (F := Ideal) m ρ c (Proc.devRef .tc main_arg1) = a1 m c := rfl
theorem W1_arg1 (c : Dev nD) : W1 (F := Ideal) m ρ c (Proc.devRef .tc main_arg1) = a1 m c :=
  (by untouched hostOps0 : W1 (F := Ideal) m ρ c (Proc.devRef .tc main_arg1) = W0 m ρ c (Proc.devRef .tc main_arg1)).trans (W0_arg1 m ρ c)
theorem W2_arg1 (c : Dev nD) : W2 (F := Ideal) m ρ c (Proc.devRef .tc main_arg1) = a1 m c :=
  (by untouched hostOps0_1 : W2 (F := Ideal) m ρ c (Proc.devRef .tc main_arg1) = W1 m ρ c (Proc.devRef .tc main_arg1)).trans (W1_arg1 m ρ c)
theorem W3_arg1 (c : Dev nD) : W3 (F := Ideal) m ρ c (Proc.devRef .tc main_arg1) = a1 m c :=
  (by untouched hostOps0_2 : W3 (F := Ideal) m ρ c (Proc.devRef .tc main_arg1) = W2 m ρ c (Proc.devRef .tc main_arg1)).trans (W2_arg1 m ρ c)
theorem W4_arg1 (c : Dev nD) : W4 (F := Ideal) m ρ c (Proc.devRef .tc main_arg1) = a1 m c :=
  (by untouched hostOps0_3 : W4 (F := Ideal) m ρ c (Proc.devRef .tc main_arg1) = W3 m ρ c (Proc.devRef .tc main_arg1)).trans (W3_arg1 m ρ c)
theorem W5_arg1 (c : Dev nD) : W5 (F := Ideal) m ρ c (Proc.devRef .tc main_arg1) = a1 m c :=
  (by untouched hostOps0_4 : W5 (F := Ideal) m ρ c (Proc.devRef .tc main_arg1) = W4 m ρ c (Proc.devRef .tc main_arg1)).trans (W4_arg1 m ρ c)
theorem W6_arg1 (c : Dev nD) : W6 (F := Ideal) m ρ c (Proc.devRef .tc main_arg1) = a1 m c :=
  (by untouched hostOps0_5 : W6 (F := Ideal) m ρ c (Proc.devRef .tc main_arg1) = W5 m ρ c (Proc.devRef .tc main_arg1)).trans (W5_arg1 m ρ c)
theorem W7_arg1 (c : Dev nD) : W7 (F := Ideal) m ρ c (Proc.devRef .tc main_arg1) = a1 m c :=
  (by untouched hostOps0_6 : W7 (F := Ideal) m ρ c (Proc.devRef .tc main_arg1) = W6 m ρ c (Proc.devRef .tc main_arg1)).trans (W6_arg1 m ρ c)
theorem W8_arg1 (c : Dev nD) : W8 (F := Ideal) m ρ c (Proc.devRef .tc main_arg1) = a1 m c :=
  (W8_of_ne m ρ c main_arg1 (by decide)).trans (W7_arg1 m ρ c)
theorem W9_arg1 (c : Dev nD) : W9 (F := Ideal) m ρ c (Proc.devRef .tc main_arg1) = a1 m c :=
  (by untouched hostOps1 : W9 (F := Ideal) m ρ c (Proc.devRef .tc main_arg1) = W8 m ρ c (Proc.devRef .tc main_arg1)).trans (W8_arg1 m ρ c)
theorem W10_arg1 (c : Dev nD) : W10 (F := Ideal) m ρ c (Proc.devRef .tc main_arg1) = a1 m c :=
  (by untouched hostOps1_1 : W10 (F := Ideal) m ρ c (Proc.devRef .tc main_arg1) = W9 m ρ c (Proc.devRef .tc main_arg1)).trans (W9_arg1 m ρ c)
theorem W0_arg2 (c : Dev nD) : W0 (F := Ideal) m ρ c (Proc.devRef .tc main_arg2) = a2 m c := rfl
theorem W1_arg2 (c : Dev nD) : W1 (F := Ideal) m ρ c (Proc.devRef .tc main_arg2) = a2 m c :=
  (by untouched hostOps0 : W1 (F := Ideal) m ρ c (Proc.devRef .tc main_arg2) = W0 m ρ c (Proc.devRef .tc main_arg2)).trans (W0_arg2 m ρ c)
theorem W2_arg2 (c : Dev nD) : W2 (F := Ideal) m ρ c (Proc.devRef .tc main_arg2) = a2 m c :=
  (by untouched hostOps0_1 : W2 (F := Ideal) m ρ c (Proc.devRef .tc main_arg2) = W1 m ρ c (Proc.devRef .tc main_arg2)).trans (W1_arg2 m ρ c)
theorem W3_arg2 (c : Dev nD) : W3 (F := Ideal) m ρ c (Proc.devRef .tc main_arg2) = a2 m c :=
  (by untouched hostOps0_2 : W3 (F := Ideal) m ρ c (Proc.devRef .tc main_arg2) = W2 m ρ c (Proc.devRef .tc main_arg2)).trans (W2_arg2 m ρ c)
theorem W4_arg2 (c : Dev nD) : W4 (F := Ideal) m ρ c (Proc.devRef .tc main_arg2) = a2 m c :=
  (by untouched hostOps0_3 : W4 (F := Ideal) m ρ c (Proc.devRef .tc main_arg2) = W3 m ρ c (Proc.devRef .tc main_arg2)).trans (W3_arg2 m ρ c)
theorem W5_arg2 (c : Dev nD) : W5 (F := Ideal) m ρ c (Proc.devRef .tc main_arg2) = a2 m c :=
  (by untouched hostOps0_4 : W5 (F := Ideal) m ρ c (Proc.devRef .tc main_arg2) = W4 m ρ c (Proc.devRef .tc main_arg2)).trans (W4_arg2 m ρ c)
theorem W6_arg2 (c : Dev nD) : W6 (F := Ideal) m ρ c (Proc.devRef .tc main_arg2) = a2 m c :=
  (by untouched hostOps0_5 : W6 (F := Ideal) m ρ c (Proc.devRef .tc main_arg2) = W5 m ρ c (Proc.devRef .tc main_arg2)).trans (W5_arg2 m ρ c)
theorem W7_arg2 (c : Dev nD) : W7 (F := Ideal) m ρ c (Proc.devRef .tc main_arg2) = a2 m c :=
  (by untouched hostOps0_6 : W7 (F := Ideal) m ρ c (Proc.devRef .tc main_arg2) = W6 m ρ c (Proc.devRef .tc main_arg2)).trans (W6_arg2 m ρ c)
theorem W8_arg2 (c : Dev nD) : W8 (F := Ideal) m ρ c (Proc.devRef .tc main_arg2) = a2 m c :=
  (W8_of_ne m ρ c main_arg2 (by decide)).trans (W7_arg2 m ρ c)
theorem W9_arg2 (c : Dev nD) : W9 (F := Ideal) m ρ c (Proc.devRef .tc main_arg2) = a2 m c :=
  (by untouched hostOps1 : W9 (F := Ideal) m ρ c (Proc.devRef .tc main_arg2) = W8 m ρ c (Proc.devRef .tc main_arg2)).trans (W8_arg2 m ρ c)
theorem W0_arg3 (c : Dev nD) : W0 (F := Ideal) m ρ c (Proc.devRef .tc main_arg3) = a3 m c := rfl
theorem W1_arg3 (c : Dev nD) : W1 (F := Ideal) m ρ c (Proc.devRef .tc main_arg3) = a3 m c :=
  (by untouched hostOps0 : W1 (F := Ideal) m ρ c (Proc.devRef .tc main_arg3) = W0 m ρ c (Proc.devRef .tc main_arg3)).trans (W0_arg3 m ρ c)
theorem W2_arg3 (c : Dev nD) : W2 (F := Ideal) m ρ c (Proc.devRef .tc main_arg3) = a3 m c :=
  (by untouched hostOps0_1 : W2 (F := Ideal) m ρ c (Proc.devRef .tc main_arg3) = W1 m ρ c (Proc.devRef .tc main_arg3)).trans (W1_arg3 m ρ c)
theorem W3_arg3 (c : Dev nD) : W3 (F := Ideal) m ρ c (Proc.devRef .tc main_arg3) = a3 m c :=
  (by untouched hostOps0_2 : W3 (F := Ideal) m ρ c (Proc.devRef .tc main_arg3) = W2 m ρ c (Proc.devRef .tc main_arg3)).trans (W2_arg3 m ρ c)
theorem W4_arg3 (c : Dev nD) : W4 (F := Ideal) m ρ c (Proc.devRef .tc main_arg3) = a3 m c :=
  (by untouched hostOps0_3 : W4 (F := Ideal) m ρ c (Proc.devRef .tc main_arg3) = W3 m ρ c (Proc.devRef .tc main_arg3)).trans (W3_arg3 m ρ c)
theorem W5_arg3 (c : Dev nD) : W5 (F := Ideal) m ρ c (Proc.devRef .tc main_arg3) = a3 m c :=
  (by untouched hostOps0_4 : W5 (F := Ideal) m ρ c (Proc.devRef .tc main_arg3) = W4 m ρ c (Proc.devRef .tc main_arg3)).trans (W4_arg3 m ρ c)
theorem W0_arg8 (c : Dev nD) : W0 (F := Ideal) m ρ c (Proc.devRef .tc main_arg8) = a8 m c := rfl
theorem W1_arg8 (c : Dev nD) : W1 (F := Ideal) m ρ c (Proc.devRef .tc main_arg8) = a8 m c :=
  (by untouched hostOps0 : W1 (F := Ideal) m ρ c (Proc.devRef .tc main_arg8) = W0 m ρ c (Proc.devRef .tc main_arg8)).trans (W0_arg8 m ρ c)
theorem W2_arg8 (c : Dev nD) : W2 (F := Ideal) m ρ c (Proc.devRef .tc main_arg8) = a8 m c :=
  (by untouched hostOps0_1 : W2 (F := Ideal) m ρ c (Proc.devRef .tc main_arg8) = W1 m ρ c (Proc.devRef .tc main_arg8)).trans (W1_arg8 m ρ c)
theorem W3_arg8 (c : Dev nD) : W3 (F := Ideal) m ρ c (Proc.devRef .tc main_arg8) = a8 m c :=
  (by untouched hostOps0_2 : W3 (F := Ideal) m ρ c (Proc.devRef .tc main_arg8) = W2 m ρ c (Proc.devRef .tc main_arg8)).trans (W2_arg8 m ρ c)
theorem W4_arg8 (c : Dev nD) : W4 (F := Ideal) m ρ c (Proc.devRef .tc main_arg8) = a8 m c :=
  (by untouched hostOps0_3 : W4 (F := Ideal) m ρ c (Proc.devRef .tc main_arg8) = W3 m ρ c (Proc.devRef .tc main_arg8)).trans (W3_arg8 m ρ c)
theorem W5_arg8 (c : Dev nD) : W5 (F := Ideal) m ρ c (Proc.devRef .tc main_arg8) = a8 m c :=
  (by untouched hostOps0_4 : W5 (F := Ideal) m ρ c (Proc.devRef .tc main_arg8) = W4 m ρ c (Proc.devRef .tc main_arg8)).trans (W4_arg8 m ρ c)
theorem W6_arg8 (c : Dev nD) : W6 (F := Ideal) m ρ c (Proc.devRef .tc main_arg8) = a8 m c :=
  (by untouched hostOps0_5 : W6 (F := Ideal) m ρ c (Proc.devRef .tc main_arg8) = W5 m ρ c (Proc.devRef .tc main_arg8)).trans (W5_arg8 m ρ c)
theorem W7_arg8 (c : Dev nD) : W7 (F := Ideal) m ρ c (Proc.devRef .tc main_arg8) = a8 m c :=
  (by untouched hostOps0_6 : W7 (F := Ideal) m ρ c (Proc.devRef .tc main_arg8) = W6 m ρ c (Proc.devRef .tc main_arg8)).trans (W6_arg8 m ρ c)
theorem W8_arg8 (c : Dev nD) : W8 (F := Ideal) m ρ c (Proc.devRef .tc main_arg8) = a8 m c :=
  (W8_of_ne m ρ c main_arg8 (by decide)).trans (W7_arg8 m ρ c)
theorem W9_arg8 (c : Dev nD) : W9 (F := Ideal) m ρ c (Proc.devRef .tc main_arg8) = a8 m c :=
  (by untouched hostOps1 : W9 (F := Ideal) m ρ c (Proc.devRef .tc main_arg8) = W8 m ρ c (Proc.devRef .tc main_arg8)).trans (W8_arg8 m ρ c)
theorem W10_arg8 (c : Dev nD) : W10 (F := Ideal) m ρ c (Proc.devRef .tc main_arg8) = a8 m c :=
  (by untouched hostOps1_1 : W10 (F := Ideal) m ρ c (Proc.devRef .tc main_arg8) = W9 m ρ c (Proc.devRef .tc main_arg8)).trans (W9_arg8 m ρ c)
theorem W11_arg8 (c : Dev nD) : W11 (F := Ideal) m ρ c (Proc.devRef .tc main_arg8) = a8 m c :=
  (W11_of_ne m ρ c main_arg8 (by decide)).trans (W10_arg8 m ρ c)
theorem W0_arg9 (c : Dev nD) : W0 (F := Ideal) m ρ c (Proc.devRef .tc main_arg9) = a9 m c := rfl
theorem W1_arg9 (c : Dev nD) : W1 (F := Ideal) m ρ c (Proc.devRef .tc main_arg9) = a9 m c :=
  (by untouched hostOps0 : W1 (F := Ideal) m ρ c (Proc.devRef .tc main_arg9) = W0 m ρ c (Proc.devRef .tc main_arg9)).trans (W0_arg9 m ρ c)
theorem W2_arg9 (c : Dev nD) : W2 (F := Ideal) m ρ c (Proc.devRef .tc main_arg9) = a9 m c :=
  (by untouched hostOps0_1 : W2 (F := Ideal) m ρ c (Proc.devRef .tc main_arg9) = W1 m ρ c (Proc.devRef .tc main_arg9)).trans (W1_arg9 m ρ c)
theorem W3_arg9 (c : Dev nD) : W3 (F := Ideal) m ρ c (Proc.devRef .tc main_arg9) = a9 m c :=
  (by untouched hostOps0_2 : W3 (F := Ideal) m ρ c (Proc.devRef .tc main_arg9) = W2 m ρ c (Proc.devRef .tc main_arg9)).trans (W2_arg9 m ρ c)
theorem W4_arg9 (c : Dev nD) : W4 (F := Ideal) m ρ c (Proc.devRef .tc main_arg9) = a9 m c :=
  (by untouched hostOps0_3 : W4 (F := Ideal) m ρ c (Proc.devRef .tc main_arg9) = W3 m ρ c (Proc.devRef .tc main_arg9)).trans (W3_arg9 m ρ c)
theorem W5_arg9 (c : Dev nD) : W5 (F := Ideal) m ρ c (Proc.devRef .tc main_arg9) = a9 m c :=
  (by untouched hostOps0_4 : W5 (F := Ideal) m ρ c (Proc.devRef .tc main_arg9) = W4 m ρ c (Proc.devRef .tc main_arg9)).trans (W4_arg9 m ρ c)
theorem W6_arg9 (c : Dev nD) : W6 (F := Ideal) m ρ c (Proc.devRef .tc main_arg9) = a9 m c :=
  (by untouched hostOps0_5 : W6 (F := Ideal) m ρ c (Proc.devRef .tc main_arg9) = W5 m ρ c (Proc.devRef .tc main_arg9)).trans (W5_arg9 m ρ c)
theorem W7_arg9 (c : Dev nD) : W7 (F := Ideal) m ρ c (Proc.devRef .tc main_arg9) = a9 m c :=
  (by untouched hostOps0_6 : W7 (F := Ideal) m ρ c (Proc.devRef .tc main_arg9) = W6 m ρ c (Proc.devRef .tc main_arg9)).trans (W6_arg9 m ρ c)
theorem W8_arg9 (c : Dev nD) : W8 (F := Ideal) m ρ c (Proc.devRef .tc main_arg9) = a9 m c :=
  (W8_of_ne m ρ c main_arg9 (by decide)).trans (W7_arg9 m ρ c)
theorem W9_arg9 (c : Dev nD) : W9 (F := Ideal) m ρ c (Proc.devRef .tc main_arg9) = a9 m c :=
  (by untouched hostOps1 : W9 (F := Ideal) m ρ c (Proc.devRef .tc main_arg9) = W8 m ρ c (Proc.devRef .tc main_arg9)).trans (W8_arg9 m ρ c)
theorem W10_arg9 (c : Dev nD) : W10 (F := Ideal) m ρ c (Proc.devRef .tc main_arg9) = a9 m c :=
  (by untouched hostOps1_1 : W10 (F := Ideal) m ρ c (Proc.devRef .tc main_arg9) = W9 m ρ c (Proc.devRef .tc main_arg9)).trans (W9_arg9 m ρ c)
theorem W11_arg9 (c : Dev nD) : W11 (F := Ideal) m ρ c (Proc.devRef .tc main_arg9) = a9 m c :=
  (W11_of_ne m ρ c main_arg9 (by decide)).trans (W10_arg9 m ρ c)
theorem W12_arg9 (c : Dev nD) : W12 (F := Ideal) m ρ c (Proc.devRef .tc main_arg9) = a9 m c :=
  (by untouched hostOps2 : W12 (F := Ideal) m ρ c (Proc.devRef .tc main_arg9) = W11 m ρ c (Proc.devRef .tc main_arg9)).trans (W11_arg9 m ρ c)
theorem W15_arg4 (c : Dev nD) : W15 (F := Ideal) m ρ c (Proc.devRef .tc main_arg4) = a4 m c := W15_main_arg4 m ρ c
theorem W14_arg4 (c : Dev nD) : W14 (F := Ideal) m ρ c (Proc.devRef .tc main_arg4) = a4 m c :=
  (by untouched hostOps3 : W15 (F := Ideal) m ρ c (Proc.devRef .tc main_arg4) = W14 m ρ c (Proc.devRef .tc main_arg4)).symm.trans (W15_arg4 m ρ c)
theorem W13_arg4 (c : Dev nD) : W13 (F := Ideal) m ρ c (Proc.devRef .tc main_arg4) = a4 m c :=
  (show W14 (F := Ideal) m ρ c (Proc.devRef .tc main_arg4) = W13 m ρ c (Proc.devRef .tc main_arg4) from
    (W14_arr m ρ c 1).trans (((dat2 (V13 m ρ) c).arrAt_in 1 rfl _).trans (A_eq2 (V13 m ρ) c 1))).symm.trans (W14_arg4 m ρ c)
theorem W15_arg5 (c : Dev nD) : W15 (F := Ideal) m ρ c (Proc.devRef .tc main_arg5) = a5 m c := W15_main_arg5 m ρ c
theorem W14_arg5 (c : Dev nD) : W14 (F := Ideal) m ρ c (Proc.devRef .tc main_arg5) = a5 m c :=
  (by untouched hostOps3 : W15 (F := Ideal) m ρ c (Proc.devRef .tc main_arg5) = W14 m ρ c (Proc.devRef .tc main_arg5)).symm.trans (W15_arg5 m ρ c)
theorem W13_arg5 (c : Dev nD) : W13 (F := Ideal) m ρ c (Proc.devRef .tc main_arg5) = a5 m c :=
  (W14_of_ne m ρ c main_arg5 (by decide)).symm.trans (W14_arg5 m ρ c)
theorem W12_arg5 (c : Dev nD) : W12 (F := Ideal) m ρ c (Proc.devRef .tc main_arg5) = a5 m c :=
  (by untouched hostOps2_1 : W13 (F := Ideal) m ρ c (Proc.devRef .tc main_arg5) = W12 m ρ c (Proc.devRef .tc main_arg5)).symm.trans (W13_arg5 m ρ c)
theorem W15_arg6 (c : Dev nD) : W15 (F := Ideal) m ρ c (Proc.devRef .tc main_arg6) = a6 m c := W15_main_arg6 m ρ c
theorem W14_arg6 (c : Dev nD) : W14 (F := Ideal) m ρ c (Proc.devRef .tc main_arg6) = a6 m c :=
  (by untouched hostOps3 : W15 (F := Ideal) m ρ c (Proc.devRef .tc main_arg6) = W14 m ρ c (Proc.devRef .tc main_arg6)).symm.trans (W15_arg6 m ρ c)
theorem W15_arg7 (c : Dev nD) : W15 (F := Ideal) m ρ c (Proc.devRef .tc main_arg7) = a7 m c := W15_main_arg7 m ρ c
theorem W14_arg7 (c : Dev nD) : W14 (F := Ideal) m ρ c (Proc.devRef .tc main_arg7) = a7 m c :=
  (by untouched hostOps3 : W15 (F := Ideal) m ρ c (Proc.devRef .tc main_arg7) = W14 m ρ c (Proc.devRef .tc main_arg7)).symm.trans (W15_arg7 m ρ c)
theorem W15_arg10 (c : Dev nD) : W15 (F := Ideal) m ρ c (Proc.devRef .tc main_arg10) = a10 m c := W15_main_arg10 m ρ c
theorem W14_arg10 (c : Dev nD) : W14 (F := Ideal) m ρ c (Proc.devRef .tc main_arg10) = a10 m c :=
  (by untouched hostOps3 : W15 (F := Ideal) m ρ c (Proc.devRef .tc main_arg10) = W14 m ρ c (Proc.devRef .tc main_arg10)).symm.trans (W15_arg10 m ρ c)

/-! ## The degree stretch -/

theorem W1_v8 (c : Dev nD) : W1 (F := Ideal) m ρ c (Proc.devRef .tc main_v8)
    = Stages.degIn (a8 m c) (a9 m c) := by
  show StableHlo.after hostOps0 (W0 m ρ c) (Proc.devRef .tc main_v8) = _
  dsimp only [hostOps0]
  after_results
  rw [W0_arg8, W0_arg9]
  rfl
theorem W1_v10 (c : Dev nD) : W1 (F := Ideal) m ρ c (Proc.devRef .tc main_v10)
    = cmpf (F := Ideal) .ogt (Stages.degOut (a8 m c) (a9 m c)) (broadcastInDim S100000 ![] bcast_S_S100000 (constant (F := Ideal) S_ .f32 0x00000000#32)) := by
  show StableHlo.after hostOps0 (W0 m ρ c) (Proc.devRef .tc main_v10) = _
  dsimp only [hostOps0]
  after_results
  rw [W0_arg8, W0_arg9]
  rfl
theorem W1_v13 (c : Dev nD) : W1 (F := Ideal) m ρ c (Proc.devRef .tc main_v13)
    = Host.rsqrt (maximumf (Stages.degOut (a8 m c) (a9 m c)) (broadcastInDim S100000 ![] bcast_S_S100000 (constant (F := Ideal) S_ .f32 0x3F800000#32))) := by
  show StableHlo.after hostOps0 (W0 m ρ c) (Proc.devRef .tc main_v13) = _
  dsimp only [hostOps0]
  after_results
  rw [W0_arg8, W0_arg9]
  rfl
theorem W1_cst_3 (c : Dev nD) : W1 (F := Ideal) m ρ c (Proc.devRef .tc main_cst_3)
    = (constant (F := Ideal) S_ .f32 0x00000000#32) := by
  show StableHlo.after hostOps0 (W0 m ρ c) (Proc.devRef .tc main_cst_3) = _
  dsimp only [hostOps0]
  after_results
attribute [local irreducible] W1

/-! ## The start-node scales -/

theorem W2_v14 (c : Dev nD) : W2 (F := Ideal) m ρ c (Proc.devRef .tc main_v14)
    = Stages.ns (a8 m c) (a9 m c) := by
  refine (where0_v14 (W1 m ρ c)).trans ?_
  rw [W1_v10, W1_v13, W1_cst_3]
  rfl
theorem W2_v8 (c : Dev nD) : W2 (F := Ideal) m ρ c (Proc.devRef .tc main_v8) = Stages.degIn (a8 m c) (a9 m c) :=
  (by untouched hostOps0_1 : W2 (F := Ideal) m ρ c (Proc.devRef .tc main_v8) = W1 m ρ c (Proc.devRef .tc main_v8)).trans (W1_v8 m ρ c)
attribute [local irreducible] W2

/-! ## The end-node scales -/

theorem W3_v16 (c : Dev nD) : W3 (F := Ideal) m ρ c (Proc.devRef .tc main_v16)
    = cmpf (F := Ideal) .ogt (Stages.degIn (a8 m c) (a9 m c)) (broadcastInDim S100000 ![] bcast_S_S100000 (constant (F := Ideal) S_ .f32 0x00000000#32)) := by
  show StableHlo.after hostOps0_2 (W2 m ρ c) (Proc.devRef .tc main_v16) = _
  dsimp only [hostOps0_2]
  after_results
  rw [W2_v8]
theorem W3_v19 (c : Dev nD) : W3 (F := Ideal) m ρ c (Proc.devRef .tc main_v19)
    = Host.rsqrt (maximumf (Stages.degIn (a8 m c) (a9 m c)) (broadcastInDim S100000 ![] bcast_S_S100000 (constant (F := Ideal) S_ .f32 0x3F800000#32))) := by
  show StableHlo.after hostOps0_2 (W2 m ρ c) (Proc.devRef .tc main_v19) = _
  dsimp only [hostOps0_2]
  after_results
  rw [W2_v8]
theorem W3_cst_6 (c : Dev nD) : W3 (F := Ideal) m ρ c (Proc.devRef .tc main_cst_6)
    = (constant (F := Ideal) S_ .f32 0x00000000#32) := by
  show StableHlo.after hostOps0_2 (W2 m ρ c) (Proc.devRef .tc main_cst_6) = _
  dsimp only [hostOps0_2]
  after_results
theorem W3_v14 (c : Dev nD) : W3 (F := Ideal) m ρ c (Proc.devRef .tc main_v14) = Stages.ns (a8 m c) (a9 m c) :=
  (by untouched hostOps0_2 : W3 (F := Ideal) m ρ c (Proc.devRef .tc main_v14) = W2 m ρ c (Proc.devRef .tc main_v14)).trans (W2_v14 m ρ c)
attribute [local irreducible] W3

theorem W4_v20 (c : Dev nD) : W4 (F := Ideal) m ρ c (Proc.devRef .tc main_v20)
    = Stages.nd (a8 m c) (a9 m c) := by
  refine (where1_v20 (W3 m ρ c)).trans ?_
  rw [W3_v16, W3_v19, W3_cst_6]
  rfl
theorem W4_v14 (c : Dev nD) : W4 (F := Ideal) m ρ c (Proc.devRef .tc main_v14) = Stages.ns (a8 m c) (a9 m c) :=
  (by untouched hostOps0_3 : W4 (F := Ideal) m ρ c (Proc.devRef .tc main_v14) = W3 m ρ c (Proc.devRef .tc main_v14)).trans (W3_v14 m ρ c)
attribute [local irreducible] W4

/-! ## The clipped retain probabilities -/

theorem W5_cst_7 (c : Dev nD) : W5 (F := Ideal) m ρ c (Proc.devRef .tc main_cst_7)
    = (constant (F := Ideal) S_ .f32 0x00000000#32) := by
  show StableHlo.after hostOps0_4 (W4 m ρ c) (Proc.devRef .tc main_cst_7) = _
  dsimp only [hostOps0_4]
  after_results
theorem W5_cst_8 (c : Dev nD) : W5 (F := Ideal) m ρ c (Proc.devRef .tc main_cst_8)
    = (constant (F := Ideal) S_ .f32 0x3F800000#32) := by
  show StableHlo.after hostOps0_4 (W4 m ρ c) (Proc.devRef .tc main_cst_8) = _
  dsimp only [hostOps0_4]
  after_results
theorem W5_v14 (c : Dev nD) : W5 (F := Ideal) m ρ c (Proc.devRef .tc main_v14) = Stages.ns (a8 m c) (a9 m c) :=
  (by untouched hostOps0_4 : W5 (F := Ideal) m ρ c (Proc.devRef .tc main_v14) = W4 m ρ c (Proc.devRef .tc main_v14)).trans (W4_v14 m ρ c)
theorem W5_v20 (c : Dev nD) : W5 (F := Ideal) m ρ c (Proc.devRef .tc main_v20) = Stages.nd (a8 m c) (a9 m c) :=
  (by untouched hostOps0_4 : W5 (F := Ideal) m ρ c (Proc.devRef .tc main_v20) = W4 m ρ c (Proc.devRef .tc main_v20)).trans (W4_v20 m ρ c)
attribute [local irreducible] W5

theorem W6_v21 (c : Dev nD) : W6 (F := Ideal) m ρ c (Proc.devRef .tc main_v21)
    = Stages.clip01 (a3 m c) := by
  show StableHlo.after hostOps0_5 (W5 m ρ c) (Proc.devRef .tc main_v21) = _
  dsimp only [hostOps0_5]
  after_results
  rw [W5_cst_7, W5_cst_8, W5_arg3]
  rfl
theorem W6_v14 (c : Dev nD) : W6 (F := Ideal) m ρ c (Proc.devRef .tc main_v14) = Stages.ns (a8 m c) (a9 m c) :=
  (by untouched hostOps0_5 : W6 (F := Ideal) m ρ c (Proc.devRef .tc main_v14) = W5 m ρ c (Proc.devRef .tc main_v14)).trans (W5_v14 m ρ c)
theorem W6_v20 (c : Dev nD) : W6 (F := Ideal) m ρ c (Proc.devRef .tc main_v20) = Stages.nd (a8 m c) (a9 m c) :=
  (by untouched hostOps0_5 : W6 (F := Ideal) m ρ c (Proc.devRef .tc main_v20) = W5 m ρ c (Proc.devRef .tc main_v20)).trans (W5_v20 m ρ c)
attribute [local irreducible] W6

/-! ## The first launch's entry -/

theorem W7_v22 (c : Dev nD) : W7 (F := Ideal) m ρ c (Proc.devRef .tc main_v22)
    = Stages.col (Stages.ns (a8 m c) (a9 m c)) := by
  show StableHlo.after hostOps0_6 (W6 m ρ c) (Proc.devRef .tc main_v22) = _
  dsimp only [hostOps0_6]
  after_results
  rw [W6_v14]
  rfl
theorem W7_v14 (c : Dev nD) : W7 (F := Ideal) m ρ c (Proc.devRef .tc main_v14) = Stages.ns (a8 m c) (a9 m c) :=
  (by untouched hostOps0_6 : W7 (F := Ideal) m ρ c (Proc.devRef .tc main_v14) = W6 m ρ c (Proc.devRef .tc main_v14)).trans (W6_v14 m ρ c)
theorem W7_v20 (c : Dev nD) : W7 (F := Ideal) m ρ c (Proc.devRef .tc main_v20) = Stages.nd (a8 m c) (a9 m c) :=
  (by untouched hostOps0_6 : W7 (F := Ideal) m ρ c (Proc.devRef .tc main_v20) = W6 m ρ c (Proc.devRef .tc main_v20)).trans (W6_v20 m ρ c)
theorem W7_v21 (c : Dev nD) : W7 (F := Ideal) m ρ c (Proc.devRef .tc main_v21) = Stages.clip01 (a3 m c) :=
  (by untouched hostOps0_6 : W7 (F := Ideal) m ρ c (Proc.devRef .tc main_v21) = W6 m ρ c (Proc.devRef .tc main_v21)).trans (W6_v21 m ρ c)
attribute [local irreducible] W7

/-! ## The first launch, the gather of its rows and their sums: the second launch's entry -/

theorem W8_v23 (c : Dev nD) : W8 (F := Ideal) m ρ c (Proc.devRef .tc main_v23)
    = Stages.hs (a0 m c) (a8 m c) (a9 m c) := by
  refine (W8_arr m ρ c 2).trans ((Region0.final (V7 m ρ) c).trans ?_)
  show Region0.G (W7 (F := Ideal) m ρ c (Proc.devRef .tc main_arg0))
      (W7 (F := Ideal) m ρ c (Proc.devRef .tc main_v22)) = _
  rw [W7_arg0, W7_v22]
  rfl
theorem W8_v14 (c : Dev nD) : W8 (F := Ideal) m ρ c (Proc.devRef .tc main_v14) = Stages.ns (a8 m c) (a9 m c) :=
  (W8_of_ne m ρ c main_v14 (by decide)).trans (W7_v14 m ρ c)
theorem W8_v20 (c : Dev nD) : W8 (F := Ideal) m ρ c (Proc.devRef .tc main_v20) = Stages.nd (a8 m c) (a9 m c) :=
  (W8_of_ne m ρ c main_v20 (by decide)).trans (W7_v20 m ρ c)
theorem W8_v21 (c : Dev nD) : W8 (F := Ideal) m ρ c (Proc.devRef .tc main_v21) = Stages.clip01 (a3 m c) :=
  (W8_of_ne m ρ c main_v21 (by decide)).trans (W7_v21 m ρ c)
attribute [local irreducible] W8

theorem W9_v24 (c : Dev nD) : W9 (F := Ideal) m ρ c (Proc.devRef .tc main_v24)
    = Stages.take (Stages.hs (a0 m c) (a8 m c) (a9 m c)) (a8 m c) := by
  refine (take3_v24 (W8 m ρ c)).trans ?_
  rw [W8_arg8, W8_v23]
  rfl
theorem W9_v14 (c : Dev nD) : W9 (F := Ideal) m ρ c (Proc.devRef .tc main_v14) = Stages.ns (a8 m c) (a9 m c) :=
  (by untouched hostOps1 : W9 (F := Ideal) m ρ c (Proc.devRef .tc main_v14) = W8 m ρ c (Proc.devRef .tc main_v14)).trans (W8_v14 m ρ c)
theorem W9_v20 (c : Dev nD) : W9 (F := Ideal) m ρ c (Proc.devRef .tc main_v20) = Stages.nd (a8 m c) (a9 m c) :=
  (by untouched hostOps1 : W9 (F := Ideal) m ρ c (Proc.devRef .tc main_v20) = W8 m ρ c (Proc.devRef .tc main_v20)).trans (W8_v20 m ρ c)
theorem W9_v21 (c : Dev nD) : W9 (F := Ideal) m ρ c (Proc.devRef .tc main_v21) = Stages.clip01 (a3 m c) :=
  (by untouched hostOps1 : W9 (F := Ideal) m ρ c (Proc.devRef .tc main_v21) = W8 m ρ c (Proc.devRef .tc main_v21)).trans (W8_v21 m ρ c)
attribute [local irreducible] W9

theorem W10_v27 (c : Dev nD) : W10 (F := Ideal) m ρ c (Proc.devRef .tc main_v27)
    = Stages.aggK (Stages.hs (a0 m c) (a8 m c) (a9 m c)) (a8 m c) (a9 m c) := by
  show StableHlo.after hostOps1_1 (W9 m ρ c) (Proc.devRef .tc main_v27) = _
  dsimp only [hostOps1_1]
  after_results
  rw [W9_arg9, W9_v24]
  rfl
theorem W10_v28 (c : Dev nD) : W10 (F := Ideal) m ρ c (Proc.devRef .tc main_v28)
    = Stages.col (Stages.nd (a8 m c) (a9 m c)) := by
  show StableHlo.after hostOps1_1 (W9 m ρ c) (Proc.devRef .tc main_v28) = _
  dsimp only [hostOps1_1]
  after_results
  rw [W9_v20]
  rfl
theorem W10_v29 (c : Dev nD) : W10 (F := Ideal) m ρ c (Proc.devRef .tc main_v29)
    = Stages.col (Stages.ns (a8 m c) (a9 m c)) := by
  show StableHlo.after hostOps1_1 (W9 m ρ c) (Proc.devRef .tc main_v29) = _
  dsimp only [hostOps1_1]
  after_results
  rw [W9_v14]
  rfl
theorem W10_v30 (c : Dev nD) : W10 (F := Ideal) m ρ c (Proc.devRef .tc main_v30)
    = Stages.row (a2 m c) := by
  show StableHlo.after hostOps1_1 (W9 m ρ c) (Proc.devRef .tc main_v30) = _
  dsimp only [hostOps1_1]
  after_results
  rw [W9_arg2]
  rfl
theorem W10_v31 (c : Dev nD) : W10 (F := Ideal) m ρ c (Proc.devRef .tc main_v31)
    = Stages.row (Stages.clip01 (a3 m c)) := by
  show StableHlo.after hostOps1_1 (W9 m ρ c) (Proc.devRef .tc main_v31) = _
  dsimp only [hostOps1_1]
  after_results
  rw [W9_v21]
  rfl
theorem W10_v20 (c : Dev nD) : W10 (F := Ideal) m ρ c (Proc.devRef .tc main_v20) = Stages.nd (a8 m c) (a9 m c) :=
  (by untouched hostOps1_1 : W10 (F := Ideal) m ρ c (Proc.devRef .tc main_v20) = W9 m ρ c (Proc.devRef .tc main_v20)).trans (W9_v20 m ρ c)
attribute [local irreducible] W10

/-! ## The second launch, the gather of its rows and their sums: the third launch's entry -/

theorem W11_v32 (c : Dev nD) : W11 (F := Ideal) m ρ c (Proc.devRef .tc main_v32)
    = Stages.ys (a0 m c) (a1 m c) (a2 m c) (a3 m c) (a8 m c) (a9 m c) := by
  refine (W11_arr m ρ c 6).trans ((Region1.final (V10 m ρ) c).trans ?_)
  show Region1.G (W10 (F := Ideal) m ρ c (Proc.devRef .tc main_v27))
      (W10 (F := Ideal) m ρ c (Proc.devRef .tc main_arg1))
      (W10 (F := Ideal) m ρ c (Proc.devRef .tc main_v30))
      (W10 (F := Ideal) m ρ c (Proc.devRef .tc main_v28))
      (W10 (F := Ideal) m ρ c (Proc.devRef .tc main_v31))
      (W10 (F := Ideal) m ρ c (Proc.devRef .tc main_v29)) = _
  rw [W10_v27, W10_arg1, W10_v30, W10_v28, W10_v31, W10_v29]
  rfl
theorem W11_v20 (c : Dev nD) : W11 (F := Ideal) m ρ c (Proc.devRef .tc main_v20) = Stages.nd (a8 m c) (a9 m c) :=
  (W11_of_ne m ρ c main_v20 (by decide)).trans (W10_v20 m ρ c)
attribute [local irreducible] W11

theorem W12_v33 (c : Dev nD) : W12 (F := Ideal) m ρ c (Proc.devRef .tc main_v33)
    = Stages.take (Stages.ys (a0 m c) (a1 m c) (a2 m c) (a3 m c) (a8 m c) (a9 m c)) (a8 m c) := by
  refine (take4_v33 (W11 m ρ c)).trans ?_
  rw [W11_arg8, W11_v32]
  rfl
theorem W12_v20 (c : Dev nD) : W12 (F := Ideal) m ρ c (Proc.devRef .tc main_v20) = Stages.nd (a8 m c) (a9 m c) :=
  (by untouched hostOps2 : W12 (F := Ideal) m ρ c (Proc.devRef .tc main_v20) = W11 m ρ c (Proc.devRef .tc main_v20)).trans (W11_v20 m ρ c)
attribute [local irreducible] W12

theorem W13_v36 (c : Dev nD) : W13 (F := Ideal) m ρ c (Proc.devRef .tc main_v36)
    = Stages.aggK (Stages.ys (a0 m c) (a1 m c) (a2 m c) (a3 m c) (a8 m c) (a9 m c)) (a8 m c) (a9 m c) := by
  show StableHlo.after hostOps2_1 (W12 m ρ c) (Proc.devRef .tc main_v36) = _
  dsimp only [hostOps2_1]
  after_results
  rw [W12_arg9, W12_v33]
  rfl
theorem W13_v37 (c : Dev nD) : W13 (F := Ideal) m ρ c (Proc.devRef .tc main_v37)
    = Stages.col (Stages.nd (a8 m c) (a9 m c)) := by
  show StableHlo.after hostOps2_1 (W12 m ρ c) (Proc.devRef .tc main_v37) = _
  dsimp only [hostOps2_1]
  after_results
  rw [W12_v20]
  rfl
theorem W13_v38 (c : Dev nD) : W13 (F := Ideal) m ρ c (Proc.devRef .tc main_v38)
    = Stages.row (a5 m c) := by
  show StableHlo.after hostOps2_1 (W12 m ρ c) (Proc.devRef .tc main_v38) = _
  dsimp only [hostOps2_1]
  after_results
  rw [W12_arg5]
  rfl
attribute [local irreducible] W13

/-! ## The third launch and the last stretch -/

theorem W14_v39 (c : Dev nD) : W14 (F := Ideal) m ρ c (Proc.devRef .tc main_v39)
    = Stages.xk (a0 m c) (a1 m c) (a2 m c) (a3 m c) (a4 m c) (a5 m c) (a8 m c) (a9 m c) := by
  refine (W14_arr m ρ c 4).trans ((Region2.final (V13 m ρ) c).trans ?_)
  show Region2.G (W13 (F := Ideal) m ρ c (Proc.devRef .tc main_v36))
      (W13 (F := Ideal) m ρ c (Proc.devRef .tc main_arg4))
      (W13 (F := Ideal) m ρ c (Proc.devRef .tc main_v38))
      (W13 (F := Ideal) m ρ c (Proc.devRef .tc main_v37)) = _
  rw [W13_v36, W13_arg4, W13_v38, W13_v37]
  rfl
attribute [local irreducible] W14

theorem W15_v55 (c : Dev nD) : W15 (F := Ideal) m ρ c (Proc.devRef .tc main_v55)
    = Stages.kout (a0 m c) (a1 m c) (a2 m c) (a3 m c) (a4 m c) (a5 m c) (a6 m c) (a7 m c) (a8 m c) (a9 m c) (a10 m c) := by
  show StableHlo.after hostOps3 (W14 m ρ c) (Proc.devRef .tc main_v55) = _
  dsimp only [hostOps3]
  after_results_simp
  rw [W14_v39, W14_arg6, W14_arg7, W14_arg10]
  rfl

/-- The result buffer after the last stretch is `Stages.kout` of the launch contents of the eleven arguments. -/
theorem W15_result (c : Dev nD) :
    W15 (F := Ideal) m ρ c (Proc.devRef .tc main_v55)
      = Stages.kout (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) :=
  W15_v55 m ρ c

end Cert.KernelIdeal.Chain

end
-- ==== Proof.PreDecode.lean ====
/-
  What the precondition says, decoded: every entry of the six float arrays the layers read is a real number, and
  every start node and end node is a number in [0, 100000).

  The printed predicate is a conjunction of "all" reductions: for a float array, of |x| < +inf entry by entry; for
  the two index arrays, of 0 <= w and of w < 100000 as signed words. It is the all-ones scalar iff every conjunct
  is, and an "all" reduction is one iff every entry's bit is.
-/
import proofs.«412129_j59090160058839_3_alg».proof.Pre_finite_inputs
import proofs.«412129_j59090160058839_3_alg».proof.Proof.Gen.Pre_finite_inputs
import Idealize.ShloMosaic.Lib.ReduceAll
import Idealize.ShloMosaic.Lib.StableHlo.Predicate
import Idealize.ShloMosaic.PureOps.Ideal

set_option maxRecDepth 16384

noncomputable section

namespace Cert.PreDecode

open Cert.Pre_finite_inputs Idealize.ShloMosaic

/-- A scalar has one index. -/
private theorem scalar_idx_subsingleton : Subsingleton S_.Idx := ⟨fun a b => funext fun d => d.elim0⟩

/-- The pattern 0x7F800000 (sign 0, exponent all ones, fraction 0) denotes +inf. -/
private theorem inf_bits : Ideal.ofBits .f32 0x7F800000#32 = (⊤ : EReal) := by
  simp [Ideal.ofBits, Ideal.ieee]

/-- |x| = max x (-x) below +inf rules out both infinities: x is a real. -/
private theorem real_of_abs_lt_top (x : EReal) (h : max x (-x) < (⊤ : EReal)) : ∃ r : ℝ, x = (r : EReal) := by
  induction x using EReal.rec with
  | bot => simp at h
  | coe r => exact ⟨r, rfl⟩
  | top => simp at h

/-- One bit of a float mask: the comparison |x| < +inf being 1 says x is a real. -/
private theorem float_entry (x : EReal)
    (h : FloatOps.cmpf (F := Ideal) (φ := .f32) .olt (FloatOps.hostAbsf (F := Ideal) (φ := .f32) x)
      (FloatOps.ofBits (F := Ideal) .f32 0x7F800000#32) = 1#1) :
    ∃ r : ℝ, x = (r : EReal) := by
  apply real_of_abs_lt_top
  have hinf : FloatOps.ofBits (F := Ideal) .f32 0x7F800000#32 = (⊤ : EReal) := inf_bits
  rw [hinf] at h
  have h' : Ideal.cmp .olt (max x (-x)) (⊤ : EReal) = 1#1 := h
  simpa only [Ideal.cmp, StableHlo.Predicate.ofBool_eq_one_iff, decide_eq_true_eq] using h'

/-- A float conjunct: the "all" of |x| < +inf over an array of any shape being 1 makes every entry a real. -/
private theorem float_all {s : Shape} {axes : List (Fin s.rank)} (x : FVec Ideal s .f32)
    (hb : S_.BroadcastsInDim s (![] : Fin 0 → Fin s.rank)) (hr : s.ReducesTo axes S_) (h0 : 0 < S_.numel) (j : S_.Idx)
    (e : Host.reduce IntOp.andi
      (cmpf .olt (Host.absf x) (broadcastInDim s ![] hb (constant (F := Ideal) S_ .f32 0x7F800000#32)))
      (constantI S_ 1 1#1) hr h0 j = 1#1) (i : s.Idx) : ∃ r : ℝ, x i = (r : EReal) :=
  haveI := scalar_idx_subsingleton
  float_entry (x i) (Host.reduce_andi_all _ _ hr h0 j e i)

/-- A lower-bound conjunct: the "all" of w >= 0 (signed) being 1 makes every word nonnegative as a signed number. -/
private theorem int_lo {s : Shape} {axes : List (Fin s.rank)} (x : IVec s 32)
    (hb : S_.BroadcastsInDim s (![] : Fin 0 → Fin s.rank)) (hr : s.ReducesTo axes S_) (h0 : 0 < S_.numel) (j : S_.Idx)
    (e : Host.reduce IntOp.andi (cmpi .sge x (broadcastInDim s ![] hb (constantI S_ 32 0#32)))
      (constantI S_ 1 1#1) hr h0 j = 1#1) (i : s.Idx) : 0 ≤ (x i).toInt := by
  haveI := scalar_idx_subsingleton
  have h' : IntOp.cmpi .sge (x i) 0#32 = 1#1 := Host.reduce_andi_all _ _ hr h0 j e i
  rw [IntOp.cmpi_sge] at h'
  simpa using h'

/-- An upper-bound conjunct: the "all" of w < 100000 (signed) being 1 bounds every word's signed value. -/
private theorem int_hi {s : Shape} {axes : List (Fin s.rank)} (x : IVec s 32)
    (hb : S_.BroadcastsInDim s (![] : Fin 0 → Fin s.rank)) (hr : s.ReducesTo axes S_) (h0 : 0 < S_.numel) (j : S_.Idx)
    (e : Host.reduce IntOp.andi (cmpi .slt x (broadcastInDim s ![] hb (constantI S_ 32 100000#32)))
      (constantI S_ 1 1#1) hr h0 j = 1#1) (i : s.Idx) : (x i).toInt < 100000 := by
  haveI := scalar_idx_subsingleton
  have h' : IntOp.cmpi .slt (x i) 100000#32 = 1#1 := Host.reduce_andi_all _ _ hr h0 j e i
  rw [IntOp.cmpi_slt] at h'
  have c : (100000#32 : BitVec 32).toInt = 100000 := by decide
  rw [c] at h'
  exact h'

/-- The precondition at the extended reals gives: the node features, both weight matrices, both biases and the retain
    probabilities are real entry by entry, and both index arrays hold node numbers. -/
theorem decode (x0 : FVec Ideal S100000x128 .f32) (x1 : FVec Ideal S128x128 .f32) (x2 x3 : FVec Ideal S128 .f32) (x4 : FVec Ideal S128x128 .f32) (x5 : FVec Ideal S128 .f32) (x6 : FVec Ideal S128x16 .f32) (x7 : FVec Ideal S16 .f32) (x8 x9 : IVec S1600000 32) (x10 : IVec S100000 32)
    (h : Cert.Pre_finite_inputs.fn (F := Ideal) x0 x1 x2 x3 x4 x5 x6 x7 x8 x9 x10 = fun _ => 1#1) :
    (∀ i, ∃ r : ℝ, x0 i = (r : EReal)) ∧ (∀ i, ∃ r : ℝ, x1 i = (r : EReal)) ∧ (∀ i, ∃ r : ℝ, x2 i = (r : EReal))
    ∧ (∀ i, ∃ r : ℝ, x3 i = (r : EReal)) ∧ (∀ i, ∃ r : ℝ, x4 i = (r : EReal)) ∧ (∀ i, ∃ r : ℝ, x5 i = (r : EReal))
    ∧ (∀ i, 0 ≤ (x8 i).toInt ∧ (x8 i).toInt < 100000) ∧ (∀ i, 0 ≤ (x9 i).toInt ∧ (x9 i).toInt < 100000) := by
  -- the predicate's one entry is 1; it is the "and" of twelve reductions, so each of them is 1
  have e := congrFun h (fun a => a.elim0)
  unfold Cert.Pre_finite_inputs.fn Cert.Pre_finite_inputs.fn_part1 Cert.Pre_finite_inputs.fn_part2
    Cert.Pre_finite_inputs.fn_part3 at e
  simp only [andi, IntOp.andi_eq_one] at e
  obtain ⟨⟨⟨⟨⟨⟨⟨⟨⟨⟨⟨e0, e1⟩, e2⟩, e3⟩, e4⟩, e5⟩, e6⟩, e7⟩, e8lo⟩, e8hi⟩, e9lo⟩, e9hi⟩ := e
  exact ⟨float_all x0 _ _ _ _ e0, float_all x1 _ _ _ _ e1, float_all x2 _ _ _ _ e2, float_all x3 _ _ _ _ e3,
    float_all x4 _ _ _ _ e4, float_all x5 _ _ _ _ e5,
    fun i => ⟨int_lo x8 _ _ _ _ e8lo i, int_hi x8 _ _ _ _ e8hi i⟩,
    fun i => ⟨int_lo x9 _ _ _ _ e9lo i, int_hi x9 _ _ _ _ e9hi i⟩⟩

end Cert.PreDecode

end
-- ==== Proof.Spec.lean ====
/-
  The aggregation both programs perform in each layer, as one function over the extended reals: for a node r and
  a feature j, the sum over the edges that END at r of the table's row at the edge's START node, read at j. The
  edges are given by their two end points as nodes (numbers below the node count).
-/
import Idealize.ShloMosaic.PureOps.Ideal
import Idealize.ShloMosaic.Lib.ValueIdx

set_option maxRecDepth 16384

noncomputable section

namespace Cert.Spec

open Idealize.ShloMosaic Idealize.ShloMosaic.ValueIdx
open scoped BigOperators

/-- A node-by-feature table. -/
abbrev Mat : Type := (⟨2, ![100000, 128]⟩ : Shape).Idx → EReal

/-- Entry (r, j): zero plus the sum, over the edges e with end node r, of `tbl` at (start node of e, j). -/
def aggAt (s d : Fin 1600000 → Fin 100000) (tbl : Mat) (r : Fin 100000) (j : Fin 128) : EReal :=
  0 + ∑ e : Fin 1600000, if d e = r then tbl (ix2 (s e) j) else 0

/-- The same as a table. -/
def agg (s d : Fin 1600000 → Fin 100000) (tbl : Mat) : Mat :=
  fun i => aggAt s d tbl (i 0) (i 1)

theorem agg_apply (s d : Fin 1600000 → Fin 100000) (tbl : Mat) (r : Fin 100000) (j : Fin 128) :
    agg s d tbl (ix2 r j) = 0 + ∑ e : Fin 1600000, if d e = r then tbl (ix2 (s e) j) else 0 := rfl

end Cert.Spec

end
-- ==== Proof.Algebra.lean ====
/-
  The one law that joins the two programs, over the extended reals restricted to real entries.

  The kernel program scales a table's rows, aggregates them over the edges, and multiplies the aggregate by a
  weight matrix; the reference multiplies the table by the weight matrix, scales the rows, and aggregates. For real
  entries the two agree: a finite sum of products distributes, and the two sums (over edges, over the contracted
  feature) commute. At an infinite entry distributivity fails, which is why the entries are asked to be real.
-/
import proofs.«412129_j59090160058839_3_alg».proof.Proof.Spec
import Mathlib.Data.EReal.Basic
import Mathlib.Data.EReal.Operations
import Mathlib.Algebra.BigOperators.Ring.Finset

set_option maxRecDepth 16384

noncomputable section

namespace Cert.Algebra

open Idealize.ShloMosaic Idealize.ShloMosaic.ValueIdx Cert.Spec
open scoped BigOperators

/-- An extended real that is a real number. -/
def IsReal (x : EReal) : Prop := ∃ r : ℝ, x = (r : EReal)

theorem IsReal.zero : IsReal 0 := ⟨0, rfl⟩
theorem IsReal.coe (r : ℝ) : IsReal (r : EReal) := ⟨r, rfl⟩
theorem IsReal.add {x y : EReal} (hx : IsReal x) (hy : IsReal y) : IsReal (x + y) := by
  obtain ⟨a, rfl⟩ := hx
  obtain ⟨b, rfl⟩ := hy
  exact ⟨a + b, (EReal.coe_add a b).symm⟩
theorem IsReal.mul {x y : EReal} (hx : IsReal x) (hy : IsReal y) : IsReal (x * y) := by
  obtain ⟨a, rfl⟩ := hx
  obtain ⟨b, rfl⟩ := hy
  exact ⟨a * b, (EReal.coe_mul a b).symm⟩
theorem IsReal.max {x y : EReal} (hx : IsReal x) (hy : IsReal y) : IsReal (max x y) := by
  rcases max_choice x y with h | h <;> rw [h] <;> assumption
theorem IsReal.min {x y : EReal} (hx : IsReal x) (hy : IsReal y) : IsReal (min x y) := by
  rcases min_choice x y with h | h <;> rw [h] <;> assumption
theorem IsReal.sum {ι : Type} (S : Finset ι) (f : ι → EReal) (hf : ∀ i ∈ S, IsReal (f i)) : IsReal (∑ i ∈ S, f i) := by
  classical
  induction S using Finset.induction_on with
  | empty => simpa using IsReal.zero
  | insert a T ha ih =>
    rw [Finset.sum_insert ha]
    exact IsReal.add (hf a (Finset.mem_insert_self a T))
      (ih (fun i hi => hf i (Finset.mem_insert_of_mem hi)))
theorem IsReal.ite {p : Prop} [Decidable p] {x y : EReal} (hx : IsReal x) (hy : IsReal y) : IsReal (if p then x else y) := by
  split <;> assumption

/-- An aggregate of a real table is real. -/
theorem agg_isReal (s d : Fin 1600000 → Fin 100000) (tbl : Mat) (ht : ∀ i, IsReal (tbl i)) (i : (⟨2, ![100000, 128]⟩ : Shape).Idx) :
    IsReal (agg s d tbl i) := by
  have h : ∀ (r : Fin 100000) (j : Fin 128), IsReal (aggAt s d tbl r j) := by
    intro r j
    unfold aggAt
    exact IsReal.add IsReal.zero
      (IsReal.sum _ _ (fun e _ => IsReal.ite (ht _) IsReal.zero))
  exact h (i 0) (i 1)

/-- The coercion of the reals commutes with a finite sum. -/
private theorem coe_finsum {ι : Type} (S : Finset ι) (f : ι → ℝ) :
    ∑ i ∈ S, ((f i : ℝ) : EReal) = ((∑ i ∈ S, f i : ℝ) : EReal) := by
  classical
  induction S using Finset.induction_on with
  | empty => simp
  | insert a T ha ih => rw [Finset.sum_insert ha, Finset.sum_insert ha, ih, EReal.coe_add]

/-- The law over abstract finite index types: edges `E` of which those satisfying `p` are kept, a contracted
    index `K`; `x e k` the table entry an edge reads, `c e` its row scale, `w k` the weight column. Both sides are
    the coercion of the same real double sum, once the sums over `E` and over `K` are exchanged. -/
private theorem agg_matmul_abs {E K : Type} [Fintype E] [Fintype K] (p : E → Prop) [DecidablePred p]
    (x : E → K → ℝ) (w : K → ℝ) (c : E → ℝ) :
    ∑ k : K, (∑ e : E, if p e then ((x e k : ℝ) : EReal) * ((c e : ℝ) : EReal) else 0) * ((w k : ℝ) : EReal)
      = ∑ e : E, if p e then (∑ k : K, ((x e k : ℝ) : EReal) * ((w k : ℝ) : EReal)) * ((c e : ℝ) : EReal) else 0 := by
  have hL : ∀ k : K,
      (∑ e : E, if p e then ((x e k : ℝ) : EReal) * ((c e : ℝ) : EReal) else 0) * ((w k : ℝ) : EReal)
        = (((∑ e : E, if p e then x e k * c e else 0) * w k : ℝ) : EReal) := by
    intro k
    rw [EReal.coe_mul, ← coe_finsum]
    congr 1
    refine Finset.sum_congr rfl (fun e _ => ?_)
    by_cases h : p e
    · rw [if_pos h, if_pos h, EReal.coe_mul]
    · rw [if_neg h, if_neg h, EReal.coe_zero]
  have hR : ∀ e : E,
      (if p e then (∑ k : K, ((x e k : ℝ) : EReal) * ((w k : ℝ) : EReal)) * ((c e : ℝ) : EReal) else 0)
        = (((if p e then (∑ k : K, x e k * w k) * c e else 0) : ℝ) : EReal) := by
    intro e
    by_cases h : p e
    · rw [if_pos h, if_pos h, EReal.coe_mul, ← coe_finsum]
      congr 1
    · rw [if_neg h, if_neg h, EReal.coe_zero]
  rw [Finset.sum_congr rfl (fun k _ => hL k), Finset.sum_congr rfl (fun e _ => hR e), coe_finsum, coe_finsum]
  congr 1
  simp only [Finset.sum_mul]
  rw [Finset.sum_comm]
  refine Finset.sum_congr rfl (fun e _ => ?_)
  by_cases h : p e
  · simp only [if_pos h]
    refine Finset.sum_congr rfl (fun k _ => ?_)
    ring
  · simp only [if_neg h, zero_mul, Finset.sum_const_zero]

/-- AGGREGATE, THEN MULTIPLY = MULTIPLY, THEN AGGREGATE. For a real table `X`, real weights `W` and real row scales
    `sc`: the aggregate of the scaled rows, times `W`, at (r, j), is the aggregate at (r, j) of the rows of `X · W`
    scaled. -/
theorem agg_matmul (s d : Fin 1600000 → Fin 100000) (X : Mat) (W : (⟨2, ![128, 128]⟩ : Shape).Idx → EReal) (sc : Fin 100000 → EReal)
    (hX : ∀ i, IsReal (X i)) (hW : ∀ i, IsReal (W i)) (hsc : ∀ i, IsReal (sc i)) (r : Fin 100000) (j : Fin 128) :
    ∑ k : Fin 128, agg s d (fun i => X i * sc (i 0 : Fin 100000)) (ix2 r k) * W (ix2 k j)
      = agg s d (fun i => (∑ k : Fin 128, X (ix2 (i 0 : Fin 100000) k) * W (ix2 k (i 1 : Fin 128))) * sc (i 0 : Fin 100000)) (ix2 r j) := by
  choose Xr hXr using hX
  choose Wr hWr using hW
  choose scr hscr using hsc
  obtain rfl : X = fun i => (Xr i : EReal) := funext hXr
  obtain rfl : W = fun i => (Wr i : EReal) := funext hWr
  obtain rfl : sc = fun i => (scr i : EReal) := funext hscr
  rw [agg_apply, zero_add]
  have hk : ∀ k : Fin 128,
      agg s d (fun i => ((Xr i : ℝ) : EReal) * ((scr (i 0 : Fin 100000) : ℝ) : EReal)) (ix2 r k)
        = ∑ e : Fin 1600000, if d e = r then ((Xr (ix2 (s e) k) : ℝ) : EReal) * ((scr (s e) : ℝ) : EReal) else 0 := by
    intro k
    rw [agg_apply, zero_add]
  rw [Finset.sum_congr rfl (fun k _ => by rw [hk k])]
  exact agg_matmul_abs (fun e => d e = r) (fun e k => Xr (ix2 (s e) k)) (fun k => Wr (ix2 k j)) (fun e => scr (s e))

end Cert.Algebra

end
-- ==== Proof.Finite.lean ====
/-
  The scales and the clipped retain probabilities are real numbers. A degree is zero plus a finite sum of ones and
  zeros, so it is a real number; where it is positive the scale is the reciprocal square root of a real number at
  least 1, a real number, and elsewhere it is 0. A real number clipped to [0, 1] is real.
-/
import proofs.«412129_j59090160058839_3_alg».proof.Proof.KStages
import proofs.«412129_j59090160058839_3_alg».proof.Proof.Algebra

set_option maxRecDepth 16384

noncomputable section

namespace Cert.Finite

open Idealize.ShloMosaic Idealize.ShloMosaic.ValueIdx Cert.Algebra
open Cert.KernelIdeal (S1600000 S100000 S128)

/-- The pattern of all zero bits denotes 0. -/
private theorem zero_isReal : IsReal (Ideal.ofBits .f32 0x00000000#32) := by
  rw [Ideal.ofBits_zero_f32]; exact IsReal.zero

/-- The pattern 0x3F800000 (sign 0, biased exponent 127, fraction 0) denotes the real number 1. -/
private theorem one_bits : Ideal.ofBits .f32 0x3F800000#32 = ((1 : ℝ) : EReal) := by
  simp [Ideal.ofBits, Ideal.ieee, -EReal.coe_mul]; norm_num

private theorem one_isReal : IsReal (Ideal.ofBits .f32 0x3F800000#32) := ⟨1, one_bits⟩

/-- The reciprocal square root of a positive real number is a real number. -/
private theorem rsqrt_isReal (r : ℝ) (h : 0 < r) : IsReal (Ideal.rsqrt (r : EReal)) := by
  have e : Ideal.rsqrt (r : EReal)
      = if r < 0 then (⊥ : EReal) else if r = 0 then (⊤ : EReal) else (((Real.sqrt r)⁻¹ : ℝ) : EReal) := rfl
  rw [e, if_neg (not_lt.2 h.le), if_neg h.ne']
  exact IsReal.coe _

/-- The scale of a real degree vector is real. -/
theorem scale_isReal (deg : FVec Ideal S100000 .f32) (hdeg : ∀ i, IsReal (deg i)) (i : S100000.Idx) :
    IsReal (Cert.KernelIdeal.Stages.scale deg i) := by
  -- whichever way the compare bit falls: one branch is the reciprocal square root of max (d, 1) with d real, the other is 0
  have e : Cert.KernelIdeal.Stages.scale deg i
      = if Ideal.cmp .ogt (deg i) (Ideal.ofBits .f32 0x00000000#32) = 1
        then Ideal.rsqrt (max (deg i) (Ideal.ofBits .f32 0x3F800000#32))
        else Ideal.ofBits .f32 0x00000000#32 := rfl
  rw [e]
  refine IsReal.ite ?_ zero_isReal
  obtain ⟨r, hr⟩ := hdeg i
  have hm : max (r : EReal) ((1 : ℝ) : EReal) = ((max r 1 : ℝ) : EReal) := (EReal.coe_strictMono.monotone.map_max).symm
  rw [hr, one_bits, hm]
  exact rsqrt_isReal _ (lt_of_lt_of_le one_pos (le_max_right r 1))

/-- A scalar constant laid out over any shape reads, at every index, the value its pattern denotes. -/
private theorem bcast_const_apply {t : Shape} (hb : Cert.KernelIdeal.S_.BroadcastsInDim t (![] : Fin 0 → Fin t.rank)) (w : BitVec 32) (i : t.Idx) :
    broadcastInDim t ![] hb (constant (F := Ideal) Cert.KernelIdeal.S_ .f32 w) i = Ideal.ofBits .f32 w := rfl

/-- A scatter-add of real updates into a real array is real entry by entry: an entry is the array's entry plus a
    finite sum of update entries. -/
private theorem scatterAdd_isReal {s si su : Shape} {w : Nat} (d : ScatterDims s si su) (x : FVec Ideal s .f32) (idx : IVec si w)
    (upd : FVec Ideal su .f32) (hx : ∀ i, IsReal (x i)) (hu : ∀ j, IsReal (upd j)) (k : s.Idx) :
    IsReal (Host.scatterAdd (F := Ideal) d x idx upd k) := by
  have e : Host.scatterAdd (F := Ideal) d x idx upd k
      = x k + ∑ j ∈ Finset.univ.filter (fun j => d.resultIdx? j idx = some k), upd j := rfl
  rw [e]
  exact IsReal.add (hx k) (IsReal.sum _ _ (fun j _ => hu j))

/-- Every entry of the doubled degree array is zero plus a finite sum of ones. -/
private theorem degCat_isReal (x8 x9 : IVec S1600000 32) (k : Cert.KernelIdeal.S200000.Idx) :
    IsReal (Cert.KernelIdeal.Stages.degCat x8 x9 k) := by
  unfold Cert.KernelIdeal.Stages.degCat
  refine scatterAdd_isReal _ _ _ _ (fun i => ?_) (fun j => ?_) k
  · rw [bcast_const_apply]; exact zero_isReal
  · rw [bcast_const_apply]; exact one_isReal

theorem degOut_isReal (x8 x9 : IVec S1600000 32) (i : S100000.Idx) : IsReal (Cert.KernelIdeal.Stages.degOut x8 x9 i) := by
  unfold Cert.KernelIdeal.Stages.degOut extractStridedSlice
  exact degCat_isReal x8 x9 _

theorem degIn_isReal (x8 x9 : IVec S1600000 32) (i : S100000.Idx) : IsReal (Cert.KernelIdeal.Stages.degIn x8 x9 i) := by
  unfold Cert.KernelIdeal.Stages.degIn extractStridedSlice
  exact degCat_isReal x8 x9 _

theorem ns_isReal (x8 x9 : IVec S1600000 32) (i : S100000.Idx) : IsReal (Cert.KernelIdeal.Stages.ns x8 x9 i) :=
  scale_isReal _ (degOut_isReal x8 x9) i

theorem nd_isReal (x8 x9 : IVec S1600000 32) (i : S100000.Idx) : IsReal (Cert.KernelIdeal.Stages.nd x8 x9 i) :=
  scale_isReal _ (degIn_isReal x8 x9) i

/-- Real retain probabilities clipped to [0, 1] are real. -/
theorem clip01_isReal (x3 : FVec Ideal S128 .f32) (h3 : ∀ i, IsReal (x3 i)) (i : S128.Idx) :
    IsReal (Cert.KernelIdeal.Stages.clip01 x3 i) := by
  have e : Cert.KernelIdeal.Stages.clip01 x3 i
      = min (Ideal.ofBits .f32 0x3F800000#32) (max (Ideal.ofBits .f32 0x00000000#32) (x3 i)) := rfl
  rw [e]
  exact IsReal.min one_isReal (IsReal.max zero_isReal (h3 i))

end Cert.Finite

end
-- ==== Proof.LibScatterRows.lean ====
/-
  The host's accumulating scatter over the extended reals, read at an index, for the two layouts a segment sum
  prints as: a vector of N sums fed by E scalars, and an N x C table of sums fed by E rows of C entries; in both
  the scatter indices are an E x 1 column naming, per update, the operand's position on axis 0. An update lands at
  the position its index names, read signed; an index outside [0, N) drops its update.
-/
import Idealize.ShloMosaic.PureOps.Ideal
import Idealize.ShloMosaic.PureOps.Contract
import Idealize.ShloMosaic.Lib.ValueIdx

set_option maxRecDepth 16384

noncomputable section

namespace Cert.LibScatterRows

open Idealize.ShloMosaic Idealize.ShloMosaic.ValueIdx
open scoped BigOperators

/-- An accumulating scatter's update lands at operand index `i` exactly when, on every axis, the window's start plus
    the window coordinate is `i`'s coordinate. -/
private theorem resultIdx?_eq_some_iff {s si u : Shape} {w : ℕ} (d : ScatterDims s si u) (j : u.Idx) (idx : IVec si w)
    (i : s.Idx) :
    d.resultIdx? j idx = some i ↔ ∀ a, d.start j idx a + (d.window j a : ℤ) = ((i a).val : ℤ) := by
  unfold ScatterDims.resultIdx?
  split
  · rename_i h
    rw [Option.some.injEq]
    constructor
    · intro hf a
      have h1 : (d.start j idx a + (d.window j a : ℤ)).toNat = (i a).val := congrArg Fin.val (congrFun hf a)
      have := h a
      omega
    · intro hf
      funext a
      apply Fin.ext
      have := hf a
      show (d.start j idx a + (d.window j a : ℤ)).toNat = (i a).val
      omega
  · rename_i h
    constructor
    · intro hf
      exact absurd hf (by simp)
    · intro hf
      exfalso
      apply h
      intro a
      have := hf a
      have := (i a).isLt
      omega

/-- A rank-1 index set is its one coordinate's range. -/
private def idxEquiv1 {n : ℕ} : (⟨1, ![n]⟩ : Shape).Idx ≃ Fin n where
  toFun i := i 0
  invFun a := ix1 a
  left_inv i := (eq_ix1 i).symm
  right_inv _ := rfl

/-- A sum over a rank-1 index set is the sum over the coordinate. -/
private theorem sum_idx1 {M : Type*} [AddCommMonoid M] {n : ℕ} (f : (⟨1, ![n]⟩ : Shape).Idx → M) :
    ∑ i, f i = ∑ a : Fin n, f (ix1 a) :=
  (Equiv.sum_comp (idxEquiv1 (n := n)).symm f).symm

/-! ### The vector layout -/

/-- The vector layout's dimension numbers as a literal record, over any proof that they are well formed. -/
private abbrev litV {N E : ℕ} (wf : ScatterDims.WF ⟨1, ![N]⟩ ⟨2, ![E, 1]⟩ ⟨1, ![E]⟩ [] [0] [0] 1) :
    ScatterDims ⟨1, ![N]⟩ ⟨2, ![E, 1]⟩ ⟨1, ![E]⟩ :=
  ⟨[], [0], [0], 1, wf⟩

section Vec
variable {N E w : ℕ} (wf : ScatterDims.WF ⟨1, ![N]⟩ ⟨2, ![E, 1]⟩ ⟨1, ![E]⟩ [] [0] [0] 1)

/-- Update e reads row e of the column of indices. -/
private theorem siIdx_V (j : (⟨1, ![E]⟩ : Shape).Idx) (c : Fin (litV wf).scatterDimsToOperandDims.length) :
    (litV wf).siIdx j c = ix2 (j 0) (0 : Fin 1) := by
  funext b
  match b with
  | ⟨0, _⟩ =>
    unfold ScatterDims.siIdx
    rw [dif_neg (by exact Nat.zero_ne_one)]
    unfold ScatterDims.siCoord
    apply Fin.ext
    simp only [Fin.val_cast]
    rfl
  | ⟨1, _⟩ =>
    unfold ScatterDims.siIdx
    rw [dif_pos rfl]
    apply Fin.ext
    show c.val = 0
    have : c.val < 1 := c.isLt
    omega

/-- On axis 0 the window starts at the index word, read signed. -/
private theorem start_V0 (j : (⟨1, ![E]⟩ : Shape).Idx) (idx : IVec ⟨2, ![E, 1]⟩ w) :
    (litV wf).start j idx 0 = (idx (ix2 (j 0) (0 : Fin 1))).toInt := by
  unfold ScatterDims.start
  rw [dif_pos (show (0 : Fin (⟨1, ![N]⟩ : Shape).rank) ∈ (litV wf).scatterDimsToOperandDims from List.mem_singleton.mpr rfl)]
  rw [siIdx_V]
  rfl

/-- Axis 0 is inserted: no window coordinate. -/
private theorem window_V0 (j : (⟨1, ![E]⟩ : Shape).Idx) : (litV wf).window j 0 = 0 := by
  unfold ScatterDims.window
  rw [dif_neg (show ¬(0 : Fin (⟨1, ![N]⟩ : Shape).rank) ∈ (litV wf).sKept from List.not_mem_nil)]

/-- Update j lands at position r exactly when its index word, read signed, is r. -/
private theorem lands_V (j : (⟨1, ![E]⟩ : Shape).Idx) (idx : IVec ⟨2, ![E, 1]⟩ w) (r : Fin N) :
    (litV wf).resultIdx? j idx = some (ix1 r) ↔ (idx (ix2 (j 0) (0 : Fin 1))).toInt = (r.val : ℤ) := by
  rw [resultIdx?_eq_some_iff]
  constructor
  · intro h
    have h0 := h 0
    rw [start_V0, window_V0] at h0
    simp only [Nat.cast_zero, add_zero] at h0
    exact h0
  · intro h a
    match a with
    | ⟨0, _⟩ =>
      have e1 := start_V0 wf j idx
      have e2 := window_V0 wf j
      show (litV wf).start j idx 0 + (((litV wf).window j 0 : ℕ) : ℤ) = (r.val : ℤ)
      rw [e1, e2, h]
      simp

end Vec

/-! ### The table layout -/

/-- The table layout's dimension numbers as a literal record, over any proof that they are well formed. -/
private abbrev litT {N C E : ℕ} (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ :=
  ⟨[1], [0], [0], 1, wf⟩

section Tab
variable {N C E w : ℕ} (wf : ScatterDims.WF ⟨2, ![N, C]⟩ ⟨2, ![E, 1]⟩ ⟨2, ![E, C]⟩ [1] [0] [0] 1)

/-- The row (e, ·) of updates reads row e of the column of indices. -/
private theorem siIdx_T (j : (⟨2, ![E, C]⟩ : Shape).Idx) (c : Fin (litT wf).scatterDimsToOperandDims.length) :
    (litT wf).siIdx j c = ix2 (j 0) (0 : Fin 1) := by
  funext b
  match b with
  | ⟨0, _⟩ =>
    unfold ScatterDims.siIdx
    rw [dif_neg (by exact Nat.zero_ne_one)]
    unfold ScatterDims.siCoord
    apply Fin.ext
    simp only [Fin.val_cast]
    rfl
  | ⟨1, _⟩ =>
    unfold ScatterDims.siIdx
    rw [dif_pos rfl]
    apply Fin.ext
    show c.val = 0
    have : c.val < 1 := c.isLt
    omega

/-- The operand's one axis that is not inserted is axis 1. -/
private theorem sKept_T : (litT wf).sKept = [1] := rfl

/-- On axis 0 the window starts at the index word, read signed. -/
private theorem start_T0 (j : (⟨2, ![E, C]⟩ : Shape).Idx) (idx : IVec ⟨2, ![E, 1]⟩ w) :
    (litT wf).start j idx 0 = (idx (ix2 (j 0) (0 : Fin 1))).toInt := by
  unfold ScatterDims.start
  rw [dif_pos (show (0 : Fin (⟨2, ![N, C]⟩ : Shape).rank) ∈ (litT wf).scatterDimsToOperandDims from List.mem_singleton.mpr rfl)]
  rw [siIdx_T]
  rfl

/-- Axis 1 is named by no index: its window starts at 0. -/
private theorem start_T1 (j : (⟨2, ![E, C]⟩ : Shape).Idx) (idx : IVec ⟨2, ![E, 1]⟩ w) :
    (litT wf).start j idx 1 = 0 := by
  unfold ScatterDims.start
  rw [dif_neg (show ¬(1 : Fin (⟨2, ![N, C]⟩ : Shape).rank) ∈ (litT wf).scatterDimsToOperandDims by
    rw [List.mem_singleton]; intro e; exact Nat.one_ne_zero (congrArg Fin.val e))]

/-- Axis 0 is inserted: no window coordinate. -/
private theorem window_T0 (j : (⟨2, ![E, C]⟩ : Shape).Idx) : (litT wf).window j 0 = 0 := by
  unfold ScatterDims.window
  rw [dif_neg (show ¬(0 : Fin (⟨2, ![N, C]⟩ : Shape).rank) ∈ (litT wf).sKept by
    rw [sKept_T, List.mem_singleton]; intro e; exact Nat.zero_ne_one (congrArg Fin.val e))]

/-- Axis 1 is the window axis: its window coordinate is the update's column. -/
private theorem window_T1 (j : (⟨2, ![E, C]⟩ : Shape).Idx) : (litT wf).window j 1 = (j 1).val := by
  unfold ScatterDims.window
  rw [dif_pos (show (1 : Fin (⟨2, ![N, C]⟩ : Shape).rank) ∈ (litT wf).sKept by
    rw [sKept_T]; exact List.mem_singleton.mpr rfl)]
  rfl

/-- Update (e, c') lands at (r, c) exactly when e's index word, read signed, is r and c' is c. -/
private theorem lands_T (j : (⟨2, ![E, C]⟩ : Shape).Idx) (idx : IVec ⟨2, ![E, 1]⟩ w) (r : Fin N) (c : Fin C) :
    (litT wf).resultIdx? j idx = some (ix2 r c)
      ↔ (idx (ix2 (j 0) (0 : Fin 1))).toInt = (r.val : ℤ) ∧ (j 1).val = c.val := by
  rw [resultIdx?_eq_some_iff]
  constructor
  · intro h
    have h0 := h 0
    have h1 := h 1
    rw [start_T0, window_T0] at h0
    rw [start_T1, window_T1] at h1
    simp only [Nat.cast_zero, add_zero] at h0
    have h1' : ((j 1).val : ℤ) = (c.val : ℤ) := by
      simp only [zero_add] at h1
      exact h1
    exact ⟨h0, by exact_mod_cast h1'⟩
  · intro h a
    match a with
    | ⟨0, _⟩ =>
      have e1 := start_T0 wf j idx
      have e2 := window_T0 wf j
      show (litT wf).start j idx 0 + (((litT wf).window j 0 : ℕ) : ℤ) = (r.val : ℤ)
      rw [e1, e2, h.1]
      simp
    | ⟨1, _⟩ =>
      have e1 := start_T1 wf j idx
      have e2 := window_T1 wf j
      show (litT wf).start j idx 1 + (((litT wf).window j 1 : ℕ) : ℤ) = (c.val : ℤ)
      rw [e1, e2, h.2]
      simp

end Tab

/-- A VECTOR of sums. Operand [N], scatter indices [E, 1], updates [E]; no window axis, axis 0 inserted and named by
    the index vector's one component. Entry r is the operand's entry plus the sum of the updates whose index is r. -/
theorem scatterAdd_vec_apply {N E w : ℕ} (d : ScatterDims ⟨1, ![N]⟩ ⟨2, ![E, 1]⟩ ⟨1, ![E]⟩)
    (huw : d.updateWindowDims = []) (hiw : d.insertedWindowDims = [0]) (hsd : d.scatterDimsToOperandDims = [0])
    (hiv : d.indexVectorDim = 1)
    (x : FVec Ideal ⟨1, ![N]⟩ .f32) (idx : IVec ⟨2, ![E, 1]⟩ w) (upd : FVec Ideal ⟨1, ![E]⟩ .f32) (r : Fin N) :
    Host.scatterAdd (F := Ideal) d x idx upd (ix1 r)
      = x (ix1 r) + ∑ e : Fin E, if (idx (ix2 e (0 : Fin 1))).toInt = (r.val : ℤ) then upd (ix1 e) else 0 := by
  obtain ⟨uw, iw, sd, iv, wf⟩ := d
  simp only at huw hiw hsd hiv
  subst huw hiw hsd hiv
  simp only [Host.scatterAdd, Ideal.hostScatterAdd_def, Ideal.hostScatterAdd]
  congr 1
  rw [Finset.sum_filter, sum_idx1]
  refine Finset.sum_congr rfl fun e _ => ?_
  exact if_congr (lands_V wf (ix1 e) idx r) rfl rfl

/-- A TABLE of row sums. Operand [N, C], scatter indices [E, 1], updates [E, C]; the updates' axis 1 is the window
    axis, the operand's axis 0 is inserted and named by the index vector's one component. Entry (r, j) is the
    operand's entry plus the sum, over the updates whose index is r, of their entry j. -/
theorem scatterAdd_rows_apply {N C E w : ℕ} (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hiv : d.indexVectorDim = 1)
    (x : FVec Ideal ⟨2, ![N, C]⟩ .f32) (idx : IVec ⟨2, ![E, 1]⟩ w) (upd : FVec Ideal ⟨2, ![E, C]⟩ .f32) (r : Fin N) (j : Fin C) :
    Host.scatterAdd (F := Ideal) d x idx upd (ix2 r j)
      = x (ix2 r j) + ∑ e : Fin E, if (idx (ix2 e (0 : Fin 1))).toInt = (r.val : ℤ) then upd (ix2 e j) else 0 := by
  obtain ⟨uw, iw, sd, iv, wf⟩ := d
  simp only at huw hiw hsd hiv
  subst huw hiw hsd hiv
  simp only [Host.scatterAdd, Ideal.hostScatterAdd_def, Ideal.hostScatterAdd]
  congr 1
  rw [Finset.sum_filter, sum_idx2]
  refine Finset.sum_congr rfl fun e _ => ?_
  -- the inner sum over the update's column keeps the one column j
  by_cases he : (idx (ix2 e (0 : Fin 1))).toInt = (r.val : ℤ)
  · rw [if_pos he]
    rw [Finset.sum_eq_single j]
    · exact if_pos ((lands_T wf (ix2 e j) idx r j).mpr ⟨he, rfl⟩)
    · intro c' _ hc'
      exact if_neg fun h => hc' (Fin.ext ((lands_T wf (ix2 e c') idx r j).mp h).2)
    · intro h
      exact absurd (Finset.mem_univ j) h
  · rw [if_neg he]
    refine Finset.sum_eq_zero fun c' _ => ?_
    exact if_neg fun h => he ((lands_T wf (ix2 e c') idx r j).mp h).1

end Cert.LibScatterRows

end
-- ==== Proof.LibGatherRows.lean ====
/-
  The host's gather that selects ROWS of a matrix by a column of positions, read at an index.
-/
import Idealize.ShloMosaic.PureOps
import Idealize.ShloMosaic.Lib.ValueIdx

set_option maxRecDepth 16384

noncomputable section

namespace Cert.LibGatherRows

open Idealize.ShloMosaic Idealize.ShloMosaic.ValueIdx

/-- An entry of a one-element list is that element, whatever the position. -/
private theorem getElem_of_eq_singleton {β : Type} {l : List β} {x : β} (hl : l = [x]) (k : Nat) (hk : k < l.length) :
    l[k]'hk = x := by
  subst hl
  have hk0 : k = 0 := by simpa using hk
  subst hk0
  rfl

/-- SELECTING ROWS. A gather over an [N, C] matrix whose start indices are an [E, 1] column of positions, the
    columns kept whole (axis 1 an offset axis of slice size C) and axis 0 collapsed and start-indexed: entry (e, j)
    is the matrix at the row position e's start index names, read signed and clamped into [0, N - 1], and column j. -/
theorem gather_rows {α : Type} {N C E w : ℕ} (d : GatherDims ⟨2, ![N, C]⟩ ⟨2, ![E, 1]⟩ ⟨2, ![E, C]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (x : (⟨2, ![N, C]⟩ : Shape).Idx → α) (idx : IVec ⟨2, ![E, 1]⟩ w) (e : Fin E) (j : Fin C) (hN : 0 < N) :
    Host.gather d x idx (ix2 e j)
      = x (ix2 ⟨min (idx (ix2 e (0 : Fin 1))).toInt.toNat (N - 1), by omega⟩ j) := by
  -- the axes kept on each side: the operand's one offset axis is 1, the result's one batch axis is 0
  have hsK : d.sKept = [1] := by
    show (List.finRange 2).filter (· ∉ d.collapsedSliceDims ++ d.operandBatchingDims) = [1]
    rw [hcoll, hob]; rfl
  have hbD : d.batchDims = [0] := by
    show (List.finRange 2).filter (· ∉ d.offsetDims) = [0]
    rw [hoff]; rfl
  have hlen : d.startIndexMap.length = 1 := by rw [hsim]; rfl
  -- the start-index entry result position (e, j) reads is row e of the column of positions
  have hsi : ∀ c, d.siIdx (ix2 e j) c = ix2 e (0 : Fin 1) := by
    intro c
    funext b
    match b with
    | ⟨0, _⟩ =>
      unfold GatherDims.siIdx
      rw [dif_neg (by rw [hivd]; simp)]
      unfold GatherDims.siCoord
      apply Fin.ext
      simp only [Fin.val_cast]
      rw [getElem_of_eq_singleton hbD]
      rfl
    | ⟨1, _⟩ =>
      unfold GatherDims.siIdx
      rw [dif_pos (by rw [hivd])]
      apply Fin.ext
      show c.val = 0
      have := c.isLt
      omega
  unfold Host.gather
  congr 1
  funext ax
  apply Fin.ext
  match ax with
  | ⟨0, h0⟩ =>
    -- axis 0, collapsed and start-indexed: the clamped start index alone
    have hb : (⟨0, h0⟩ : Fin 2) ∉ d.operandBatchingDims := by rw [hob]; exact List.not_mem_nil
    have hk : (⟨0, h0⟩ : Fin 2) ∉ d.sKept := by
      rw [hsK, List.mem_singleton]; intro e; exact Nat.zero_ne_one (congrArg Fin.val e)
    have hm : (⟨0, h0⟩ : Fin 2) ∈ d.startIndexMap := by rw [hsim]; exact List.mem_singleton.mpr rfl
    have hsl : d.sliceSizes ⟨0, h0⟩ = 1 := d.slice_collapsed _ (by rw [hcoll]; exact List.mem_singleton.mpr rfl)
    simp only [GatherDims.operandIdx, GatherDims.batchCoord_eq_zero _ _ _ hb, GatherDims.offCoord_eq_zero _ _ _ hk,
      Nat.add_zero, GatherDims.start, dif_pos hm]
    rw [hsi, hsl]
    rfl
  | ⟨1, h1⟩ =>
    -- axis 1, the offset axis: no start index, no batch coordinate, the result's column
    have hb : (⟨1, h1⟩ : Fin 2) ∉ d.operandBatchingDims := by rw [hob]; exact List.not_mem_nil
    have hm : (⟨1, h1⟩ : Fin 2) ∉ d.startIndexMap := by
      rw [hsim, List.mem_singleton]; intro e; exact Nat.one_ne_zero (congrArg Fin.val e)
    have hk : (⟨1, h1⟩ : Fin 2) ∈ d.sKept := by rw [hsK]; exact List.mem_singleton.mpr rfl
    simp only [GatherDims.operandIdx, GatherDims.batchCoord_eq_zero _ _ _ hb, GatherDims.start, dif_neg hm,
      GatherDims.offCoord, dif_pos hk, Nat.zero_add, Nat.add_zero]
    rw [getElem_of_eq_singleton hoff]
    rfl

end Cert.LibGatherRows

end
-- ==== Proof.AggRead.lean ====
/-
  Both programs' layer aggregation is `Spec.agg`. The reference gathers the table's rows at the edges' start nodes
  (a negative start node wraps by the node count, an index out of range is clamped) and adds them up at the edges'
  end nodes. The kernel program does the same and in addition replaces a row read out of range by a filler. When
  every start and end node is a number in [0, 100000) nothing wraps, nothing is clamped and no filler is read: edge
  e contributes the table's row at its start node to the sum at its end node.
-/
import proofs.«412129_j59090160058839_3_alg».proof.Proof.KStages
import proofs.«412129_j59090160058839_3_alg».proof.Proof.RefRead
import proofs.«412129_j59090160058839_3_alg».proof.Proof.Spec
import proofs.«412129_j59090160058839_3_alg».proof.Proof.LibScatterRows
import proofs.«412129_j59090160058839_3_alg».proof.Proof.LibGatherRows
import Idealize.ShloMosaic.PureOps.Reduce
import Idealize.ShloMosaic.PureOps.Ideal.Laws
import Idealize.ShloMosaic.Lib.Pipeline.Value

set_option maxRecDepth 16384

noncomputable section

namespace Cert.AggRead

open Idealize.ShloMosaic Idealize.ShloMosaic.ValueIdx
open Cert.KernelIdeal (S1600000 S100000 S100000x128 S128x128 S128)

open scoped BigOperators

/-! ### Words: a node number is a non-negative word below the node count -/

/-- A word whose signed value is a natural number is not negative, so the wrap by the node count leaves it alone. -/
private theorem wrap_word (a : BitVec 32) (n : ℕ) (ha : a.toInt = (n : ℤ)) :
    Scalar.select (IntOp.cmpi .slt a 0#32) (IntOp.addi a 100000#32) a = a := by
  have hz : (0#32 : BitVec 32).toInt = 0 := by decide
  have hnot : ¬ a.toInt < (0#32 : BitVec 32).toInt := by rw [ha, hz]; omega
  have hlt : a.slt 0#32 = false := decide_eq_false hnot
  have h0 : IntOp.cmpi .slt a 0#32 = 0#1 := by
    show BitVec.ofBool (a.slt 0#32) = 0#1
    rw [hlt]; rfl
  rw [h0, select_zero]

/-- A word whose signed value is a node number passes both range tests: it is at least 0 and at most 99999. -/
private theorem range_word (a : BitVec 32) (n : ℕ) (hn : n < 100000) (ha : a.toInt = (n : ℤ)) :
    IntOp.andi (IntOp.cmpi .sge a 0#32) (IntOp.cmpi .sle a 99999#32) = 1#1 := by
  have hz : (0#32 : BitVec 32).toInt = 0 := by decide
  have hm : (99999#32 : BitVec 32).toInt = 99999 := by decide
  have hge : (0#32 : BitVec 32).toInt ≤ a.toInt := by rw [ha, hz]; omega
  have hle : a.toInt ≤ (99999#32 : BitVec 32).toInt := by rw [ha, hm]; omega
  have h1 : (0#32 : BitVec 32).sle a = true := decide_eq_true hge
  have h2 : a.sle 99999#32 = true := decide_eq_true hle
  show IntOp.andi (BitVec.ofBool ((0#32 : BitVec 32).sle a)) (BitVec.ofBool (a.sle 99999#32)) = 1#1
  rw [h1, h2]; rfl

/-- A conjunction of bits that are all 1, started from 1, is 1. -/
private theorem fold_andi_ones {ι : Type} (S : Finset ι) (g : ι → BitVec 1) (hg : ∀ i, g i = 1#1) :
    S.fold IntOp.andi 1#1 g = 1#1 := by
  induction S using Finset.cons_induction with
  | empty => rfl
  | cons a S ha ih => rw [Finset.fold_cons, ih, hg a]; rfl

/-! ### Reads: a vector as a column, the gathered row, the scattered sum -/

/-- A vector laid out as a column reads, at (e, 0), the vector at e. -/
private theorem col_read {α : Type} (h : (⟨1, ![1600000]⟩ : Shape).BroadcastsInDim ⟨2, ![1600000, 1]⟩ ![0])
    (v : (⟨1, ![1600000]⟩ : Shape).Idx → α) (e : Fin 1600000) :
    broadcastInDim ⟨2, ![1600000, 1]⟩ ![0] h v (ix2 e (0 : Fin 1)) = v (ix1 e) :=
  broadcastInDim_apply _ h v (ix2 e (0 : Fin 1)) (ix1 e) (fun a => match a with
    | ⟨0, _⟩ => by show e.val = if (1600000 : Nat) = 1 then 0 else e.val; rw [if_neg (by decide)])

/-- The row gathered for edge e, when the edge's start index is the node number n, is the table's row n:
    nothing is clamped. -/
private theorem gather_read (g : GatherDims ⟨2, ![100000, 128]⟩ ⟨2, ![1600000, 1]⟩ ⟨2, ![1600000, 128]⟩)
    (hoff : g.offsetDims = [1]) (hcoll : g.collapsedSliceDims = [0]) (hob : g.operandBatchingDims = [])
    (hsb : g.startIndicesBatchingDims = []) (hsim : g.startIndexMap = [0]) (hivd : g.indexVectorDim = 1)
    (tbl : FVec Ideal S100000x128 .f32) (idx : IVec ⟨2, ![1600000, 1]⟩ 32) (e : Fin 1600000) (j : Fin 128)
    (n : Fin 100000) (hi : (idx (ix2 e (0 : Fin 1))).toInt = (n.val : ℤ)) :
    Host.gather g tbl idx (ix2 e j) = tbl (ix2 n j) := by
  rw [Cert.LibGatherRows.gather_rows g hoff hcoll hob hsb hsim hivd tbl idx e j (by decide)]
  have hn : (⟨min (idx (ix2 e (0 : Fin 1))).toInt.toNat (100000 - 1), by omega⟩ : Fin 100000) = n := by
    apply Fin.ext
    show min (idx (ix2 e (0 : Fin 1))).toInt.toNat (100000 - 1) = n.val
    rw [hi, Int.toNat_natCast]
    have := n.isLt
    omega
  rw [hn]

/-- The scatter-add of rows that are the table's rows at the edges' start nodes, onto zeros, at the edges' end
    nodes, is the aggregation. -/
private theorem scatter_read (c : ScatterDims ⟨2, ![100000, 128]⟩ ⟨2, ![1600000, 1]⟩ ⟨2, ![1600000, 128]⟩)
    (huw : c.updateWindowDims = [1]) (hiw : c.insertedWindowDims = [0]) (hsd : c.scatterDimsToOperandDims = [0])
    (hiv : c.indexVectorDim = 1)
    (x9 : IVec S1600000 32) (s d : Fin 1600000 → Fin 100000)
    (hd : ∀ e : Fin 1600000, (x9 (ix1 e)).toInt = ((d e).val : ℤ))
    (tbl : FVec Ideal S100000x128 .f32)
    (x : FVec Ideal ⟨2, ![100000, 128]⟩ .f32) (hx : ∀ i, x i = (0 : EReal))
    (idx : IVec ⟨2, ![1600000, 1]⟩ 32) (hidx : ∀ e : Fin 1600000, idx (ix2 e (0 : Fin 1)) = x9 (ix1 e))
    (upd : FVec Ideal ⟨2, ![1600000, 128]⟩ .f32)
    (hupd : ∀ (e : Fin 1600000) (j : Fin 128), upd (ix2 e j) = tbl (ix2 (s e) j)) :
    Host.scatterAdd (F := Ideal) c x idx upd = Cert.Spec.agg s d tbl := by
  funext i
  obtain ⟨r, j, rfl⟩ : ∃ (r : Fin 100000) (j : Fin 128), i = ix2 r j := ⟨i 0, i 1, eq_ix2 i⟩
  rw [Cert.Spec.agg_apply, Cert.LibScatterRows.scatterAdd_rows_apply c huw hiw hsd hiv, hx]
  refine congrArg (fun t : EReal => (0 : EReal) + t) (Finset.sum_congr rfl (fun e _ => ?_))
  rw [hidx e, hd e, hupd e j]
  exact if_congr ⟨fun h => Fin.ext (by exact_mod_cast h), fun h => by rw [h]⟩ rfl rfl

/-! ### The kernel program's start indices, range test and gathered rows -/

/-- The kernel program's start index for edge e is the edge's start word: it is not negative, so it is not wrapped. -/
private theorem takeIdx_read (x8 : IVec S1600000 32) (n : ℕ) (e : Fin 1600000) (he : (x8 (ix1 e)).toInt = (n : ℤ)) :
    Cert.KernelIdeal.Stages.takeIdx x8 (ix2 e (0 : Fin 1)) = x8 (ix1 e) := by
  unfold Cert.KernelIdeal.Stages.takeIdx
  refine (col_read _ _ e).trans ?_
  exact wrap_word (x8 (ix1 e)) n he

/-- Every edge passes the kernel program's range test. -/
private theorem takeOk_one (x8 : IVec S1600000 32) (s : Fin 1600000 → Fin 100000)
    (hs : ∀ e : Fin 1600000, (x8 (ix1 e)).toInt = ((s e).val : ℤ)) (k : S1600000.Idx) :
    Cert.KernelIdeal.Stages.takeOk x8 k = 1#1 := by
  unfold Cert.KernelIdeal.Stages.takeOk
  rw [Host.reduce_eq_fold]
  refine fold_andi_ones _ _ (fun i => ?_)
  obtain ⟨e, z, rfl⟩ : ∃ (e : Fin 1600000) (z : Fin 1), i = ix2 e z := ⟨i 0, i 1, eq_ix2 i⟩
  obtain rfl : z = 0 := Subsingleton.elim _ _
  show IntOp.andi (IntOp.cmpi .sge (Cert.KernelIdeal.Stages.takeIdx x8 (ix2 e (0 : Fin 1))) 0#32)
      (IntOp.cmpi .sle (Cert.KernelIdeal.Stages.takeIdx x8 (ix2 e (0 : Fin 1))) 99999#32) = 1#1
  rw [takeIdx_read x8 (s e).val e (hs e)]
  exact range_word _ (s e).val (s e).isLt (hs e)

/-- So the kernel program's row for edge e is the gathered one, the table's row at the edge's start node; the
    filler is not read. -/
private theorem take_read (x8 : IVec S1600000 32) (s : Fin 1600000 → Fin 100000)
    (hs : ∀ e : Fin 1600000, (x8 (ix1 e)).toInt = ((s e).val : ℤ)) (tbl : FVec Ideal S100000x128 .f32)
    (e : Fin 1600000) (j : Fin 128) :
    Cert.KernelIdeal.Stages.take tbl x8 (ix2 e j) = tbl (ix2 (s e) j) := by
  unfold Cert.KernelIdeal.Stages.take
  rw [select_apply]
  unfold broadcastInDim
  rw [takeOk_one x8 s hs, select_one]
  exact gather_read _ rfl rfl rfl rfl rfl rfl tbl _ e j (s e)
    (by rw [takeIdx_read x8 (s e).val e (hs e)]; exact hs e)

/-! ### The reference's start indices -/

/-- The reference's start index for edge e is the edge's start word, for the same reason. -/
private theorem v28_read (x8 : IVec S1600000 32) (n : ℕ) (e : Fin 1600000) (he : (x8 (ix1 e)).toInt = (n : ℤ)) :
    Cert.ReferenceIdeal.ReadP.val_main_v28 (F := Ideal) x8 (ix2 e (0 : Fin 1)) = x8 (ix1 e) := by
  unfold Cert.ReferenceIdeal.ReadP.val_main_v28
  refine (col_read _ _ e).trans ?_
  exact wrap_word (x8 (ix1 e)) n he

variable (x8 x9 : IVec S1600000 32) (s d : Fin 1600000 → Fin 100000)
  (hs : ∀ e : Fin 1600000, (x8 (ix1 e)).toInt = ((s e).val : ℤ)) (hd : ∀ e : Fin 1600000, (x9 (ix1 e)).toInt = ((d e).val : ℤ))

include hs hd in
/-- The kernel program's gather, filler and scatter-add. -/
theorem aggK_eq (tbl : FVec Ideal S100000x128 .f32) : Cert.KernelIdeal.Stages.aggK tbl x8 x9 = Cert.Spec.agg s d tbl := by
  unfold Cert.KernelIdeal.Stages.aggK
  exact scatter_read _ rfl rfl rfl rfl x9 s d hd tbl _ (fun _ => Ideal.ofBits_zero_f32) _ (fun e => col_read _ x9 e) _
    (fun e j => take_read x8 s hs tbl e j)

include hs hd in
/-- The reference's gather and scatter-add, for any table. -/
theorem aggR_eq (tbl : FVec Ideal S100000x128 .f32) :
    Host.scatterAdd (F := Ideal) Cert.ReferenceIdeal.scatter_S100000x128_S1600000x1_S1600000x128_1_0_0_1
        (Cert.ReferenceIdeal.ReadP.val_main_v30 (F := Ideal)) (Cert.ReferenceIdeal.ReadP.val_main_v31 (F := Ideal) x9)
        (Host.gather Cert.ReferenceIdeal.gather_S100000x128_S1600000x1_S1600000x128_1_0_n_n_0_1_1128 tbl
          (Cert.ReferenceIdeal.ReadP.val_main_v28 (F := Ideal) x8))
      = Cert.Spec.agg s d tbl := by
  exact scatter_read _ rfl rfl rfl rfl x9 s d hd tbl _ (fun _ => Ideal.ofBits_zero_f32) _ (fun e => col_read _ x9 e) _
    (fun e j => gather_read _ rfl rfl rfl rfl rfl rfl tbl _ e j (s e)
      (by rw [v28_read x8 (s e).val e (hs e)]; exact hs e))

include hs hd in
/-- The reference's first aggregate. -/
theorem v32_eq (x0 : FVec Ideal S100000x128 .f32) (x1 : FVec Ideal S128x128 .f32) :
    Cert.ReferenceIdeal.ReadP.val_main_v32 (F := Ideal) x0 x1 x8 x9
      = Cert.Spec.agg s d (Cert.ReferenceIdeal.ReadP.val_main_v22 (F := Ideal) x0 x1 x8) := by
  unfold Cert.ReferenceIdeal.ReadP.val_main_v32 Cert.ReferenceIdeal.ReadP.val_main_v29
  exact aggR_eq x8 x9 s d hs hd _

include hs hd in
/-- The reference's second aggregate. -/
theorem v57_eq (x0 : FVec Ideal S100000x128 .f32) (x1 : FVec Ideal S128x128 .f32) (x2 x3 : FVec Ideal S128 .f32) (x4 : FVec Ideal S128x128 .f32) :
    Cert.ReferenceIdeal.ReadP.val_main_v57 (F := Ideal) x0 x1 x2 x3 x4 x8 x9
      = Cert.Spec.agg s d (Cert.ReferenceIdeal.ReadP.val_main_v47 (F := Ideal) x0 x1 x2 x3 x4 x8 x9) := by
  unfold Cert.ReferenceIdeal.ReadP.val_main_v57 Cert.ReferenceIdeal.ReadP.val_main_v54
  exact aggR_eq x8 x9 s d hs hd _

end Cert.AggRead

end
-- ==== Proof.DegBridge.lean ====
/-
  The two programs count the same degrees. The reference counts the edges starting at a node by a scatter-add of
  ones over the start nodes, and those ending at it by one over the end nodes. The kernel program does ONE
  scatter-add of ones over the start nodes followed by the end nodes shifted by the node count, into an array of
  twice the node count, and slices the halves apart. When every start and end node is a number in [0, 100000) a
  start node never lands in the second half and a shifted end node never in the first, so position r of the first
  half counts exactly the start nodes equal to r and position r of the second half the end nodes equal to r.
-/
import proofs.«412129_j59090160058839_3_alg».proof.Proof.KStages
import proofs.«412129_j59090160058839_3_alg».proof.Proof.RefRead
import proofs.«412129_j59090160058839_3_alg».proof.Proof.LibScatterRows

set_option maxRecDepth 16384

noncomputable section

namespace Cert.DegBridge

open Idealize.ShloMosaic Idealize.ShloMosaic.ValueIdx
open Cert.KernelIdeal (S1600000 S100000)
open scoped BigOperators

/-- Two sums with equal first terms and pointwise equal summands are equal. -/
private theorem add_sum_congr {M : Type*} [AddCommMonoid M] {n : ℕ} {a a' : M} {f g : Fin n → M} (ha : a = a')
    (hfg : ∀ e, f e = g e) : a + ∑ e, f e = a' + ∑ e, g e := by
  rw [ha, show f = g from funext hfg]

/-- The same with the sum in two pieces. -/
private theorem add_sum2_congr {M : Type*} [AddCommMonoid M] {m n : ℕ} (a : M) {f f' : Fin m → M} {g g' : Fin n → M}
    (hf : ∀ e, f e = f' e) (hg : ∀ e, g e = g' e) :
    a + ((∑ e, f e) + ∑ e, g e) = a + ((∑ e, f' e) + ∑ e, g' e) := by
  rw [show f = f' from funext hf, show g = g' from funext hg]

/-- A vector turned into a one-column table reads, at row e, the vector's entry e. -/
private theorem col_apply {n : ℕ} (hn : n ≠ 1) (h : (⟨1, ![n]⟩ : Shape).BroadcastsInDim ⟨2, ![n, 1]⟩ ![0])
    (v : IVec ⟨1, ![n]⟩ 32) (e : Fin n) :
    broadcastInDim ⟨2, ![n, 1]⟩ ![0] h v (ix2 e (0 : Fin 1)) = v (ix1 e) :=
  broadcastInDim_apply _ h v _ (ix1 e) (fun a => match a with
    | ⟨0, _⟩ => by show e.val = if n = 1 then 0 else e.val; rw [if_neg hn])

/-- A sum over an index range of length m + n is the sum over the first m positions plus the sum over the last n. -/
private theorem sum_split {M : Type*} [AddCommMonoid M] (m n k : ℕ) (h : k = m + n) (f : Fin k → M) :
    ∑ i, f i = (∑ i : Fin m, f ⟨i.val, by have := i.isLt; omega⟩) + ∑ i : Fin n, f ⟨m + i.val, by have := i.isLt; omega⟩ := by
  subst h
  rw [Fin.sum_univ_add]
  rfl

/-- Adding the node count to a word that is a node number does not wrap. -/
private theorem toInt_shift (v : BitVec 32) (h : 0 ≤ v.toInt ∧ v.toInt < 100000) :
    (v + 100000#32).toInt = v.toInt + 100000 := by
  rw [BitVec.toInt_add]
  have e : (100000#32 : BitVec 32).toInt = 100000 := by decide
  rw [e]
  apply Int.bmod_eq_of_le_mul_two
  · have := h.1; omega
  · have := h.2; omega

section Cat
variable (x8 x9 : IVec S1600000 32)

/-- A position in the first half of the joined index vector holds the start node of that edge. -/
private theorem idxCat_left (e : Fin 1600000) :
    Cert.KernelIdeal.Stages.idxCat x8 x9 (ix1 (⟨e.val, by have := e.isLt; omega⟩ : Fin 3200000)) = x8 (ix1 e) := by
  unfold Cert.KernelIdeal.Stages.idxCat
  refine concatenate_pair_apply_left (t := Cert.KernelIdeal.S3200000) (s₁ := S1600000) (s₂ := S1600000) 0 _ _ _ _
    (show S1600000.rank = Cert.KernelIdeal.S3200000.rank from rfl) (ix1 e) ?_
  intro b
  match b with
  | ⟨0, _⟩ => rfl

/-- A position in the second half holds the end node of that edge plus the node count. -/
private theorem idxCat_right (e : Fin 1600000) :
    Cert.KernelIdeal.Stages.idxCat x8 x9 (ix1 (⟨1600000 + e.val, by have := e.isLt; omega⟩ : Fin 3200000)) = x9 (ix1 e) + 100000#32 := by
  unfold Cert.KernelIdeal.Stages.idxCat
  refine (concatenate_pair_apply_right (t := Cert.KernelIdeal.S3200000) (s₁ := S1600000) (s₂ := S1600000) 0 _ _ _ _
    (show S1600000.rank = Cert.KernelIdeal.S3200000.rank from rfl)
    (show S1600000.rank = Cert.KernelIdeal.S3200000.rank from rfl) (ix1 e) ?_ ?_).trans ?_
  · intro b hb
    match b with
    | ⟨0, _⟩ => exact absurd rfl hb
  · show e.val + 1600000 = 1600000 + e.val
    omega
  · rfl

end Cat

section Deg
variable (x8 x9 : IVec S1600000 32)

/-- The zero and the one both programs feed their counts, kept as the words they are. -/
private abbrev Z : Ideal .f32 := FloatOps.ofBits .f32 0x00000000#32
private abbrev O : Ideal .f32 := FloatOps.ofBits .f32 0x3F800000#32

/-- Position q of the joint count: zero plus a one per entry of the joined index vector equal to q. -/
private theorem degCat_apply (q : Fin 200000) :
    Cert.KernelIdeal.Stages.degCat x8 x9 (ix1 q)
      = Z + ∑ e : Fin 3200000, if (Cert.KernelIdeal.Stages.idxCat x8 x9 (ix1 e)).toInt = (q.val : ℤ) then O else 0 := by
  unfold Cert.KernelIdeal.Stages.degCat
  rw [Cert.LibScatterRows.scatterAdd_vec_apply _ rfl rfl rfl rfl]
  refine add_sum_congr rfl fun e => ?_
  rw [col_apply (n := 3200000) (by decide)]
  rfl

/-- The joint count with its sum cut into the start-node half and the shifted end-node half. -/
private theorem degCat_split (h9 : ∀ i, 0 ≤ (x9 i).toInt ∧ (x9 i).toInt < 100000) (q : Fin 200000) :
    Cert.KernelIdeal.Stages.degCat x8 x9 (ix1 q)
      = Z + ((∑ e : Fin 1600000, if (x8 (ix1 e)).toInt = (q.val : ℤ) then O else 0)
          + ∑ e : Fin 1600000, if (x9 (ix1 e)).toInt + 100000 = (q.val : ℤ) then O else 0) := by
  rw [degCat_apply, sum_split 1600000 1600000 3200000 (by norm_num)]
  refine add_sum2_congr _ (fun e => ?_) (fun e => ?_)
  · rw [idxCat_left]
  · rw [idxCat_right, toInt_shift _ (h9 (ix1 e))]

/-- The reference's count over the start nodes, at node r. -/
private theorem ref_v3_apply (r : Fin 100000) :
    Cert.ReferenceIdeal.ReadP.val_main_v3 (F := Ideal) x8 (ix1 r)
      = Z + ∑ e : Fin 1600000, if (x8 (ix1 e)).toInt = (r.val : ℤ) then O else 0 := by
  unfold Cert.ReferenceIdeal.ReadP.val_main_v3
  rw [Cert.LibScatterRows.scatterAdd_vec_apply _ rfl rfl rfl rfl]
  refine add_sum_congr rfl fun e => ?_
  unfold Cert.ReferenceIdeal.ReadP.val_main_v2
  rw [col_apply (n := 1600000) (by decide)]
  rfl

/-- The reference's count over the end nodes, at node r. -/
private theorem ref_v6_apply (r : Fin 100000) :
    Cert.ReferenceIdeal.ReadP.val_main_v6 (F := Ideal) x9 (ix1 r)
      = Z + ∑ e : Fin 1600000, if (x9 (ix1 e)).toInt = (r.val : ℤ) then O else 0 := by
  unfold Cert.ReferenceIdeal.ReadP.val_main_v6
  rw [Cert.LibScatterRows.scatterAdd_vec_apply _ rfl rfl rfl rfl]
  refine add_sum_congr rfl fun e => ?_
  unfold Cert.ReferenceIdeal.ReadP.val_main_v5
  rw [col_apply (n := 1600000) (by decide)]
  rfl

end Deg

variable (x8 x9 : IVec S1600000 32)
  (h8 : ∀ i, 0 ≤ (x8 i).toInt ∧ (x8 i).toInt < 100000) (h9 : ∀ i, 0 ≤ (x9 i).toInt ∧ (x9 i).toInt < 100000)

include h8 h9 in
/-- The first half of the joint count is the reference's count over the start nodes. -/
theorem degOut_eq : Cert.KernelIdeal.Stages.degOut x8 x9 = Cert.ReferenceIdeal.ReadP.val_main_v3 (F := Ideal) x8 := by
  funext i
  obtain ⟨r, rfl⟩ : ∃ r : Fin 100000, i = ix1 r := ⟨i 0, eq_ix1 i⟩
  have hs : Cert.KernelIdeal.Stages.degOut x8 x9 (ix1 r)
      = Cert.KernelIdeal.Stages.degCat x8 x9 (ix1 (⟨r.val, by have := r.isLt; omega⟩ : Fin 200000)) := by
    unfold Cert.KernelIdeal.Stages.degOut
    refine extractStridedSlice_apply _ _ _ _ _ ?_
    intro a
    match a with
    | ⟨0, _⟩ => show r.val = 0 + r.val; omega
  rw [hs, degCat_split x8 x9 h9, ref_v3_apply]
  -- a shifted end node is at least the node count, so never the node r
  have h0 : (∑ e : Fin 1600000, if (x9 (ix1 e)).toInt + 100000 = (r.val : ℤ) then O else 0) = 0 := by
    refine Finset.sum_eq_zero fun e _ => ?_
    rw [if_neg]
    have := (h9 (ix1 e)).1
    have := r.isLt
    omega
  rw [h0, add_zero]

include h8 h9 in
/-- The second half is the reference's count over the end nodes. -/
theorem degIn_eq : Cert.KernelIdeal.Stages.degIn x8 x9 = Cert.ReferenceIdeal.ReadP.val_main_v6 (F := Ideal) x9 := by
  funext i
  obtain ⟨r, rfl⟩ : ∃ r : Fin 100000, i = ix1 r := ⟨i 0, eq_ix1 i⟩
  have hs : Cert.KernelIdeal.Stages.degIn x8 x9 (ix1 r)
      = Cert.KernelIdeal.Stages.degCat x8 x9 (ix1 (⟨100000 + r.val, by have := r.isLt; omega⟩ : Fin 200000)) := by
    unfold Cert.KernelIdeal.Stages.degIn
    refine extractStridedSlice_apply _ _ _ _ _ ?_
    intro a
    match a with
    | ⟨0, _⟩ => show 100000 + r.val = 100000 + r.val; rfl
  rw [hs, degCat_split x8 x9 h9, ref_v6_apply]
  -- a start node is below the node count, so never the node count plus r
  have h0 : (∑ e : Fin 1600000, if (x8 (ix1 e)).toInt = ((100000 + r.val : ℕ) : ℤ) then O else 0) = 0 := by
    refine Finset.sum_eq_zero fun e _ => ?_
    rw [if_neg]
    have := (h8 (ix1 e)).2
    omega
  rw [h0, zero_add]
  refine add_sum_congr rfl fun e => ?_
  refine if_congr ?_ rfl rfl
  show (x9 (ix1 e)).toInt + 100000 = ((100000 + r.val : ℕ) : ℤ) ↔ (x9 (ix1 e)).toInt = (r.val : ℤ)
  omega

include h8 h9 in
/-- So the start-node scales agree: both programs apply the same operations to equal degrees. -/
theorem ns_eq : Cert.KernelIdeal.Stages.ns x8 x9 = Cert.ReferenceIdeal.ReadP.val_main_v12 (F := Ideal) x8 := by
  unfold Cert.KernelIdeal.Stages.ns Cert.KernelIdeal.Stages.scale
  rw [degOut_eq x8 x9 h8 h9]
  rfl

include h8 h9 in
/-- And the end-node scales. -/
theorem nd_eq : Cert.KernelIdeal.Stages.nd x8 x9 = Cert.ReferenceIdeal.ReadP.val_main_v18 (F := Ideal) x9 := by
  unfold Cert.KernelIdeal.Stages.nd Cert.KernelIdeal.Stages.scale
  rw [degIn_eq x8 x9 h8 h9]
  rfl

end Cert.DegBridge

end
-- ==== Proof.TailBridge.lean ====
/-
  Both programs end with the same stretch of host operations applied to a node table: a scatter-add of the table's
  rows by graph number, a scatter-add of ones by graph number (the graph sizes), the quotient by max (size, 1), the
  product with the classifier's weights and the bias. So if the node tables agree, so do the results.
-/
import proofs.«412129_j59090160058839_3_alg».proof.Proof.KStages
import proofs.«412129_j59090160058839_3_alg».proof.Proof.RefRead

set_option maxRecDepth 16384

noncomputable section

namespace Cert.TailBridge

open Idealize.ShloMosaic
open Cert.KernelIdeal (S1600000 S100000 S100000x128 S128x128 S128 S128x16 S16)

/-- The kernel program's last stretch applied to the reference's node table is the reference's result. -/
theorem tail_eq (x0 : FVec Ideal S100000x128 .f32) (x1 : FVec Ideal S128x128 .f32) (x2 x3 : FVec Ideal S128 .f32) (x4 : FVec Ideal S128x128 .f32)
    (x5 : FVec Ideal S128 .f32) (x6 : FVec Ideal S128x16 .f32) (x7 : FVec Ideal S16 .f32) (x8 x9 : IVec S1600000 32) (x10 : IVec S100000 32) :
    Cert.KernelIdeal.Stages.tail (Cert.ReferenceIdeal.ReadP.val_main_v63 (F := Ideal) x0 x1 x2 x3 x4 x5 x8 x9) x6 x7 x10
      = Cert.ReferenceIdeal.ReadP.val_main_v79 (F := Ideal) x0 x1 x2 x3 x4 x5 x6 x7 x8 x9 x10 := by
  -- Spell both sides out down to the node table. They are then the same operations in the same order on the same
  -- arguments: the shapes are the same literals, the dimension numbers have the same lists, and the remaining
  -- differences are proofs of side conditions, which do not matter. The node table itself stays an opaque value.
  unfold Cert.KernelIdeal.Stages.tail Cert.ReferenceIdeal.ReadP.val_main_v79 Cert.ReferenceIdeal.ReadP.val_main_v78
    Cert.ReferenceIdeal.ReadP.val_main_v77 Cert.ReferenceIdeal.ReadP.val_main_v76 Cert.ReferenceIdeal.ReadP.val_main_v75
    Cert.ReferenceIdeal.ReadP.val_main_v74 Cert.ReferenceIdeal.ReadP.val_main_v73 Cert.ReferenceIdeal.ReadP.val_main_v72
    Cert.ReferenceIdeal.ReadP.val_main_v71 Cert.ReferenceIdeal.ReadP.val_main_v70 Cert.ReferenceIdeal.ReadP.val_main_v69
    Cert.ReferenceIdeal.ReadP.val_main_v68 Cert.ReferenceIdeal.ReadP.val_main_v67 Cert.ReferenceIdeal.ReadP.val_main_v66
    Cert.ReferenceIdeal.ReadP.val_main_v65 Cert.ReferenceIdeal.ReadP.val_main_v64 Cert.ReferenceIdeal.ReadP.val_main_cst_15
    Cert.ReferenceIdeal.ReadP.val_main_cst_16 Cert.ReferenceIdeal.ReadP.val_main_cst_17 Cert.ReferenceIdeal.ReadP.val_main_cst_18
  generalize Cert.ReferenceIdeal.ReadP.val_main_v63 (F := Ideal) x0 x1 x2 x3 x4 x5 x8 x9 = x
  rfl

end Cert.TailBridge

end
-- ==== Proof.Bridge.lean ====
/-
  The kernel program's result is the reference's, as functions of the arguments, when the float arguments the
  layers read are real and the index arrays hold node numbers.

  Both programs end with the same stretch (pool by graph, divide, classify), so it is enough that the node table
  they hand to it is the same. Layer by layer: the scales agree because the degrees do. In the first layer the
  kernel program aggregates the scaled features and then multiplies by the weights, the reference multiplies,
  scales and aggregates: equal by the law of aggregation and matrix product on real entries. The activations are
  then equal up to the start-node scale the kernel program has already folded in, and the second layer repeats the
  argument with the activations in the features' place.
-/
import proofs.«412129_j59090160058839_3_alg».proof.Proof.KStages
import proofs.«412129_j59090160058839_3_alg».proof.Proof.RefRead
import proofs.«412129_j59090160058839_3_alg».proof.Proof.Spec
import proofs.«412129_j59090160058839_3_alg».proof.Proof.Algebra
import proofs.«412129_j59090160058839_3_alg».proof.Proof.Finite
import proofs.«412129_j59090160058839_3_alg».proof.Proof.AggRead
import proofs.«412129_j59090160058839_3_alg».proof.Proof.DegBridge
import proofs.«412129_j59090160058839_3_alg».proof.Proof.TailBridge

set_option maxRecDepth 16384

noncomputable section

namespace Cert.Bridge

open Idealize.ShloMosaic Idealize.ShloMosaic.ValueIdx Cert.Algebra
open Cert.KernelIdeal (S1600000 S100000 S100000x128 S128x128 S128 S128x16 S16 S100000x1 S1x128)
open Cert.KernelIdeal.Stages
open Cert.ReferenceIdeal.ReadP
open scoped BigOperators

/-! ## Node numbers -/

/-- An index array whose words are node numbers, as a function into the nodes. -/
theorem exists_nodes (x : IVec S1600000 32) (h : ∀ i, 0 ≤ (x i).toInt ∧ (x i).toInt < 100000) :
    ∃ σ : Fin 1600000 → Fin 100000, ∀ e : Fin 1600000, (x (ix1 e)).toInt = ((σ e).val : ℤ) :=
  ⟨fun e => ⟨(x (ix1 e)).toInt.toNat, by have := h (ix1 e); omega⟩,
    fun e => by have := h (ix1 e); show _ = (((x (ix1 e)).toInt.toNat : ℕ) : ℤ); omega⟩

/-! ## Columns and rows read at an index -/

theorem col_apply (v : FVec Ideal S100000 .f32) (r : Fin 100000) : col v (ix2 r (0 : Fin 1)) = v (ix1 r) := by
  unfold col
  refine shapeCast_apply v _ (ix2 r (0 : Fin 1)) (ix1 r) ?_
  rw [Shape.rowMajor_val_two, Shape.rowMajor_val_one]
  show r.val = r.val * 1 + 0
  omega

theorem row_apply (v : FVec Ideal S128 .f32) (j : Fin 128) : row v (ix2 (0 : Fin 1) j) = v (ix1 j) := by
  unfold row
  refine shapeCast_apply v _ (ix2 (0 : Fin 1) j) (ix1 j) ?_
  rw [Shape.rowMajor_val_two, Shape.rowMajor_val_one]
  show j.val = 0 * 128 + j.val
  omega

/-! ## The reference's broadcasts read at (r, j) -/

section Ref
variable (x0 : FVec Ideal S100000x128 .f32) (x1 : FVec Ideal S128x128 .f32) (x2 x3 : FVec Ideal S128 .f32) (x4 : FVec Ideal S128x128 .f32) (x5 : FVec Ideal S128 .f32) (x8 x9 : IVec S1600000 32)

theorem v21_at (r : Fin 100000) (j : Fin 128) : val_main_v21 (F := Ideal) x8 (ix2 r j) = val_main_v12 (F := Ideal) x8 (ix1 r) := by
  rw [val_main_v21_apply, val_main_v20_apply]
  exact congrArg _ (funext fun a => match a with | ⟨0, _⟩ => rfl)

theorem v46_at (r : Fin 100000) (j : Fin 128) : val_main_v46 (F := Ideal) x8 (ix2 r j) = val_main_v12 (F := Ideal) x8 (ix1 r) := by
  rw [val_main_v46_apply, val_main_v45_apply]
  exact congrArg _ (funext fun a => match a with | ⟨0, _⟩ => rfl)

theorem v34_at (r : Fin 100000) (j : Fin 128) : val_main_v34 (F := Ideal) x9 (ix2 r j) = val_main_v18 (F := Ideal) x9 (ix1 r) := by
  rw [val_main_v34_apply, val_main_v33_apply]
  exact congrArg _ (funext fun a => match a with | ⟨0, _⟩ => rfl)

theorem v59_at (r : Fin 100000) (j : Fin 128) : val_main_v59 (F := Ideal) x9 (ix2 r j) = val_main_v18 (F := Ideal) x9 (ix1 r) := by
  rw [val_main_v59_apply, val_main_v58_apply]
  exact congrArg _ (funext fun a => match a with | ⟨0, _⟩ => rfl)

theorem v37_at (r : Fin 100000) (j : Fin 128) : val_main_v37 (F := Ideal) x2 (ix2 r j) = x2 (ix1 j) := by
  rw [val_main_v37_apply, val_main_v36_apply]
  exact congrArg _ (funext fun a => match a with | ⟨0, _⟩ => rfl)

theorem v62_at (r : Fin 100000) (j : Fin 128) : val_main_v62 (F := Ideal) x5 (ix2 r j) = x5 (ix1 j) := by
  rw [val_main_v62_apply, val_main_v61_apply]
  exact congrArg _ (funext fun a => match a with | ⟨0, _⟩ => rfl)

theorem v42_at (r : Fin 100000) (j : Fin 128) : val_main_v42 (F := Ideal) x3 (ix2 r j) = val_main_v40 (F := Ideal) x3 (ix1 j) := by
  rw [val_main_v42_apply, val_main_v41_apply]
  exact congrArg _ (funext fun a => match a with | ⟨0, _⟩ => rfl)

/-- The rectifier's zero. -/
theorem relu_zero (i : S100000x128.Idx) : val_main_call2_v0 (F := Ideal) i = 0 := by
  rw [val_main_call2_v0_apply, val_main_call2_cst_apply]
  exact Ideal.ofBits_zero_f32

/-- Both programs clip the retain probabilities by the same operations. -/
theorem clip_eq : clip01 x3 = val_main_v40 (F := Ideal) x3 := rfl

/-- The reference's first matrix product at (r, j). -/
theorem v19_at (r : Fin 100000) (j : Fin 128) :
    val_main_v19 (F := Ideal) x0 x1 (ix2 r j) = ∑ k : Fin 128, x0 (ix2 r k) * x1 (ix2 k j) := by
  rw [val_main_v19_apply]
  refine Finset.sum_congr rfl fun k _ => ?_
  have e1 : lidx_main_v19 (ix2 r j) k = ix2 r k := funext fun a => match a with | ⟨0, _⟩ => rfl | ⟨1, _⟩ => rfl
  have e2 : ridx_main_v19 (ix2 r j) k = ix2 k j := funext fun a => match a with | ⟨0, _⟩ => rfl | ⟨1, _⟩ => rfl
  rw [e1, e2]

/-- The reference's second matrix product at (r, j). -/
theorem v44_at (r : Fin 100000) (j : Fin 128) :
    val_main_v44 (F := Ideal) x0 x1 x2 x3 x4 x8 x9 (ix2 r j)
      = ∑ k : Fin 128, val_main_v43 (F := Ideal) x0 x1 x2 x3 x8 x9 (ix2 r k) * x4 (ix2 k j) := by
  rw [val_main_v44_apply]
  refine Finset.sum_congr rfl fun k _ => ?_
  have e1 : lidx_main_v44 (ix2 r j) k = ix2 r k := funext fun a => match a with | ⟨0, _⟩ => rfl | ⟨1, _⟩ => rfl
  have e2 : ridx_main_v44 (ix2 r j) k = ix2 k j := funext fun a => match a with | ⟨0, _⟩ => rfl | ⟨1, _⟩ => rfl
  rw [e1, e2]

end Ref

/-! ## The two layers -/

section Layers
variable (x0 : FVec Ideal S100000x128 .f32) (x1 : FVec Ideal S128x128 .f32) (x2 x3 : FVec Ideal S128 .f32) (x4 : FVec Ideal S128x128 .f32) (x5 : FVec Ideal S128 .f32) (x8 x9 : IVec S1600000 32)
  (h0 : ∀ i, IsReal (x0 i)) (h1 : ∀ i, IsReal (x1 i)) (h2 : ∀ i, IsReal (x2 i)) (h3 : ∀ i, IsReal (x3 i))
  (h4 : ∀ i, IsReal (x4 i)) (h5 : ∀ i, IsReal (x5 i))
  (h8 : ∀ i, 0 ≤ (x8 i).toInt ∧ (x8 i).toInt < 100000) (h9 : ∀ i, 0 ≤ (x9 i).toInt ∧ (x9 i).toInt < 100000)
  (s d : Fin 1600000 → Fin 100000)
  (hsrc : ∀ e : Fin 1600000, (x8 (ix1 e)).toInt = ((s e).val : ℤ)) (hdst : ∀ e : Fin 1600000, (x9 (ix1 e)).toInt = ((d e).val : ℤ))

/-- The start-node scale of node r, as the reference computes it. -/
def sc (x8 : IVec S1600000 32) (r : Fin 100000) : EReal := val_main_v12 (F := Ideal) x8 (ix1 r)

include h8 h9 in
theorem sc_isReal (r : Fin 100000) : IsReal (sc x8 r) := by
  unfold sc
  rw [← Cert.DegBridge.ns_eq x8 x9 h8 h9]
  exact Cert.Finite.ns_isReal x8 x9 _

include h8 h9 in
theorem tc_isReal (r : Fin 100000) : IsReal (val_main_v18 (F := Ideal) x9 (ix1 r)) := by
  rw [← Cert.DegBridge.nd_eq x8 x9 h8 h9]
  exact Cert.Finite.nd_isReal x8 x9 _

include h8 h9 in
/-- The first launch's output: the features, row r scaled by the start-node scale of r. -/
theorem hs_eq : hs x0 x8 x9 = fun i => x0 i * sc x8 (i 0) := by
  funext i
  obtain ⟨r, j, rfl⟩ : ∃ (r : Fin 100000) (j : Fin 128), i = ix2 r j := ⟨i 0, i 1, eq_ix2 i⟩
  unfold hs
  rw [Cert.KernelIdeal.Region0.G_apply, col_apply, Cert.DegBridge.ns_eq x8 x9 h8 h9]
  rfl

/-- The reference's first table before aggregation: the product's rows scaled. -/
theorem v22_eq : val_main_v22 (F := Ideal) x0 x1 x8
    = fun i => (∑ k : Fin 128, x0 (ix2 (i 0) k) * x1 (ix2 k (i 1))) * sc x8 (i 0) := by
  funext i
  obtain ⟨r, j, rfl⟩ : ∃ (r : Fin 100000) (j : Fin 128), i = ix2 r j := ⟨i 0, i 1, eq_ix2 i⟩
  rw [val_main_v22_apply, v19_at, v21_at, Ideal.mulf_def]
  rfl

include h0 h1 h8 h9 hsrc hdst in
/-- FIRST LAYER: the kernel program's aggregate times the weights is the reference's aggregate. -/
theorem layer1 (r : Fin 100000) (j : Fin 128) :
    ∑ k : Fin 128, aggK (hs x0 x8 x9) x8 x9 (ix2 r k) * x1 (ix2 k j) = val_main_v32 (F := Ideal) x0 x1 x8 x9 (ix2 r j) := by
  rw [Cert.AggRead.aggK_eq x8 x9 s d hsrc hdst, Cert.AggRead.v32_eq x8 x9 s d hsrc hdst, hs_eq x0 x8 x9 h8 h9, v22_eq]
  exact agg_matmul s d x0 x1 (sc x8) h0 h1 (sc_isReal x8 x9 h8 h9) r j

/-- The reference's activation at (r, j). -/
theorem v43_at (r : Fin 100000) (j : Fin 128) :
    val_main_v43 (F := Ideal) x0 x1 x2 x3 x8 x9 (ix2 r j)
      = max (val_main_v32 (F := Ideal) x0 x1 x8 x9 (ix2 r j) * val_main_v18 (F := Ideal) x9 (ix1 r) + x2 (ix1 j)) 0
          * val_main_v40 (F := Ideal) x3 (ix1 j) := by
  rw [val_main_v43_apply, val_main_v39_apply, val_main_v38_apply, val_main_v35_apply, v34_at, v37_at, v42_at, relu_zero,
    Ideal.mulf_def, Ideal.mulf_def, Ideal.addf_def, Ideal.maximumf_def]

include h0 h1 h8 h9 hsrc hdst in
/-- The second launch's output is the reference's activation with row r scaled by the start-node scale of r. -/
theorem ys_eq : ys x0 x1 x2 x3 x8 x9 = fun i => val_main_v43 (F := Ideal) x0 x1 x2 x3 x8 x9 i * sc x8 (i 0) := by
  funext i
  obtain ⟨r, j, rfl⟩ : ∃ (r : Fin 100000) (j : Fin 128), i = ix2 r j := ⟨i 0, i 1, eq_ix2 i⟩
  unfold ys
  rw [Cert.KernelIdeal.Region1.G_apply, layer1 x0 x1 x8 x9 h0 h1 h8 h9 s d hsrc hdst r j, col_apply, col_apply, row_apply, row_apply,
    Cert.DegBridge.nd_eq x8 x9 h8 h9, Cert.DegBridge.ns_eq x8 x9 h8 h9, clip_eq, v43_at]
  rfl

include h0 h1 h2 h3 h8 h9 hsrc hdst in
/-- The reference's activation is real. -/
theorem v43_isReal (i : S100000x128.Idx) : IsReal (val_main_v43 (F := Ideal) x0 x1 x2 x3 x8 x9 i) := by
  obtain ⟨r, j, rfl⟩ : ∃ (r : Fin 100000) (j : Fin 128), i = ix2 r j := ⟨i 0, i 1, eq_ix2 i⟩
  rw [v43_at, Cert.AggRead.v32_eq x8 x9 s d hsrc hdst, v22_eq]
  refine IsReal.mul (IsReal.max (IsReal.add (IsReal.mul (agg_isReal s d _ (fun i => ?_) _) (tc_isReal x8 x9 h8 h9 r)) (h2 _)) IsReal.zero) ?_
  · exact IsReal.mul (IsReal.sum _ _ fun k _ => IsReal.mul (h0 _) (h1 _)) (sc_isReal x8 x9 h8 h9 _)
  · rw [← clip_eq]
    exact Cert.Finite.clip01_isReal x3 h3 _

/-- The reference's second table before aggregation: the product's rows scaled. -/
theorem v47_eq : val_main_v47 (F := Ideal) x0 x1 x2 x3 x4 x8 x9
    = fun i => (∑ k : Fin 128, val_main_v43 (F := Ideal) x0 x1 x2 x3 x8 x9 (ix2 (i 0) k) * x4 (ix2 k (i 1))) * sc x8 (i 0) := by
  funext i
  obtain ⟨r, j, rfl⟩ : ∃ (r : Fin 100000) (j : Fin 128), i = ix2 r j := ⟨i 0, i 1, eq_ix2 i⟩
  rw [val_main_v47_apply, v44_at, v46_at, Ideal.mulf_def]
  rfl

include h0 h1 h2 h3 h4 h8 h9 hsrc hdst in
/-- SECOND LAYER: the same law with the activations in the features' place. -/
theorem layer2 (r : Fin 100000) (j : Fin 128) :
    ∑ k : Fin 128, aggK (ys x0 x1 x2 x3 x8 x9) x8 x9 (ix2 r k) * x4 (ix2 k j)
      = val_main_v57 (F := Ideal) x0 x1 x2 x3 x4 x8 x9 (ix2 r j) := by
  rw [Cert.AggRead.aggK_eq x8 x9 s d hsrc hdst, Cert.AggRead.v57_eq x8 x9 s d hsrc hdst, ys_eq x0 x1 x2 x3 x8 x9 h0 h1 h8 h9 s d hsrc hdst, v47_eq]
  exact agg_matmul s d _ x4 (sc x8) (v43_isReal x0 x1 x2 x3 x8 x9 h0 h1 h2 h3 h8 h9 s d hsrc hdst) h4 (sc_isReal x8 x9 h8 h9) r j

end Layers

/-! ## The node table, and the result -/

/-- The node table the last stretch receives is the same in both programs. -/
theorem xk_eq (x0 : FVec Ideal S100000x128 .f32) (x1 : FVec Ideal S128x128 .f32) (x2 x3 : FVec Ideal S128 .f32) (x4 : FVec Ideal S128x128 .f32) (x5 : FVec Ideal S128 .f32) (x8 x9 : IVec S1600000 32)
    (h0 : ∀ i, IsReal (x0 i)) (h1 : ∀ i, IsReal (x1 i)) (h2 : ∀ i, IsReal (x2 i)) (h3 : ∀ i, IsReal (x3 i))
    (h4 : ∀ i, IsReal (x4 i)) (h5 : ∀ i, IsReal (x5 i))
    (h8 : ∀ i, 0 ≤ (x8 i).toInt ∧ (x8 i).toInt < 100000) (h9 : ∀ i, 0 ≤ (x9 i).toInt ∧ (x9 i).toInt < 100000) :
    xk x0 x1 x2 x3 x4 x5 x8 x9 = val_main_v63 (F := Ideal) x0 x1 x2 x3 x4 x5 x8 x9 := by
  obtain ⟨s, hsrc⟩ := exists_nodes x8 h8
  obtain ⟨d, hdst⟩ := exists_nodes x9 h9
  funext i
  obtain ⟨r, j, rfl⟩ : ∃ (r : Fin 100000) (j : Fin 128), i = ix2 r j := ⟨i 0, i 1, eq_ix2 i⟩
  unfold xk
  rw [Cert.KernelIdeal.Region2.G_apply, layer2 x0 x1 x2 x3 x4 x8 x9 h0 h1 h2 h3 h4 h8 h9 s d hsrc hdst r j, col_apply, row_apply,
    Cert.DegBridge.nd_eq x8 x9 h8 h9, val_main_v63_apply, val_main_v60_apply, v59_at, v62_at, Ideal.mulf_def, Ideal.addf_def]

/-- The two results agree. -/
theorem kout_eq (x0 : FVec Ideal S100000x128 .f32) (x1 : FVec Ideal S128x128 .f32) (x2 x3 : FVec Ideal S128 .f32) (x4 : FVec Ideal S128x128 .f32) (x5 : FVec Ideal S128 .f32) (x6 : FVec Ideal S128x16 .f32) (x7 : FVec Ideal S16 .f32) (x8 x9 : IVec S1600000 32) (x10 : IVec S100000 32)
    (h0 : ∀ i, IsReal (x0 i)) (h1 : ∀ i, IsReal (x1 i)) (h2 : ∀ i, IsReal (x2 i)) (h3 : ∀ i, IsReal (x3 i))
    (h4 : ∀ i, IsReal (x4 i)) (h5 : ∀ i, IsReal (x5 i))
    (h8 : ∀ i, 0 ≤ (x8 i).toInt ∧ (x8 i).toInt < 100000) (h9 : ∀ i, 0 ≤ (x9 i).toInt ∧ (x9 i).toInt < 100000) :
    kout x0 x1 x2 x3 x4 x5 x6 x7 x8 x9 x10 = val_main_v79 (F := Ideal) x0 x1 x2 x3 x4 x5 x6 x7 x8 x9 x10 :=
  (congrArg (fun x => tail x x6 x7 x10) (xk_eq x0 x1 x2 x3 x4 x5 x8 x9 h0 h1 h2 h3 h4 h5 h8 h9)).trans
    (Cert.TailBridge.tail_eq x0 x1 x2 x3 x4 x5 x6 x7 x8 x9 x10)

end Cert.Bridge

end
-- ==== Proof.lean ====
/-
  A two-layer graph convolution with mean pooling and a linear classifier, computed two ways.

  The reference, per layer: multiply the node table by the weights, scale row i by the start-node scale of node i,
  sum over each node's incoming edges the rows at the edges' start nodes, scale by the end-node scale, add the
  bias. The kernel program moves each matrix product to AFTER the aggregation: it scales the rows, aggregates, and
  only then multiplies, in three launches that tile the 100000 nodes in blocks of 5000 rows; it also counts both
  degree vectors with one scatter instead of two. Over the extended reals, on real inputs and with every start and
  end node a node number, the two are the same function of the arguments: the aggregation is a finite sum, and a
  finite sum of real products distributes over the contraction.

  The three frames: the kernel programs' are the generated frame certificates; the reference's is its run with the
  result forgotten. The ideal pass rewrote nothing, so `preserves` is trivial. The value claim takes the kernel
  program's run with its result read back to a composition of whole-array functions (KRun, KChain, KStages, the
  three region modules), the reference's run and stages (RefRun, RefRead), the decoded precondition (PreDecode)
  and the equality of the two compositions (Bridge).
-/
import proofs.«412129_j59090160058839_3_alg».proof.Defs
import proofs.«412129_j59090160058839_3_alg».proof.Proof.Gen.Kernel
import proofs.«412129_j59090160058839_3_alg».proof.Proof.Gen.Kernel.Skeleton
import proofs.«412129_j59090160058839_3_alg».proof.Proof.Gen.Kernel.Launch
import proofs.«412129_j59090160058839_3_alg».proof.Proof.Gen.Kernel.Points
import proofs.«412129_j59090160058839_3_alg».proof.Proof.Gen.Kernel.Frame
import proofs.«412129_j59090160058839_3_alg».proof.Proof.Gen.KernelIdeal
import proofs.«412129_j59090160058839_3_alg».proof.Proof.Gen.KernelIdeal.Skeleton
import proofs.«412129_j59090160058839_3_alg».proof.Proof.Gen.KernelIdeal.Launch
import proofs.«412129_j59090160058839_3_alg».proof.Proof.Gen.KernelIdeal.Points
import proofs.«412129_j59090160058839_3_alg».proof.Proof.Gen.KernelIdeal.Frame
import proofs.«412129_j59090160058839_3_alg».proof.Proof.Gen.ReferenceIdeal
import proofs.«412129_j59090160058839_3_alg».proof.Proof.RefRun
import proofs.«412129_j59090160058839_3_alg».proof.Proof.RefRead
import proofs.«412129_j59090160058839_3_alg».proof.Proof.Gen.Pre_finite_inputs
import proofs.«412129_j59090160058839_3_alg».proof.Proof.KRun
import proofs.«412129_j59090160058839_3_alg».proof.Proof.KChain
import proofs.«412129_j59090160058839_3_alg».proof.Proof.PreDecode
import proofs.«412129_j59090160058839_3_alg».proof.Proof.Bridge
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- Both programs run; the kernel program ends at `Stages.kout` of its arguments, the reference at its last stage
    of arguments that agree, and under the precondition the two are equal. -/
theorem algebraic : Cert.algebraic_KernelIdeal_ReferenceIdeal := by
  intro m ρ m' ρ' hpre hagree
  refine ⟨fun c => Cert.KernelIdeal.Stages.kout (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.Chain.W15_result m ρ c), (h c).2⟩)
      (Cert.KernelIdeal.GenRun.run_result (F := Ideal) m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v79_eq]
    obtain ⟨a0, a1, a2, a3, a4, a5, a6, a7, a8, a9, a10⟩ := hagree c
    rw [a0, a1, a2, a3, a4, a5, a6, a7, a8, a9, a10]
    obtain ⟨f0, f1, f2, f3, f4, f5, f8, f9⟩ := Cert.PreDecode.decode _ _ _ _ _ _ _ _ _ _ _ (hpre c)
    exact (Cert.Bridge.kout_eq _ _ _ _ _ _ _ _ _ _ _ f0 f1 f2 f3 f4 f5 f8 f9).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
